-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x512 : Shape := ⟨2, ![64, 512]⟩
abbrev S512 : Shape := ⟨1, ![512]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S64 .f32) (main_arg6 : FVec F S64x512 .f32) (main_arg7 : FVec F S512 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x512 .f32 := Host.absf main_arg6
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x64 .f32) (main_arg5 : FVec F S64 .f32) (main_arg6 : FVec F S64x512 .f32) (main_arg7 : FVec F S512 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x512 : Shape := ⟨2, ![64, 512]⟩
abbrev S512 : Shape := ⟨1, ![512]⟩
abbrev S1x600000 : Shape := ⟨2, ![1, 600000]⟩
abbrev S600000 : Shape := ⟨1, ![600000]⟩
abbrev S128x192 : Shape := ⟨2, ![128, 192]⟩
abbrev S50000x192 : Shape := ⟨2, ![50000, 192]⟩
abbrev S5000x128 : Shape := ⟨2, ![5000, 128]⟩
abbrev S5000x192 : Shape := ⟨2, ![5000, 192]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x192 : Shape := ⟨2, ![650000, 192]⟩
abbrev S1x128 : Shape := ⟨2, ![1, 128]⟩
abbrev S1x64 : Shape := ⟨2, ![1, 64]⟩
abbrev S1x512 : Shape := ⟨2, ![1, 512]⟩
abbrev S512x128 : Shape := ⟨2, ![512, 128]⟩
abbrev S1000x192 : Shape := ⟨2, ![1000, 192]⟩
abbrev S1000x128 : Shape := ⟨2, ![1000, 128]⟩
abbrev S1000x64 : Shape := ⟨2, ![1000, 64]⟩
abbrev S1000x512 : Shape := ⟨2, ![1000, 512]⟩
abbrev S1000 : Shape := ⟨1, ![1000]⟩
abbrev S1000x1 : Shape := ⟨2, ![1000, 1]⟩
abbrev S512x1000 : Shape := ⟨2, ![512, 1000]⟩

abbrev nBuf : Space → Nat
  | .hbm => 70
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x512, .f32⟩
  | .hbm, ⟨7, _⟩ => ⟨S512, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S128x192, .f32⟩
  | .hbm, ⟨13, _⟩ => ⟨S50000x192, .f32⟩
  | .hbm, ⟨14, _⟩ => ⟨S50000, .i32⟩
  | .hbm, ⟨15, _⟩ => ⟨S650000, .i32⟩
  | .hbm, ⟨16, _⟩ => ⟨S650000, .i32⟩
  | .hbm, ⟨17, _⟩ => ⟨S_, .f32⟩
  | .hbm, ⟨18, _⟩ => ⟨S650000, .f32⟩
  | .hbm, ⟨19, _⟩ => ⟨S_, .f32⟩
  | .hbm, ⟨20, _⟩ => ⟨S50000, .f32⟩
  | .hbm, ⟨21, _⟩ => ⟨S650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000, .f32⟩
  | .hbm, ⟨49, _⟩ => ⟨S650000, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x192, .f32⟩
  | .hbm, ⟨59, _⟩ => ⟨S650000x1, .f32⟩
  | .hbm, ⟨60, _⟩ => ⟨S650000x192, .f32⟩
  | .hbm, ⟨61, _⟩ => ⟨S650000x192, .f32⟩
  | .hbm, ⟨62, _⟩ => ⟨S_, .f32⟩
  | .hbm, ⟨63, _⟩ => ⟨S50000x192, .f32⟩
  | .hbm, ⟨64, _⟩ => ⟨S650000x1, .i32⟩
  | .hbm, ⟨65, _⟩ => ⟨S50000x192, .f32⟩
  | .hbm, ⟨66, _⟩ => ⟨S1x128, .f32⟩
  | .hbm, ⟨67, _⟩ => ⟨S1x64, .f32⟩
  | .hbm, ⟨68, _⟩ => ⟨S1x512, .f32⟩
  | .hbm, ⟨69, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x192, .f32⟩
  | .local _ .vmem, ⟨3, _⟩ => ⟨S5000x192, .f32⟩
  | .local _ .vmem, ⟨4, _⟩ => ⟨S5000x192, .f32⟩
  | .local _ .vmem, ⟨5, _⟩ => ⟨S1000x192, .f32⟩
  | .local _ .vmem, ⟨6, _⟩ => ⟨S1000x192, .f32⟩
  | .local _ .vmem, ⟨7, _⟩ => ⟨S64x512, .f32⟩
  | .local _ .vmem, ⟨8, _⟩ => ⟨S1x64, .f32⟩
  | .local _ .vmem, ⟨9, _⟩ => ⟨S1x512, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S128x128_S128x64_S128x192_d1 : Shape.Concatenates [S128x128, S128x64] S128x192 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S5000x192_S5000x192_0_0 : ∀ a, (![0, 0] : Fin 2 → Nat) a + S5000x192.size a ≤ S5000x192.size a
  h_S5000x192 : 0 < S5000x192.numel
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x192_0_1 : S650000x1.BroadcastsInDim S650000x192 (![0, 1] : Fin 2 → Fin S650000x192.rank)
  bcast_S_S50000x192 : S_.BroadcastsInDim S50000x192 (![] : Fin 0 → Fin S50000x192.rank)
  shapeCasts_S128_S1x128 : S128.ShapeCasts S1x128
  shapeCasts_S64_S1x64 : S64.ShapeCasts S1x64
  shapeCasts_S512_S1x512 : S512.ShapeCasts S1x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1000x192_S1000x192_0_0 : ∀ a, (![0, 0] : Fin 2 → Nat) a + S1000x192.size a ≤ S1000x192.size a
  h_S1000x192 : 0 < S1000x192.numel
  shapeCasts_S1000x192_S1000x192 : S1000x192.ShapeCasts S1000x192
  slices_S1000x192_o0_0_S1000x128 : S1000x192.Slices ![0, 0] S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S1000x192_o0_128_S1000x64 : S1000x192.Slices ![0, 128] S1000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  transposes_S1000x512_p1_0_S512x1000 : S1000x512.Transposes [1, 0] S512x1000
  dot_S5000x128_S128x192_S5000x192_1_0_0_1_n_n_wf : DotDims.WF S5000x128 S128x192 S5000x192 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x192_S650000x1_S650000x192_1_0_n_n_0_1_1192_wf : GatherDims.WF S50000x192 S650000x1 S650000x192 [1] [0] [] [0] [] 1 ![1, 192]
  scatter_S50000x192_S650000x1_S650000x192_1_0_0_1_wf : ScatterDims.WF S50000x192 S650000x1 S650000x192 [1] [0] [0] 1
  dot_S1000x64_S64x512_S1000x512_1_0_0_1_n_n_wf : DotDims.WF S1000x64 S64x512 S1000x512 [1] [0] [0] [1] [] []
  dot_S512x1000_S1000x128_S512x128_1_0_0_1_n_n_wf : DotDims.WF S512x1000 S1000x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x192.size a ≤ S128x192.size a
  hwx0_1 : ∀ i : grid0.Coords, EltTy.bits .f32 = 32 ∨ (Rect.block (s := S128x192) S128x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x192.size a ≤ S50000x192.size a
  hwx0_2 : ∀ i : grid0.Coords, EltTy.bits .f32 = 32 ∨ (Rect.block (s := S50000x192) S5000x192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x192.size a ≤ S50000x192.size a
  hwx1_0 : ∀ i : grid1.Coords, EltTy.bits .f32 = 32 ∨ (Rect.block (s := S50000x192) S1000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S64x512.size a
  hwx1_1 : ∀ i : grid1.Coords, EltTy.bits .f32 = 32 ∨ (Rect.block (s := S64x512) S64x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .f32 = 32 ∨ (Rect.block (s := S512x128) S512x128.size (cc1_transform_5 i) (hinb1_5 i)).WholeWords (EltTy.packing .f32)

variable [Facts₀]

def dot_S5000x128_S128x192_S5000x192_1_0_0_1_n_n : DotDims S5000x128 S128x192 S5000x192 where
  lhsContracting := [1]
  rhsContracting := [0]
  lhsNonContracting := [0]
  rhsNonContracting := [1]
  lhsBatch := []
  rhsBatch := []
  wf := dot_S5000x128_S128x192_S5000x192_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x192_S650000x1_S650000x192_1_0_n_n_0_1_1192 : GatherDims S50000x192 S650000x1 S650000x192 where
  offsetDims := [1]
  collapsedSliceDims := [0]
  operandBatchingDims := []
  startIndicesBatchingDims := []
  startIndexMap := [0]
  indexVectorDim := 1
  sliceSizes := ![1, 192]
  wf := gather_S50000x192_S650000x1_S650000x192_1_0_n_n_0_1_1192_wf
def scatter_S50000x192_S650000x1_S650000x192_1_0_0_1 : ScatterDims S50000x192 S650000x1 S650000x192 where
  updateWindowDims := [1]
  insertedWindowDims := [0]
  scatterDimsToOperandDims := [0]
  indexVectorDim := 1
  wf := scatter_S50000x192_S650000x1_S650000x192_1_0_0_1_wf
def dot_S1000x64_S64x512_S1000x512_1_0_0_1_n_n : DotDims S1000x64 S64x512 S1000x512 where
  lhsContracting := [1]
  rhsContracting := [0]
  lhsNonContracting := [0]
  rhsNonContracting := [1]
  lhsBatch := []
  rhsBatch := []
  wf := dot_S1000x64_S64x512_S1000x512_1_0_0_1_n_n_wf
def dot_S512x1000_S1000x128_S512x128_1_0_0_1_n_n : DotDims S512x1000 S1000x128 S512x128 where
  lhsContracting := [1]
  rhsContracting := [0]
  lhsNonContracting := [0]
  rhsNonContracting := [1]
  lhsBatch := []
  rhsBatch := []
  wf := dot_S512x1000_S1000x128_S512x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S512x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x512 : Shape := ⟨2, ![64, 512]⟩
abbrev S512 : Shape := ⟨1, ![512]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩
abbrev S50000x512 : Shape := ⟨2, ![50000, 512]⟩
abbrev S1x512 : Shape := ⟨2, ![1, 512]⟩
abbrev S50000x1 : Shape := ⟨2, ![50000, 1]⟩
abbrev S512x50000 : Shape := ⟨2, ![512, 50000]⟩
abbrev S512x128 : Shape := ⟨2, ![512, 128]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x64, .f32⟩
  | 5 => ⟨S64, .f32⟩
  | 6 => ⟨S64x512, .f32⟩
  | 7 => ⟨S512, .f32⟩
  | 8 => ⟨S1x600000, .i32⟩
  | 9 => ⟨S600000, .i32⟩
  | 10 => ⟨S1x600000, .i32⟩
  | 11 => ⟨S600000, .i32⟩
  | 12 => ⟨S50000x128, .f32⟩
  | 13 => ⟨S50000, .i32⟩
  | 14 => ⟨S650000, .i32⟩
  | 15 => ⟨S650000, .i32⟩
  | 16 => ⟨S_, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S650000, .i32⟩
  | 32 => ⟨S650000, .i1⟩
  | 33 => ⟨S_, .i32⟩
  | 34 => ⟨S650000, .i32⟩
  | 35 => ⟨S650000, .i32⟩
  | 36 => ⟨S650000, .i32⟩
  | 37 => ⟨S650000x1, .i32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x1, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x64, .f32⟩
  | 72 => ⟨S50000, .i32⟩
  | 73 => ⟨S650000, .i32⟩
  | 74 => ⟨S650000, .i32⟩
  | 75 => ⟨S_, .f32⟩
  | 76 => ⟨S650000, .f32⟩
  | 77 => ⟨S_, .f32⟩
  | 78 => ⟨S50000, .f32⟩
  | 79 => ⟨S650000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S650000, .i32⟩
  | 91 => ⟨S650000, .i1⟩
  | 92 => ⟨S_, .i32⟩
  | 93 => ⟨S650000, .i32⟩
  | 94 => ⟨S650000, .i32⟩
  | 95 => ⟨S650000, .i32⟩
  | 96 => ⟨S650000x1, .i32⟩
  | 97 => ⟨S650000, .f32⟩
  | 98 => ⟨S_, .i32⟩
  | 99 => ⟨S650000, .i32⟩
  | 100 => ⟨S650000, .i1⟩
  | 101 => ⟨S_, .i32⟩
  | 102 => ⟨S650000, .i32⟩
  | 103 => ⟨S650000, .i32⟩
  | 104 => ⟨S650000, .i32⟩
  | 105 => ⟨S650000x1, .i32⟩
  | 106 => ⟨S650000, .f32⟩
  | 107 => ⟨S650000, .f32⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000x64, .f32⟩
  | 117 => ⟨S650000x1, .f32⟩
  | 118 => ⟨S650000x64, .f32⟩
  | 119 => ⟨S650000x64, .f32⟩
  | 120 => ⟨S_, .f32⟩
  | 121 => ⟨S50000x64, .f32⟩
  | 122 => ⟨S650000x1, .i32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S50000x128, .f32⟩

abbrev hbmTy0_1 (i : Nat) : BufTy := match i % 128 with
  | 0 => ⟨S50000x64, .f32⟩
  | 1 => ⟨S50000x64, .f32⟩
  | 2 => ⟨S50000x512, .f32⟩
  | 3 => ⟨S1x512, .f32⟩
  | 4 => ⟨S50000x512, .f32⟩
  | 5 => ⟨S50000x512, .f32⟩
  | 6 => ⟨S_, .f32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x512, .f32⟩
  | 13 => ⟨S50000x512, .f32⟩
  | 14 => ⟨S50000x512, .f32⟩
  | 15 => ⟨S_, .f32⟩
  | 16 => ⟨S50000, .f32⟩
  | 17 => ⟨S50000x1, .f32⟩
  | 18 => ⟨S50000x512, .f32⟩
  | 19 => ⟨S50000x512, .f32⟩
  | 20 => ⟨S512x50000, .f32⟩
  | 21 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_cst_21 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_22 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S50000x512_S512x50000_1_0 : S50000x512.Transposes [1, 0] S512x50000
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S50000x64_S64x512_S50000x512_1_0_0_1_n_n_wf : DotDims.WF S50000x64 S64x512 S50000x512 [1] [0] [0] [1] [] []
  dot_S512x50000_S50000x128_S512x128_1_0_0_1_n_n_wf : DotDims.WF S512x50000 S50000x128 S512x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S50000x64_S64x512_S50000x512_1_0_0_1_n_n : DotDims S50000x64 S64x512 S50000x512 where
  lhsContracting := [1]
  rhsContracting := [0]
  lhsNonContracting := [0]
  rhsNonContracting := [1]
  lhsBatch := []
  rhsBatch := []
  wf := dot_S50000x64_S64x512_S50000x512_1_0_0_1_n_n_wf
def dot_S512x50000_S50000x128_S512x128_1_0_0_1_n_n : DotDims S512x50000 S50000x128 S512x128 where
  lhsContracting := [1]
  rhsContracting := [0]
  lhsNonContracting := [0]
  rhsNonContracting := [1]
  lhsBatch := []
  rhsBatch := []
  wf := dot_S512x50000_S50000x128_S512x128_1_0_0_1_n_n_wf

class Facts : Prop extends Facts₀ where

variable [Facts]
-- ==== Proof.KI.R0.lean ====
/- The first kernel region (the row-tiled projection x · [w_embed | w_assign]) at the contents its region is entered with. -/
import proofs.«111678_j16475494547689_1_alg».proof.Proof.Gen.KernelIdeal.Launch
import proofs.«111678_j16475494547689_1_alg».proof.Proof.Gen.KernelIdeal.Skeleton
import proofs.«111678_j16475494547689_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x192 := Rect.unit (s := S128x192) ![0, 0] S128x192.size inb_S128x192_S128x192_0_0
abbrev r0_2 : Rect S5000x192 := Rect.unit (s := S5000x192) ![0, 0] S5000x192.size inb_S5000x192_S5000x192_0_0

/-- The output block after the body: the one store of the product of the two input blocks. -/
def out0_2 (x0 : Vec F S5000x128 .f32) (x1 : Vec F S128x192 .f32) : Vec F S5000x192 .f32 :=
  View.canon [⟨r0_2, k0_pay1 (View.ld x0 r0_0) (View.ld x1 r0_1)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## What the body finds in each input window's buffer -/

/-- The row block of `x` sits in its staging buffer at every point: it is fetched at every point, and a fetch of
    an uncut window puts the window's block there. Stated for any proof data over the region's arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The 128×192 matrix sits in its staging buffer at every point although it is fetched at the first only: its block
    index never moves, so the block a fetch would bring at a later point is the one already there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output buffer -/

/-- The store's rectangle is the whole 5000×192 buffer, so every index of the buffer lies in it. -/
theorem cover0_2 (p0 : Vec F S5000x192 .f32) (y : S5000x192.Idx) :
    ∃ pc ∈ ([⟨r0_2, p0⟩] : List (View.Piece (Elt F) S5000x192 .f32)), y ∈ pc.1.set :=
  View.cover_of_tiled [⟨r0_2, p0⟩] S5000x192.size (by rfl) y

/-! ## The body's triple -/

set_option maxHeartbeats 1000000 in
/-- The body on whole staging memrefs, the two inputs' at read contents `x0`, `x1` and the output's at anything:
    it reads the two inputs whole, reads the output buffer (a value it never uses), and stores the product over the
    whole output buffer; the inputs are left as they were and the output holds the product. -/
theorem sound_kernel0 (c : Dev nD) (E : Set ℕ) (i : grid0.Coords)
    (arg1 : Memref sig .tc .vmem S5000x128 .f32) (harg1 : arg1.IsWhole)
    (arg2 : Memref sig .tc .vmem S128x192 .f32) (harg2 : arg2.IsWhole)
    (arg3 : Memref sig .tc .vmem S5000x192 .f32) (harg3 : arg3.IsWhole)
    (x0 : Vec F S5000x128 .f32) (x1 : Vec F S128x192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__embed_kernel i arg1 harg1 arg2 harg2 arg3 harg3) K := by
  simp only [cc0__embed_kernel_eq_skeleton]; unfold cc0__embed_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The inputs' buffers under this region's proof data -/

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, what is owed, and each window's current staging buffer
    at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Runs.lean ====
/- The second kernel region's body, run once on any memrefs: the branch condition in closed form, the memrefs the region
   calls the body on, and the body's two whole runs (first point; every later point). -/
import proofs.«111678_j16475494547689_1_alg».proof.Proof.Gen.KernelIdeal.Launch
import proofs.«111678_j16475494547689_1_alg».proof.Proof.Gen.KernelIdeal.Skeleton
import proofs.«111678_j16475494547689_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch on the grid coordinate -/

/-- The body's one branch condition, as a function of the grid coordinates: the coordinate, as a 32-bit word, compared
    with zero, the comparison's bit widened and tested against zero. -/
abbrev cond1_0 (i : grid1.Coords) : Prop := (Scalar.cmpi .ne (Scalar.extui (Scalar.cmpi .eq (BitVec.ofNat 32 (i 0).val) 0#32)) 0#32) = 1#1
/-- It holds at the first point and at no other: decided over the fifty points. -/
theorem hcond1_0 : ∀ t : Fin cfg1.N, cond1_0 (grid1.coords t) ↔ t.val % 50 = 0 :=
  (by decide +kernel : ∀ t : Fin grid1.N, cond1_0 (grid1.coords t) ↔ t.val % 50 = 0)

/-! ## No window is ever idle: the body loads every input and stores the output at every point -/

theorem liveAt1 (w : Fin cfg1.W) : ∀ i, cfg1.idle w i = false := fun _ => rfl

/-! ## The memrefs the body is called on -/

/-- The output window's staging buffer as a view: what the output holds is stated through it. -/
abbrev VO1_5 : View sig .tc .vmem S512x128 .f32 := (Memref.whole cc1_stg5_0 : Memref sig .tc .vmem S512x128 .f32).view
/-- Each window's current staging memref at point `t`, and that it is a whole buffer. -/
abbrev ms1_0 (t : Fin cfg1.N) : Memref sig .tc .vmem S1000x192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
/-- The scratch operand: a whole scoped buffer of the kernel's own. -/
abbrev scM1_0 : Memref sig .tc .vmem S512x128 .f32 := Memref.whole cc1_scratch0
/-- The accumulator the kernel keeps between points, as a view: what it holds is stated through it. -/
abbrev VS1_0 : View sig .tc .vmem S512x128 .f32 := scM1_0.view

/-- The class's region invariant spelt out: the core's scoped buffers that are no staging buffer of this region — the
    other region's five staging buffers, and the accumulator as a memref owned at some contents — and the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's two runs -/

set_option maxHeartbeats 1000000 in
/-- The whole body on any whole memrefs when the branch on the grid coordinate is taken (the first point): from the five
    input buffers at their contents `x0 … x4`, the output buffer at anything and the accumulator at anything,
    the body runs to a continuation that is handed the inputs as they were and the output buffer and the accumulator each
    with a list of writes laid over it (last write first). The two lists are the witness: they are read off the run. -/
noncomputable def kernelRun1_A (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__pool_kernel i arg1 harg1 arg2 harg2 arg3 harg3 arg4 harg4 arg5 harg5 arg6 harg6 arg7 harg7) K } := by
  refine ⟨?_, ?_, fun E K => ?run⟩
  case run =>
    simp only [cc1__pool_kernel_eq_skeleton]; unfold cc1__pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 1000000 in
/-- The whole body on any whole memrefs when the branch on the grid coordinate is not taken (every later point): from the five
    input buffers at their contents `x0 … x4`, the output buffer at anything and the accumulator at the contents `xs0` the point before left,
    the body runs to a continuation that is handed the inputs as they were and the output buffer and the accumulator each
    with a list of writes laid over it (last write first). The two lists are the witness: they are read off the run. -/
noncomputable def kernelRun1_B (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__pool_kernel i arg1 harg1 arg2 harg2 arg3 harg3 arg4 harg4 arg5 harg5 arg6 harg6 arg7 harg7) K } := by
  refine ⟨?_, ?_, fun E K => ?run⟩
  case run =>
    simp only [cc1__pool_kernel_eq_skeleton]; unfold cc1__pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.KI.R1.lean ====
/- The second kernel region (the fused pooling kernel, which accumulates into a scratch it keeps across grid points) at the contents its region is entered with. -/
import proofs.«111678_j16475494547689_1_alg».proof.Proof.KI.R1Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each run leaves in the output buffer and in the accumulator -/

/-- The first point's run's writes into the output buffer tile its block, so every index is under one of them. -/
theorem cover1_A_5 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) (y : S512x128.Idx) :
    ∃ pc ∈ (kernelRun1_A c i arg1 harg1 arg2 harg2 arg3 harg3 arg4 harg4 arg5 harg5 arg6 harg6 arg7 harg7 hc0 x0 x1 x2 x3 x4).1, y ∈ pc.1.set :=
  View.cover_of_tiledL (kernelRun1_A c i arg1 harg1 arg2 harg2 arg3 harg3 arg4 harg4 arg5 harg5 arg6 harg6 arg7 harg7 hc0 x0 x1 x2 x3 x4).1 S512x128.size (by sl_kernel_rfl) y

/-- What the first point's run leaves in the output buffer: its writes read back. -/
def out1_A_5 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) : Vec F S512x128 .f32 :=
  VO1_5.read (Elt F) (VO1_5.writes (Elt F) VO1_5.junk (kernelRun1_A c i arg1 harg1 arg2 harg2 arg3 harg3 arg4 harg4 arg5 harg5 arg6 harg6 arg7 harg7 hc0 x0 x1 x2 x3 x4).1)

/-- The first point's run's writes into the accumulator cover it. -/
theorem scover1_A_0 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) (y : S512x128.Idx) :
    ∃ pc ∈ (kernelRun1_A c i arg1 harg1 arg2 harg2 arg3 harg3 arg4 harg4 arg5 harg5 arg6 harg6 arg7 harg7 hc0 x0 x1 x2 x3 x4).2.1, y ∈ pc.1.set :=
  View.cover_of_tiledL (kernelRun1_A c i arg1 harg1 arg2 harg2 arg3 harg3 arg4 harg4 arg5 harg5 arg6 harg6 arg7 harg7 hc0 x0 x1 x2 x3 x4).2.1 S512x128.size (by sl_kernel_rfl) y

/-- What the first point's run leaves in the accumulator: its writes read back. -/
def sout1_A_0 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) : Vec F S512x128 .f32 :=
  VS1_0.read (Elt F) (VS1_0.writes (Elt F) VS1_0.junk (kernelRun1_A c i arg1 harg1 arg2 harg2 arg3 harg3 arg4 harg4 arg5 harg5 arg6 harg6 arg7 harg7 hc0 x0 x1 x2 x3 x4).2.1)

/-- A later point's run's writes into the output buffer tile its block, so every index is under one of them. -/
theorem cover1_B_5 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) (y : S512x128.Idx) :
    ∃ pc ∈ (kernelRun1_B c i arg1 harg1 arg2 harg2 arg3 harg3 arg4 harg4 arg5 harg5 arg6 harg6 arg7 harg7 hc0 x0 x1 x2 x3 x4 xs0).1, y ∈ pc.1.set :=
  View.cover_of_tiledL (kernelRun1_B c i arg1 harg1 arg2 harg2 arg3 harg3 arg4 harg4 arg5 harg5 arg6 harg6 arg7 harg7 hc0 x0 x1 x2 x3 x4 xs0).1 S512x128.size (by sl_kernel_rfl) y

/-- What a later point's run leaves in the output buffer: its writes read back. -/
def out1_B_5 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) : Vec F S512x128 .f32 :=
  VO1_5.read (Elt F) (VO1_5.writes (Elt F) VO1_5.junk (kernelRun1_B c i arg1 harg1 arg2 harg2 arg3 harg3 arg4 harg4 arg5 harg5 arg6 harg6 arg7 harg7 hc0 x0 x1 x2 x3 x4 xs0).1)

/-- A later point's run's writes into the accumulator cover it. -/
theorem scover1_B_0 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) (y : S512x128.Idx) :
    ∃ pc ∈ (kernelRun1_B c i arg1 harg1 arg2 harg2 arg3 harg3 arg4 harg4 arg5 harg5 arg6 harg6 arg7 harg7 hc0 x0 x1 x2 x3 x4 xs0).2.1, y ∈ pc.1.set :=
  View.cover_of_tiledL (kernelRun1_B c i arg1 harg1 arg2 harg2 arg3 harg3 arg4 harg4 arg5 harg5 arg6 harg6 arg7 harg7 hc0 x0 x1 x2 x3 x4 xs0).2.1 S512x128.size (by sl_kernel_rfl) y

/-- What a later point's run leaves in the accumulator: its writes read back. -/
def sout1_B_0 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) : Vec F S512x128 .f32 :=
  VS1_0.read (Elt F) (VS1_0.writes (Elt F) VS1_0.junk (kernelRun1_B c i arg1 harg1 arg2 harg2 arg3 harg3 arg4 harg4 arg5 harg5 arg6 harg6 arg7 harg7 hc0 x0 x1 x2 x3 x4 xs0).2.1)

/-- One grid point's update of the accumulator: the accumulator plus (softmax assignment)ᵀ · (embedding) of the point's
    1000 rows. `x0` is the block of aggregated features, `x1` the 64×512 matrix, `x2`, `x3`, `x4` the assignment, logit and
    embedding biases. -/
def step1 (x0 : Vec F S1000x192 .f32) (x1 : Vec F S64x512 .f32) (x2 : Vec F S1x64 .f32) (x3 : Vec F S1x512 .f32)
    (x4 : Vec F S1x128 .f32) (acc : Vec F S512x128 .f32) : Vec F S512x128 .f32 :=
  k1_pay1 (k1_pay4 x0 x2 x1 x3) (k1_pay5 x0 x4) acc

/-! ## The writes the runs found, made explicit -/

/-- The rectangle offsets of a whole-buffer load or store are zero. -/
theorem hz1 : (![0, 0] : Fin 2 → Nat) = fun _ => 0 := funext fun a => by fin_cases a <;> rfl

/-- At the first point the accumulator is first reset to zero, then read back and updated: it ends at one update of zero. -/
theorem sout1_A_0_eq (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) :
    sout1_A_0 c i arg1 harg1 arg2 harg2 arg3 harg3 arg4 harg4 arg5 harg5 arg6 harg6 arg7 harg7 hc0 x0 x1 x2 x3 x4 = step1 x0 x1 x2 x3 x4 (k1_pay2 (F := F)) := by
  unfold sout1_A_0; rw [View.read_writes_eq_canon _ _ _ (scover1_A_0 c i arg1 harg1 arg2 harg2 arg3 harg3 arg4 harg4 arg5 harg5 arg6 harg6 arg7 harg7 hc0 x0 x1 x2 x3 x4)]; unfold kernelRun1_A
  dsimp only
  sl_unfold_words
  rw [View.canon_cons_unit_zero (S := S512x128) hz1, View.readCov_unit_zero (S := S512x128) _ hz1]
  unfold step1
  simp only [View.readAt_eq_ld, harg1.read_unread, harg2.read_unread, harg3.read_unread, harg4.read_unread, harg5.read_unread, View.ld_unit_zero (S := S1000x192) hz1, View.ld_unit_zero (S := S64x512) hz1, View.ld_unit_zero (S := S1x64) hz1, View.ld_unit_zero (S := S1x512) hz1, View.ld_unit_zero (S := S1x128) hz1]

/-- The output buffer is stored last, from the accumulator read back: it ends at the same. -/
theorem out1_A_5_eq (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) :
    out1_A_5 c i arg1 harg1 arg2 harg2 arg3 harg3 arg4 harg4 arg5 harg5 arg6 harg6 arg7 harg7 hc0 x0 x1 x2 x3 x4 = step1 x0 x1 x2 x3 x4 (k1_pay2 (F := F)) := by
  unfold out1_A_5; rw [View.read_writes_eq_canon _ _ _ (cover1_A_5 c i arg1 harg1 arg2 harg2 arg3 harg3 arg4 harg4 arg5 harg5 arg6 harg6 arg7 harg7 hc0 x0 x1 x2 x3 x4)]; unfold kernelRun1_A
  dsimp only
  sl_unfold_words
  rw [View.canon_unit_zero hz1, View.readCov_cons_toLoadRect, View.readCov_unit_zero (S := S512x128) _ hz1]
  unfold step1
  simp only [View.readAt_eq_ld, harg1.read_unread, harg2.read_unread, harg3.read_unread, harg4.read_unread, harg5.read_unread, View.ld_unit_zero (S := S1000x192) hz1, View.ld_unit_zero (S := S64x512) hz1, View.ld_unit_zero (S := S1x64) hz1, View.ld_unit_zero (S := S1x512) hz1, View.ld_unit_zero (S := S1x128) hz1]

/-- At a later point the accumulator is read and updated: it ends at one update of what it held. -/
theorem sout1_B_0_eq (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) :
    sout1_B_0 c i arg1 harg1 arg2 harg2 arg3 harg3 arg4 harg4 arg5 harg5 arg6 harg6 arg7 harg7 hc0 x0 x1 x2 x3 x4 xs0 = step1 x0 x1 x2 x3 x4 xs0 := by
  unfold sout1_B_0; rw [View.read_writes_eq_canon _ _ _ (scover1_B_0 c i arg1 harg1 arg2 harg2 arg3 harg3 arg4 harg4 arg5 harg5 arg6 harg6 arg7 harg7 hc0 x0 x1 x2 x3 x4 xs0)]; unfold kernelRun1_B
  dsimp only
  sl_unfold_words
  rw [View.canon_unit_zero hz1]
  unfold step1
  simp only [View.readAt_eq_ld, harg1.read_unread, harg2.read_unread, harg3.read_unread, harg4.read_unread, harg5.read_unread, View.ld_unit_zero (S := S1000x192) hz1, View.ld_unit_zero (S := S64x512) hz1, View.ld_unit_zero (S := S1x64) hz1, View.ld_unit_zero (S := S1x512) hz1, View.ld_unit_zero (S := S1x128) hz1, harg7.read_unread, View.ld_unit_zero (S := S512x128) hz1]

/-- The output buffer again ends at the accumulator's new contents. -/
theorem out1_B_5_eq (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) :
    out1_B_5 c i arg1 harg1 arg2 harg2 arg3 harg3 arg4 harg4 arg5 harg5 arg6 harg6 arg7 harg7 hc0 x0 x1 x2 x3 x4 xs0 = step1 x0 x1 x2 x3 x4 xs0 := by
  unfold out1_B_5; rw [View.read_writes_eq_canon _ _ _ (cover1_B_5 c i arg1 harg1 arg2 harg2 arg3 harg3 arg4 harg4 arg5 harg5 arg6 harg6 arg7 harg7 hc0 x0 x1 x2 x3 x4 xs0)]; unfold kernelRun1_B
  dsimp only
  sl_unfold_words
  rw [View.canon_unit_zero hz1, View.readCov_cons_toLoadRect]
  unfold step1
  simp only [View.readAt_eq_ld, harg1.read_unread, harg2.read_unread, harg3.read_unread, harg4.read_unread, harg5.read_unread, View.ld_unit_zero (S := S1000x192) hz1, View.ld_unit_zero (S := S64x512) hz1, View.ld_unit_zero (S := S1x64) hz1, View.ld_unit_zero (S := S1x512) hz1, View.ld_unit_zero (S := S1x128) hz1, harg7.read_unread, View.ld_unit_zero (S := S512x128) hz1]

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The branch is taken at the first point, -/
theorem cond1_0_zero (hn : 0 < cfg1.N) : cond1_0 (grid1.coords ⟨0, hn⟩) := (hcond1_0 ⟨0, hn⟩).mpr (Nat.zero_mod _)
/-- and at no later one: a positive position below fifty is not a multiple of fifty. -/
theorem ncond1_0_succ (n : ℕ) (hn : n + 1 < cfg1.N) : ¬cond1_0 (grid1.coords ⟨n + 1, hn⟩) := fun h => by
  have h' : (n + 1) % 50 = 0 := (hcond1_0 ⟨n + 1, hn⟩).mp h
  have hN : n + 1 < 50 := lt_of_lt_of_eq hn (show cfg1.N = 50 from N_1)
  omega

/-- The accumulator's (and the output block's) contents after the body at position `n`: a pair (output block, scratch).
    At the first position the first point's run on the point's memrefs and blocks; at a later one the other run, the
    accumulator entering at what the position before left. -/
def outsAt1 (c : Dev nD) : (n : ℕ) → n < cfg1.N → Vec F S512x128 .f32 × Vec F S512x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) (cond1_0_zero hn) (iblk1 V c 0 ⟨0, hn⟩) (iblk1 V c 1 ⟨0, hn⟩) (iblk1 V c 2 ⟨0, hn⟩) (iblk1 V c 3 ⟨0, hn⟩) (iblk1 V c 4 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) (cond1_0_zero hn) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn => (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (ncond1_0_succ n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (ncond1_0_succ n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point where the branch is taken: the first run's contents. -/
theorem outsAt1_A (c : Dev nD) (t : Fin cfg1.N) (h0 : t.val % 50 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact (by exfalso; have hN : n + 1 < 50 := lt_of_lt_of_eq hn (show cfg1.N = 50 from N_1); (try dsimp only at h0); omega)

/-- `outsAt1` at a point where it is not: the other run's contents, over what the point before left. -/
theorem outsAt1_B (c : Dev nD) (t : Fin cfg1.N) (h0 : ¬t.val % 50 = 0) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact rfl

/-- At the first point the accumulator starts from zero. -/
theorem outsAt1_first (c : Dev nD) (h : 0 < cfg1.N) :
    outsAt1 V c 0 h = (step1 (iblk1 V c 0 ⟨0, h⟩) (iblk1 V c 1 ⟨0, h⟩) (iblk1 V c 2 ⟨0, h⟩) (iblk1 V c 3 ⟨0, h⟩) (iblk1 V c 4 ⟨0, h⟩) (k1_pay2 (F := F)),
      step1 (iblk1 V c 0 ⟨0, h⟩) (iblk1 V c 1 ⟨0, h⟩) (iblk1 V c 2 ⟨0, h⟩) (iblk1 V c 3 ⟨0, h⟩) (iblk1 V c 4 ⟨0, h⟩) (k1_pay2 (F := F))) := by
  show (out1_A_5 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) scM1_0 (Memref.isWhole_whole _) (cond1_0_zero h) (iblk1 V c 0 ⟨0, h⟩) (iblk1 V c 1 ⟨0, h⟩) (iblk1 V c 2 ⟨0, h⟩) (iblk1 V c 3 ⟨0, h⟩) (iblk1 V c 4 ⟨0, h⟩),
      sout1_A_0 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) scM1_0 (Memref.isWhole_whole _) (cond1_0_zero h) (iblk1 V c 0 ⟨0, h⟩) (iblk1 V c 1 ⟨0, h⟩) (iblk1 V c 2 ⟨0, h⟩) (iblk1 V c 3 ⟨0, h⟩) (iblk1 V c 4 ⟨0, h⟩)) = _
  rw [out1_A_5_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) scM1_0 (Memref.isWhole_whole _) (cond1_0_zero h) (iblk1 V c 0 ⟨0, h⟩) (iblk1 V c 1 ⟨0, h⟩) (iblk1 V c 2 ⟨0, h⟩) (iblk1 V c 3 ⟨0, h⟩) (iblk1 V c 4 ⟨0, h⟩),
    sout1_A_0_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) scM1_0 (Memref.isWhole_whole _) (cond1_0_zero h) (iblk1 V c 0 ⟨0, h⟩) (iblk1 V c 1 ⟨0, h⟩) (iblk1 V c 2 ⟨0, h⟩) (iblk1 V c 3 ⟨0, h⟩) (iblk1 V c 4 ⟨0, h⟩)]

/-- At every later point it continues from what the point before left in the scratch. -/
theorem outsAt1_next (c : Dev nD) (n : ℕ) (h : n + 1 < cfg1.N) :
    outsAt1 V c (n + 1) h = (step1 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2,
      step1 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2) := by
  show (out1_B_5 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (ncond1_0_succ n h) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2,
      sout1_B_0 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (ncond1_0_succ n h) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2) = _
  rw [out1_B_5_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (ncond1_0_succ n h) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2,
    sout1_B_0_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (ncond1_0_succ n h) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2]

/-- The region invariant before position `n`: before the first point the class's; afterwards the other region's staging
    buffers at some contents, the scratch at what the point before left in it, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not: where it is not fetched
    the block index has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed form says which of the two runs applies; the
    invariant hands the body the scratch (at anything at the first point, at what the point before left afterwards) and
    takes it back at this point's contents, the other region's staging buffers and the generator register passing through
    untouched; the output buffer is left at its writes read back; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [show (dat1 V c).leavesExact 5 t = owns (c : Thread nD τ) (ms1_5 t) fullShare ((dat1 V c).after 5 t) from rfl, after1_5]
  by_cases h0 : t.val % 50 = 0
  · have hz : t.val = 0 := by omega
    rw [outsAt1_A V c t h0]
    unfold out1_A_5 sout1_A_0; (try dsimp only)
    rw [PhiS1_castSucc V c t, PhiS1_zero V c _ _ hz, PhiA1_eq]
    iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [Ha Hb Hc Hd He HS0 Hg]
    · isplitl [Ha Hb Hc Hd He HS0]
      · isplitl [Ha]; · iexact Ha
        isplitl [Hb]; · iexact Hb
        isplitl [Hc]; · iexact Hc
        isplitl [Hd]; · iexact Hd
        isplitl [He]; · iexact He
        unfold owns; iexists _; isplitr
        swap; · iexact HS0
        ipureintro; exact View.read_writes_of_cover _ _ _ _ _ (scover1_A_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_A_5 c _ _ _ _ _ _ _ _ _ _ _ _ _ _ _ _ _ _ _ _ _)
  · have hz : t.val ≠ 0 := fun e => h0 (by rw [e])
    rw [outsAt1_B V c t h0]
    unfold out1_B_5 sout1_B_0; (try dsimp only)
    rw [PhiS1_castSucc V c t, PhiS1_pos V c _ _ hz]
    iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [Ha Hb Hc Hd He HS0 Hg]
    · isplitl [Ha Hb Hc Hd He HS0]
      · isplitl [Ha]; · iexact Ha
        isplitl [Hb]; · iexact Hb
        isplitl [Hc]; · iexact Hc
        isplitl [Hd]; · iexact Hd
        isplitl [He]; · iexact He
        unfold owns; iexists _; isplitr
        swap; · iexact HS0
        ipureintro; exact View.read_writes_of_cover _ _ _ _ _ (scover1_B_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

/-- After the last point the invariant gives the class's back: the scratch's named contents are forgotten. -/
theorem hout1 (c : Dev nD) : (dat1 V c).Φ (Fin.last cfg1.N) ⊢ Pipeline.ΦA spec1 c :=
  Phi_out1 V c _ (by rw [Fin.val_last]; have : cfg1.N = 50 := N_1; omega)

end Region1

end Cert.KernelIdeal.Hand

end
-- ==== Proof.K.R0.lean ====
/- The first kernel region (the row-tiled projection x · [w_embed | w_assign]) at the contents its region is entered with. -/
import proofs.«111678_j16475494547689_1_alg».proof.Proof.Gen.Kernel.Launch
import proofs.«111678_j16475494547689_1_alg».proof.Proof.Gen.Kernel.Skeleton
import proofs.«111678_j16475494547689_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x192 := Rect.unit (s := S128x192) ![0, 0] S128x192.size inb_S128x192_S128x192_0_0
abbrev r0_2 : Rect S5000x192 := Rect.unit (s := S5000x192) ![0, 0] S5000x192.size inb_S5000x192_S5000x192_0_0

/-- The output block after the body: the one store of the product of the two input blocks. -/
def out0_2 (x0 : Vec F S5000x128 .f32) (x1 : Vec F S128x192 .f32) : Vec F S5000x192 .f32 :=
  View.canon [⟨r0_2, k0_pay1 (View.ld x0 r0_0) (View.ld x1 r0_1)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## What the body finds in each input window's buffer -/

/-- The row block of `x` sits in its staging buffer at every point: it is fetched at every point, and a fetch of
    an uncut window puts the window's block there. Stated for any proof data over the region's arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The 128×192 matrix sits in its staging buffer at every point although it is fetched at the first only: its block
    index never moves, so the block a fetch would bring at a later point is the one already there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output buffer -/

/-- The store's rectangle is the whole 5000×192 buffer, so every index of the buffer lies in it. -/
theorem cover0_2 (p0 : Vec F S5000x192 .f32) (y : S5000x192.Idx) :
    ∃ pc ∈ ([⟨r0_2, p0⟩] : List (View.Piece (Elt F) S5000x192 .f32)), y ∈ pc.1.set :=
  View.cover_of_tiled [⟨r0_2, p0⟩] S5000x192.size (by rfl) y

/-! ## The body's triple -/

set_option maxHeartbeats 1000000 in
/-- The body on whole staging memrefs, the two inputs' at read contents `x0`, `x1` and the output's at anything:
    it reads the two inputs whole, reads the output buffer (a value it never uses), and stores the product over the
    whole output buffer; the inputs are left as they were and the output holds the product. -/
theorem sound_kernel0 (c : Dev nD) (E : Set ℕ) (i : grid0.Coords)
    (arg1 : Memref sig .tc .vmem S5000x128 .f32) (harg1 : arg1.IsWhole)
    (arg2 : Memref sig .tc .vmem S128x192 .f32) (harg2 : arg2.IsWhole)
    (arg3 : Memref sig .tc .vmem S5000x192 .f32) (harg3 : arg3.IsWhole)
    (x0 : Vec F S5000x128 .f32) (x1 : Vec F S128x192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__embed_kernel i arg1 harg1 arg2 harg2 arg3 harg3) K := by
  simp only [cc0__embed_kernel_eq_skeleton]; unfold cc0__embed_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The inputs' buffers under this region's proof data -/

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, what is owed, and each window's current staging buffer
    at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Runs.lean ====
/- The second kernel region's body, run once on any memrefs: the branch condition in closed form, the memrefs the region
   calls the body on, and the body's two whole runs (first point; every later point). -/
import proofs.«111678_j16475494547689_1_alg».proof.Proof.Gen.Kernel.Launch
import proofs.«111678_j16475494547689_1_alg».proof.Proof.Gen.Kernel.Skeleton
import proofs.«111678_j16475494547689_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch on the grid coordinate -/

/-- The body's one branch condition, as a function of the grid coordinates: the coordinate, as a 32-bit word, compared
    with zero, the comparison's bit widened and tested against zero. -/
abbrev cond1_0 (i : grid1.Coords) : Prop := (Scalar.cmpi .ne (Scalar.extui (Scalar.cmpi .eq (BitVec.ofNat 32 (i 0).val) 0#32)) 0#32) = 1#1
/-- It holds at the first point and at no other: decided over the fifty points. -/
theorem hcond1_0 : ∀ t : Fin cfg1.N, cond1_0 (grid1.coords t) ↔ t.val % 50 = 0 :=
  (by decide +kernel : ∀ t : Fin grid1.N, cond1_0 (grid1.coords t) ↔ t.val % 50 = 0)

/-! ## No window is ever idle: the body loads every input and stores the output at every point -/

theorem liveAt1 (w : Fin cfg1.W) : ∀ i, cfg1.idle w i = false := fun _ => rfl

/-! ## The memrefs the body is called on -/

/-- The output window's staging buffer as a view: what the output holds is stated through it. -/
abbrev VO1_5 : View sig .tc .vmem S512x128 .f32 := (Memref.whole cc1_stg5_0 : Memref sig .tc .vmem S512x128 .f32).view
/-- Each window's current staging memref at point `t`, and that it is a whole buffer. -/
abbrev ms1_0 (t : Fin cfg1.N) : Memref sig .tc .vmem S1000x192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
/-- The scratch operand: a whole scoped buffer of the kernel's own. -/
abbrev scM1_0 : Memref sig .tc .vmem S512x128 .f32 := Memref.whole cc1_scratch0
/-- The accumulator the kernel keeps between points, as a view: what it holds is stated through it. -/
abbrev VS1_0 : View sig .tc .vmem S512x128 .f32 := scM1_0.view

/-- The class's region invariant spelt out: the core's scoped buffers that are no staging buffer of this region — the
    other region's five staging buffers, and the accumulator as a memref owned at some contents — and the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's two runs -/

set_option maxHeartbeats 1000000 in
/-- The whole body on any whole memrefs when the branch on the grid coordinate is taken (the first point): from the five
    input buffers at their contents `x0 … x4`, the output buffer at anything and the accumulator at anything,
    the body runs to a continuation that is handed the inputs as they were and the output buffer and the accumulator each
    with a list of writes laid over it (last write first). The two lists are the witness: they are read off the run. -/
noncomputable def kernelRun1_A (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__pool_kernel i arg1 harg1 arg2 harg2 arg3 harg3 arg4 harg4 arg5 harg5 arg6 harg6 arg7 harg7) K } := by
  refine ⟨?_, ?_, fun E K => ?run⟩
  case run =>
    simp only [cc1__pool_kernel_eq_skeleton]; unfold cc1__pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 1000000 in
/-- The whole body on any whole memrefs when the branch on the grid coordinate is not taken (every later point): from the five
    input buffers at their contents `x0 … x4`, the output buffer at anything and the accumulator at the contents `xs0` the point before left,
    the body runs to a continuation that is handed the inputs as they were and the output buffer and the accumulator each
    with a list of writes laid over it (last write first). The two lists are the witness: they are read off the run. -/
noncomputable def kernelRun1_B (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__pool_kernel i arg1 harg1 arg2 harg2 arg3 harg3 arg4 harg4 arg5 harg5 arg6 harg6 arg7 harg7) K } := by
  refine ⟨?_, ?_, fun E K => ?run⟩
  case run =>
    simp only [cc1__pool_kernel_eq_skeleton]; unfold cc1__pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.K.R1.lean ====
/- The second kernel region (the fused pooling kernel, which accumulates into a scratch it keeps across grid points) at the contents its region is entered with. -/
import proofs.«111678_j16475494547689_1_alg».proof.Proof.K.R1Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each run leaves in the output buffer and in the accumulator -/

/-- The first point's run's writes into the output buffer tile its block, so every index is under one of them. -/
theorem cover1_A_5 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) (y : S512x128.Idx) :
    ∃ pc ∈ (kernelRun1_A c i arg1 harg1 arg2 harg2 arg3 harg3 arg4 harg4 arg5 harg5 arg6 harg6 arg7 harg7 hc0 x0 x1 x2 x3 x4).1, y ∈ pc.1.set :=
  View.cover_of_tiledL (kernelRun1_A c i arg1 harg1 arg2 harg2 arg3 harg3 arg4 harg4 arg5 harg5 arg6 harg6 arg7 harg7 hc0 x0 x1 x2 x3 x4).1 S512x128.size (by sl_kernel_rfl) y

/-- What the first point's run leaves in the output buffer: its writes read back. -/
def out1_A_5 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) : Vec F S512x128 .f32 :=
  VO1_5.read (Elt F) (VO1_5.writes (Elt F) VO1_5.junk (kernelRun1_A c i arg1 harg1 arg2 harg2 arg3 harg3 arg4 harg4 arg5 harg5 arg6 harg6 arg7 harg7 hc0 x0 x1 x2 x3 x4).1)

/-- The first point's run's writes into the accumulator cover it. -/
theorem scover1_A_0 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) (y : S512x128.Idx) :
    ∃ pc ∈ (kernelRun1_A c i arg1 harg1 arg2 harg2 arg3 harg3 arg4 harg4 arg5 harg5 arg6 harg6 arg7 harg7 hc0 x0 x1 x2 x3 x4).2.1, y ∈ pc.1.set :=
  View.cover_of_tiledL (kernelRun1_A c i arg1 harg1 arg2 harg2 arg3 harg3 arg4 harg4 arg5 harg5 arg6 harg6 arg7 harg7 hc0 x0 x1 x2 x3 x4).2.1 S512x128.size (by sl_kernel_rfl) y

/-- What the first point's run leaves in the accumulator: its writes read back. -/
def sout1_A_0 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) : Vec F S512x128 .f32 :=
  VS1_0.read (Elt F) (VS1_0.writes (Elt F) VS1_0.junk (kernelRun1_A c i arg1 harg1 arg2 harg2 arg3 harg3 arg4 harg4 arg5 harg5 arg6 harg6 arg7 harg7 hc0 x0 x1 x2 x3 x4).2.1)

/-- A later point's run's writes into the output buffer tile its block, so every index is under one of them. -/
theorem cover1_B_5 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) (y : S512x128.Idx) :
    ∃ pc ∈ (kernelRun1_B c i arg1 harg1 arg2 harg2 arg3 harg3 arg4 harg4 arg5 harg5 arg6 harg6 arg7 harg7 hc0 x0 x1 x2 x3 x4 xs0).1, y ∈ pc.1.set :=
  View.cover_of_tiledL (kernelRun1_B c i arg1 harg1 arg2 harg2 arg3 harg3 arg4 harg4 arg5 harg5 arg6 harg6 arg7 harg7 hc0 x0 x1 x2 x3 x4 xs0).1 S512x128.size (by sl_kernel_rfl) y

/-- What a later point's run leaves in the output buffer: its writes read back. -/
def out1_B_5 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) : Vec F S512x128 .f32 :=
  VO1_5.read (Elt F) (VO1_5.writes (Elt F) VO1_5.junk (kernelRun1_B c i arg1 harg1 arg2 harg2 arg3 harg3 arg4 harg4 arg5 harg5 arg6 harg6 arg7 harg7 hc0 x0 x1 x2 x3 x4 xs0).1)

/-- A later point's run's writes into the accumulator cover it. -/
theorem scover1_B_0 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) (y : S512x128.Idx) :
    ∃ pc ∈ (kernelRun1_B c i arg1 harg1 arg2 harg2 arg3 harg3 arg4 harg4 arg5 harg5 arg6 harg6 arg7 harg7 hc0 x0 x1 x2 x3 x4 xs0).2.1, y ∈ pc.1.set :=
  View.cover_of_tiledL (kernelRun1_B c i arg1 harg1 arg2 harg2 arg3 harg3 arg4 harg4 arg5 harg5 arg6 harg6 arg7 harg7 hc0 x0 x1 x2 x3 x4 xs0).2.1 S512x128.size (by sl_kernel_rfl) y

/-- What a later point's run leaves in the accumulator: its writes read back. -/
def sout1_B_0 (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) : Vec F S512x128 .f32 :=
  VS1_0.read (Elt F) (VS1_0.writes (Elt F) VS1_0.junk (kernelRun1_B c i arg1 harg1 arg2 harg2 arg3 harg3 arg4 harg4 arg5 harg5 arg6 harg6 arg7 harg7 hc0 x0 x1 x2 x3 x4 xs0).2.1)

/-- One grid point's update of the accumulator: the accumulator plus (softmax assignment)ᵀ · (embedding) of the point's
    1000 rows. `x0` is the block of aggregated features, `x1` the 64×512 matrix, `x2`, `x3`, `x4` the assignment, logit and
    embedding biases. -/
def step1 (x0 : Vec F S1000x192 .f32) (x1 : Vec F S64x512 .f32) (x2 : Vec F S1x64 .f32) (x3 : Vec F S1x512 .f32)
    (x4 : Vec F S1x128 .f32) (acc : Vec F S512x128 .f32) : Vec F S512x128 .f32 :=
  k1_pay1 (k1_pay4 x0 x2 x1 x3) (k1_pay5 x0 x4) acc

/-! ## The writes the runs found, made explicit -/

/-- The rectangle offsets of a whole-buffer load or store are zero. -/
theorem hz1 : (![0, 0] : Fin 2 → Nat) = fun _ => 0 := funext fun a => by fin_cases a <;> rfl

/-- At the first point the accumulator is first reset to zero, then read back and updated: it ends at one update of zero. -/
theorem sout1_A_0_eq (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) :
    sout1_A_0 c i arg1 harg1 arg2 harg2 arg3 harg3 arg4 harg4 arg5 harg5 arg6 harg6 arg7 harg7 hc0 x0 x1 x2 x3 x4 = step1 x0 x1 x2 x3 x4 (k1_pay2 (F := F)) := by
  unfold sout1_A_0; rw [View.read_writes_eq_canon _ _ _ (scover1_A_0 c i arg1 harg1 arg2 harg2 arg3 harg3 arg4 harg4 arg5 harg5 arg6 harg6 arg7 harg7 hc0 x0 x1 x2 x3 x4)]; unfold kernelRun1_A
  dsimp only
  sl_unfold_words
  rw [View.canon_cons_unit_zero (S := S512x128) hz1, View.readCov_unit_zero (S := S512x128) _ hz1]
  unfold step1
  simp only [View.readAt_eq_ld, harg1.read_unread, harg2.read_unread, harg3.read_unread, harg4.read_unread, harg5.read_unread, View.ld_unit_zero (S := S1000x192) hz1, View.ld_unit_zero (S := S64x512) hz1, View.ld_unit_zero (S := S1x64) hz1, View.ld_unit_zero (S := S1x512) hz1, View.ld_unit_zero (S := S1x128) hz1]

/-- The output buffer is stored last, from the accumulator read back: it ends at the same. -/
theorem out1_A_5_eq (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : cond1_0 i)
    (x0 : Vec F S1000x192 .f32) (x1 : Vec F S64x512 .f32) (x2 : Vec F S1x64 .f32) (x3 : Vec F S1x512 .f32) (x4 : Vec F S1x128 .f32) :
    out1_A_5 c i arg1 harg1 arg2 harg2 arg3 harg3 arg4 harg4 arg5 harg5 arg6 harg6 arg7 harg7 hc0 x0 x1 x2 x3 x4 = step1 x0 x1 x2 x3 x4 (k1_pay2 (F := F)) := by
  unfold out1_A_5; rw [View.read_writes_eq_canon _ _ _ (cover1_A_5 c i arg1 harg1 arg2 harg2 arg3 harg3 arg4 harg4 arg5 harg5 arg6 harg6 arg7 harg7 hc0 x0 x1 x2 x3 x4)]; unfold kernelRun1_A
  dsimp only
  sl_unfold_words
  rw [View.canon_unit_zero hz1, View.readCov_cons_toLoadRect, View.readCov_unit_zero (S := S512x128) _ hz1]
  unfold step1
  simp only [View.readAt_eq_ld, harg1.read_unread, harg2.read_unread, harg3.read_unread, harg4.read_unread, harg5.read_unread, View.ld_unit_zero (S := S1000x192) hz1, View.ld_unit_zero (S := S64x512) hz1, View.ld_unit_zero (S := S1x64) hz1, View.ld_unit_zero (S := S1x512) hz1, View.ld_unit_zero (S := S1x128) hz1]

/-- At a later point the accumulator is read and updated: it ends at one update of what it held. -/
theorem sout1_B_0_eq (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) :
    sout1_B_0 c i arg1 harg1 arg2 harg2 arg3 harg3 arg4 harg4 arg5 harg5 arg6 harg6 arg7 harg7 hc0 x0 x1 x2 x3 x4 xs0 = step1 x0 x1 x2 x3 x4 xs0 := by
  unfold sout1_B_0; rw [View.read_writes_eq_canon _ _ _ (scover1_B_0 c i arg1 harg1 arg2 harg2 arg3 harg3 arg4 harg4 arg5 harg5 arg6 harg6 arg7 harg7 hc0 x0 x1 x2 x3 x4 xs0)]; unfold kernelRun1_B
  dsimp only
  sl_unfold_words
  rw [View.canon_unit_zero hz1]
  unfold step1
  simp only [View.readAt_eq_ld, harg1.read_unread, harg2.read_unread, harg3.read_unread, harg4.read_unread, harg5.read_unread, View.ld_unit_zero (S := S1000x192) hz1, View.ld_unit_zero (S := S64x512) hz1, View.ld_unit_zero (S := S1x64) hz1, View.ld_unit_zero (S := S1x512) hz1, View.ld_unit_zero (S := S1x128) hz1, harg7.read_unread, View.ld_unit_zero (S := S512x128) hz1]

/-- The output buffer again ends at the accumulator's new contents. -/
theorem out1_B_5_eq (c : Dev nD) (i : grid1.Coords) (arg1 : Memref sig .tc .vmem S1000x192 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (hc0 : ¬cond1_0 i)
    (x0 : Vec F S1000x192 .f32) (x1 : Vec F S64x512 .f32) (x2 : Vec F S1x64 .f32) (x3 : Vec F S1x512 .f32) (x4 : Vec F S1x128 .f32) (xs0 : Vec F S512x128 .f32) :
    out1_B_5 c i arg1 harg1 arg2 harg2 arg3 harg3 arg4 harg4 arg5 harg5 arg6 harg6 arg7 harg7 hc0 x0 x1 x2 x3 x4 xs0 = step1 x0 x1 x2 x3 x4 xs0 := by
  unfold out1_B_5; rw [View.read_writes_eq_canon _ _ _ (cover1_B_5 c i arg1 harg1 arg2 harg2 arg3 harg3 arg4 harg4 arg5 harg5 arg6 harg6 arg7 harg7 hc0 x0 x1 x2 x3 x4 xs0)]; unfold kernelRun1_B
  dsimp only
  sl_unfold_words
  rw [View.canon_unit_zero hz1, View.readCov_cons_toLoadRect]
  unfold step1
  simp only [View.readAt_eq_ld, harg1.read_unread, harg2.read_unread, harg3.read_unread, harg4.read_unread, harg5.read_unread, View.ld_unit_zero (S := S1000x192) hz1, View.ld_unit_zero (S := S64x512) hz1, View.ld_unit_zero (S := S1x64) hz1, View.ld_unit_zero (S := S1x512) hz1, View.ld_unit_zero (S := S1x128) hz1, harg7.read_unread, View.ld_unit_zero (S := S512x128) hz1]

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The branch is taken at the first point, -/
theorem cond1_0_zero (hn : 0 < cfg1.N) : cond1_0 (grid1.coords ⟨0, hn⟩) := (hcond1_0 ⟨0, hn⟩).mpr (Nat.zero_mod _)
/-- and at no later one: a positive position below fifty is not a multiple of fifty. -/
theorem ncond1_0_succ (n : ℕ) (hn : n + 1 < cfg1.N) : ¬cond1_0 (grid1.coords ⟨n + 1, hn⟩) := fun h => by
  have h' : (n + 1) % 50 = 0 := (hcond1_0 ⟨n + 1, hn⟩).mp h
  have hN : n + 1 < 50 := lt_of_lt_of_eq hn (show cfg1.N = 50 from N_1)
  omega

/-- The accumulator's (and the output block's) contents after the body at position `n`: a pair (output block, scratch).
    At the first position the first point's run on the point's memrefs and blocks; at a later one the other run, the
    accumulator entering at what the position before left. -/
def outsAt1 (c : Dev nD) : (n : ℕ) → n < cfg1.N → Vec F S512x128 .f32 × Vec F S512x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) (cond1_0_zero hn) (iblk1 V c 0 ⟨0, hn⟩) (iblk1 V c 1 ⟨0, hn⟩) (iblk1 V c 2 ⟨0, hn⟩) (iblk1 V c 3 ⟨0, hn⟩) (iblk1 V c 4 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) (cond1_0_zero hn) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn => (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (ncond1_0_succ n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (ncond1_0_succ n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point where the branch is taken: the first run's contents. -/
theorem outsAt1_A (c : Dev nD) (t : Fin cfg1.N) (h0 : t.val % 50 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact (by exfalso; have hN : n + 1 < 50 := lt_of_lt_of_eq hn (show cfg1.N = 50 from N_1); (try dsimp only at h0); omega)

/-- `outsAt1` at a point where it is not: the other run's contents, over what the point before left. -/
theorem outsAt1_B (c : Dev nD) (t : Fin cfg1.N) (h0 : ¬t.val % 50 = 0) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact rfl

/-- At the first point the accumulator starts from zero. -/
theorem outsAt1_first (c : Dev nD) (h : 0 < cfg1.N) :
    outsAt1 V c 0 h = (step1 (iblk1 V c 0 ⟨0, h⟩) (iblk1 V c 1 ⟨0, h⟩) (iblk1 V c 2 ⟨0, h⟩) (iblk1 V c 3 ⟨0, h⟩) (iblk1 V c 4 ⟨0, h⟩) (k1_pay2 (F := F)),
      step1 (iblk1 V c 0 ⟨0, h⟩) (iblk1 V c 1 ⟨0, h⟩) (iblk1 V c 2 ⟨0, h⟩) (iblk1 V c 3 ⟨0, h⟩) (iblk1 V c 4 ⟨0, h⟩) (k1_pay2 (F := F))) := by
  show (out1_A_5 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) scM1_0 (Memref.isWhole_whole _) (cond1_0_zero h) (iblk1 V c 0 ⟨0, h⟩) (iblk1 V c 1 ⟨0, h⟩) (iblk1 V c 2 ⟨0, h⟩) (iblk1 V c 3 ⟨0, h⟩) (iblk1 V c 4 ⟨0, h⟩),
      sout1_A_0 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) scM1_0 (Memref.isWhole_whole _) (cond1_0_zero h) (iblk1 V c 0 ⟨0, h⟩) (iblk1 V c 1 ⟨0, h⟩) (iblk1 V c 2 ⟨0, h⟩) (iblk1 V c 3 ⟨0, h⟩) (iblk1 V c 4 ⟨0, h⟩)) = _
  rw [out1_A_5_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) scM1_0 (Memref.isWhole_whole _) (cond1_0_zero h) (iblk1 V c 0 ⟨0, h⟩) (iblk1 V c 1 ⟨0, h⟩) (iblk1 V c 2 ⟨0, h⟩) (iblk1 V c 3 ⟨0, h⟩) (iblk1 V c 4 ⟨0, h⟩),
    sout1_A_0_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) scM1_0 (Memref.isWhole_whole _) (cond1_0_zero h) (iblk1 V c 0 ⟨0, h⟩) (iblk1 V c 1 ⟨0, h⟩) (iblk1 V c 2 ⟨0, h⟩) (iblk1 V c 3 ⟨0, h⟩) (iblk1 V c 4 ⟨0, h⟩)]

/-- At every later point it continues from what the point before left in the scratch. -/
theorem outsAt1_next (c : Dev nD) (n : ℕ) (h : n + 1 < cfg1.N) :
    outsAt1 V c (n + 1) h = (step1 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2,
      step1 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2) := by
  show (out1_B_5 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (ncond1_0_succ n h) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2,
      sout1_B_0 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (ncond1_0_succ n h) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2) = _
  rw [out1_B_5_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (ncond1_0_succ n h) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2,
    sout1_B_0_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (ncond1_0_succ n h) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2]

/-- The region invariant before position `n`: before the first point the class's; afterwards the other region's staging
    buffers at some contents, the scratch at what the point before left in it, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not: where it is not fetched
    the block index has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed form says which of the two runs applies; the
    invariant hands the body the scratch (at anything at the first point, at what the point before left afterwards) and
    takes it back at this point's contents, the other region's staging buffers and the generator register passing through
    untouched; the output buffer is left at its writes read back; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [show (dat1 V c).leavesExact 5 t = owns (c : Thread nD τ) (ms1_5 t) fullShare ((dat1 V c).after 5 t) from rfl, after1_5]
  by_cases h0 : t.val % 50 = 0
  · have hz : t.val = 0 := by omega
    rw [outsAt1_A V c t h0]
    unfold out1_A_5 sout1_A_0; (try dsimp only)
    rw [PhiS1_castSucc V c t, PhiS1_zero V c _ _ hz, PhiA1_eq]
    iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [Ha Hb Hc Hd He HS0 Hg]
    · isplitl [Ha Hb Hc Hd He HS0]
      · isplitl [Ha]; · iexact Ha
        isplitl [Hb]; · iexact Hb
        isplitl [Hc]; · iexact Hc
        isplitl [Hd]; · iexact Hd
        isplitl [He]; · iexact He
        unfold owns; iexists _; isplitr
        swap; · iexact HS0
        ipureintro; exact View.read_writes_of_cover _ _ _ _ _ (scover1_A_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_A_5 c _ _ _ _ _ _ _ _ _ _ _ _ _ _ _ _ _ _ _ _ _)
  · have hz : t.val ≠ 0 := fun e => h0 (by rw [e])
    rw [outsAt1_B V c t h0]
    unfold out1_B_5 sout1_B_0; (try dsimp only)
    rw [PhiS1_castSucc V c t, PhiS1_pos V c _ _ hz]
    iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [Ha Hb Hc Hd He HS0 Hg]
    · isplitl [Ha Hb Hc Hd He HS0]
      · isplitl [Ha]; · iexact Ha
        isplitl [Hb]; · iexact Hb
        isplitl [Hc]; · iexact Hc
        isplitl [Hd]; · iexact Hd
        isplitl [He]; · iexact He
        unfold owns; iexists _; isplitr
        swap; · iexact HS0
        ipureintro; exact View.read_writes_of_cover _ _ _ _ _ (scover1_B_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

/-- After the last point the invariant gives the class's back: the scratch's named contents are forgotten. -/
theorem hout1 (c : Dev nD) : (dat1 V c).Φ (Fin.last cfg1.N) ⊢ Pipeline.ΦA spec1 c :=
  Phi_out1 V c _ (by rw [Fin.val_last]; have : cfg1.N = 50 := N_1; omega)

end Region1

end Cert.Kernel.Hand

end
-- ==== Proof.K.Run.lean ====
/- The run of the whole program: four stretches of host operations around two kernel regions, with every unscoped
   buffer named at the end; from it, the frame claim (each argument array ends as launched) and the result array's name. -/
import proofs.«111678_j16475494547689_1_alg».proof.Proof.Gen.Kernel.Regions
import proofs.«111678_j16475494547689_1_alg».proof.Proof.K.R0
import proofs.«111678_j16475494547689_1_alg».proof.Proof.K.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave

The first region may change one buffer only, the array of its output window (main_v5); the second likewise
(main_v48). What the second region is entered with depends on the first region's result and on nothing the second
leaves, so the contents the regions leave are named in two stages. -/

/-- The contents the first region is entered with: the launch memory after the first host stretch. -/
abbrev VV1 : (c : Dev nD) → (b : Ref sig .tc) → Buf (Elt F) ((c : Thread nD τ).loc b) := fun c b => Gen.V1 m c b

/-- First stage: only the first region's result is known — its output array after the last write-back. -/
def outsA : Gen.Outs (F := F) := fun _ r c =>
  Function.update (Gen.V1 m c) main_v5 ((dat0 (VV1 m) c).arrAt 2 cfg0.N) r

/-- The contents the second region is entered with, read off the first stage. -/
abbrev VV5A : (c : Dev nD) → (b : Ref sig .tc) → Buf (Elt F) ((c : Thread nD τ).loc b) := fun c b => Gen.V5 m (outsA m) c b

/-- Second stage: after the second region, its output array after the last write-back as well. The second region's
    entry contents are read off the first stage, which is what keeps the definition from referring to itself. -/
def outs : Gen.Outs (F := F) := fun J r c =>
  if J = 6 then
    Function.update (Gen.V5 m (outsA m) c) main_v48 ((dat1 (VV5A m) c).arrAt 5 cfg1.N) r
  else outsA m J r c

/-- The contents the second region is entered with. -/
abbrev VV5 : (c : Dev nD) → (b : Ref sig .tc) → Buf (Elt F) ((c : Thread nD τ).loc b) := fun c b => Gen.V5 m (outs m) c b

theorem outs_v5 (c : Dev nD) : outs m 2 main_v5 c = (dat0 (VV1 m) c).arrAt 2 cfg0.N := by
  unfold outs
  rw [if_neg (by decide)]
  unfold outsA
  exact Function.update_self _ _ _

/-- The second region's entry contents do not see what the second region leaves. -/
theorem VV5_eq : VV5 m = VV5A m := rfl

theorem V6_v48 (c : Dev nD) : Gen.V6 m (outs m) c main_v48 = (dat1 (VV5 m) c).arrAt 5 cfg1.N := by
  rw [VV5_eq]
  show Function.update (Gen.V5 m (outs m) c) main_v48 (outs m 6 main_v48 c) main_v48 = _
  rw [Function.update_self]
  unfold outs
  rw [if_pos rfl]
  exact Function.update_self _ _ _

/-! ## The proof data, each region at the contents it is entered with -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV5 m) c

/-- The contents the first region leaves, -/
abbrev VV2 : (c : Dev nD) → (b : Ref sig .tc) → Buf (Elt F) ((c : Thread nD τ).loc b) := fun c b => Gen.V2 m (outs m) c b
/-- and those the second leaves: the last valuation of the run. -/
abbrev VV6 : (c : Dev nD) → (b : Ref sig .tc) → Buf (Elt F) ((c : Thread nD τ).loc b) := fun c b => Gen.V6 m (outs m) c b

/-! ### What each region's arrays hold when it returns

An input window's array is never written back, so it ends as entered; the output window's array ends at the fold
of its write-backs, which is what the contents the regions leave were named to be. No other unscoped buffer belongs
to the region at all. -/

theorem hF0 (c : Dev nD) : ∀ w : Fin cfg0.W, (dat0 (VV1 m) c).arrAt w cfg0.N = VV2 m c (Pipeline.arrRef spec0 w)
  | ⟨0, _⟩ => ((dat0 (VV1 m) c).arrAt_in 0 rfl _).trans ((A_eq0 (VV1 m) c 0).trans (Gen.V2_of m (outs m) c main_arg0 (by decide)).symm)
  | ⟨1, _⟩ => ((dat0 (VV1 m) c).arrAt_in 1 rfl _).trans ((A_eq0 (VV1 m) c 1).trans (Gen.V2_of m (outs m) c main_v4 (by decide)).symm)
  | ⟨2, _⟩ => (outs_v5 m c).symm.trans (Function.update_self (f := Gen.V1 m c) _ _).symm

theorem hrest0 (c : Dev nD) : ∀ b, b ∉ Finset.univ.image (Pipeline.arrRef spec0) → VV2 m c b = VV1 m c b :=
  fun b hb => Gen.V2_of m (outs m) c b fun h =>
    hb (Finset.mem_image.mpr ⟨2, Finset.mem_univ _, (List.mem_singleton.mp h).symm⟩)

theorem hF1 (c : Dev nD) : ∀ w : Fin cfg1.W, (dat1 (VV5 m) c).arrAt w cfg1.N = VV6 m c (Pipeline.arrRef spec1 w)
  | ⟨0, _⟩ => ((dat1 (VV5 m) c).arrAt_in 0 rfl _).trans ((A_eq1 (VV5 m) c 0).trans (Gen.V6_of m (outs m) c main_v44 (by decide)).symm)
  | ⟨1, _⟩ => ((dat1 (VV5 m) c).arrAt_in 1 rfl _).trans ((A_eq1 (VV5 m) c 1).trans (Gen.V6_of m (outs m) c main_arg6 (by decide)).symm)
  | ⟨2, _⟩ => ((dat1 (VV5 m) c).arrAt_in 2 rfl _).trans ((A_eq1 (VV5 m) c 2).trans (Gen.V6_of m (outs m) c main_v46 (by decide)).symm)
  | ⟨3, _⟩ => ((dat1 (VV5 m) c).arrAt_in 3 rfl _).trans ((A_eq1 (VV5 m) c 3).trans (Gen.V6_of m (outs m) c main_v47 (by decide)).symm)
  | ⟨4, _⟩ => ((dat1 (VV5 m) c).arrAt_in 4 rfl _).trans ((A_eq1 (VV5 m) c 4).trans (Gen.V6_of m (outs m) c main_v45 (by decide)).symm)
  | ⟨5, _⟩ => (V6_v48 m c).symm

theorem hrest1 (c : Dev nD) : ∀ b, b ∉ Finset.univ.image (Pipeline.arrRef spec1) → VV6 m c b = VV5 m c b :=
  fun b hb => Gen.V6_of m (outs m) c b fun h =>
    hb (Finset.mem_image.mpr ⟨5, Finset.mem_univ _, (List.mem_singleton.mp h).symm⟩)

/-! ## The algebra and what rides beside the buffers -/

abbrev 𝒱₀ : Variants := Variants.none
/-- No core owes another anything: no level is assigned. -/
abbrev L : GSem nD τ sig → Finset Unit := fun _ => ∅
abbrev lv : GSem nD τ sig → Unit → ℕ := fun _ _ => 0
/-- What a core holds beside its unscoped buffers throughout: its generator register at some state and its dues,
    which are none. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

set_option backward.isDefEq.respectTransparency.types false in
/-- The first region: entered with every unscoped buffer at the contents after the first host stretch, left with
    the output window's array at its folded write-backs and every other buffer untouched. Its three arrays are taken
    out of the unscoped buffers at entry and put back at exit; the generator register passes through the region's
    invariant; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at the contents after the three host stretches that follow
    the first region, left with the output window's array at its folded write-backs and every other buffer untouched.
    Its invariant between points is not the one it is entered with (it names the accumulator's contents), so the first and
    the last point's go through the two entailments that connect them. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV5 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VV5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VV5 m) c)
    unfold Pipeline.ΦA
    iintro ⟨Hp, -, Hr⟩
    isplitl [Hr]; · iexact Hr
    iexact Hp
  hout c := by
    rw [Pipeline.ownSems0_none]
    refine BIBase.Entails.trans (hout1 (VV5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV5 m c) (VV6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, and the final memory holds
    every unscoped buffer at the last valuation of the run: any claim that follows from that reading holds of every
    final memory. The six items chain: each host stretch is entered with what the item before it left, each region with
    the contents its proof data were taken at; the launch hands every core its buffers as launched, its generator register
    and no dues; at the end the register is dropped and the buffers are read against the final state. -/
theorem run_gen {Q : PUnit × MemSt nD τ sig (Elt F) → Prop}
    (hQ : ∀ s : MemSt nD τ sig (Elt F),
      (∀ c : Dev nD, ∀ b ∈ Pipeline.ucRefs τ sig, s.mem (((c : Thread nD τ)).1, b) = Gen.V6 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨Hh, HSI⟩
      unfold StableHlo.held
      imodintro
      iapply (pointsTo_read_all (Pipeline.ucRefs τ sig) (fun b => (((c : Thread nD τ)).1, b)) (Gen.V6 m (outs m) c) s')
      isplitl [Hh] <;> iassumption)
    (hQ := hQ)

/-- THE RUN, with every unscoped buffer named at the end. -/
theorem run_main : θ_run defs (onTc (τ := τ) (main (F := F))) ⟨m, fun _ => 0, ρ⟩
    (fun r => ∀ c : Dev nD, ∀ b ∈ Pipeline.ucRefs τ sig, r.2.mem (((c : Thread nD τ)).1, b) = Gen.V6 m (outs m) c b) :=
  run_gen m ρ fun _ h => h

/-- THE FRAME: no host stretch writes an argument array and neither region may change one, so each is read back off the
    last valuation at what the launch memory held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_gen m ρ fun s h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c),
     (h c _ (mem_uc main_arg7 (by decide))).trans (Gen.V6_main_arg7 m (outs m) c)⟩

end Cert.Kernel.Hand

end
-- ==== Proof.KI.Run.lean ====
/- The run of the whole program: four stretches of host operations around two kernel regions, with every unscoped
   buffer named at the end; from it, the frame claim (each argument array ends as launched) and the result array's name. -/
import proofs.«111678_j16475494547689_1_alg».proof.Proof.Gen.KernelIdeal.Regions
import proofs.«111678_j16475494547689_1_alg».proof.Proof.KI.R0
import proofs.«111678_j16475494547689_1_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave

The first region may change one buffer only, the array of its output window (main_v5); the second likewise
(main_v48). What the second region is entered with depends on the first region's result and on nothing the second
leaves, so the contents the regions leave are named in two stages. -/

/-- The contents the first region is entered with: the launch memory after the first host stretch. -/
abbrev VV1 : (c : Dev nD) → (b : Ref sig .tc) → Buf (Elt F) ((c : Thread nD τ).loc b) := fun c b => Gen.V1 m c b

/-- First stage: only the first region's result is known — its output array after the last write-back. -/
def outsA : Gen.Outs (F := F) := fun _ r c =>
  Function.update (Gen.V1 m c) main_v5 ((dat0 (VV1 m) c).arrAt 2 cfg0.N) r

/-- The contents the second region is entered with, read off the first stage. -/
abbrev VV5A : (c : Dev nD) → (b : Ref sig .tc) → Buf (Elt F) ((c : Thread nD τ).loc b) := fun c b => Gen.V5 m (outsA m) c b

/-- Second stage: after the second region, its output array after the last write-back as well. The second region's
    entry contents are read off the first stage, which is what keeps the definition from referring to itself. -/
def outs : Gen.Outs (F := F) := fun J r c =>
  if J = 6 then
    Function.update (Gen.V5 m (outsA m) c) main_v48 ((dat1 (VV5A m) c).arrAt 5 cfg1.N) r
  else outsA m J r c

/-- The contents the second region is entered with. -/
abbrev VV5 : (c : Dev nD) → (b : Ref sig .tc) → Buf (Elt F) ((c : Thread nD τ).loc b) := fun c b => Gen.V5 m (outs m) c b

theorem outs_v5 (c : Dev nD) : outs m 2 main_v5 c = (dat0 (VV1 m) c).arrAt 2 cfg0.N := by
  unfold outs
  rw [if_neg (by decide)]
  unfold outsA
  exact Function.update_self _ _ _

/-- The second region's entry contents do not see what the second region leaves. -/
theorem VV5_eq : VV5 m = VV5A m := rfl

theorem V6_v48 (c : Dev nD) : Gen.V6 m (outs m) c main_v48 = (dat1 (VV5 m) c).arrAt 5 cfg1.N := by
  rw [VV5_eq]
  show Function.update (Gen.V5 m (outs m) c) main_v48 (outs m 6 main_v48 c) main_v48 = _
  rw [Function.update_self]
  unfold outs
  rw [if_pos rfl]
  exact Function.update_self _ _ _

/-! ## The proof data, each region at the contents it is entered with -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV5 m) c

/-- The contents the first region leaves, -/
abbrev VV2 : (c : Dev nD) → (b : Ref sig .tc) → Buf (Elt F) ((c : Thread nD τ).loc b) := fun c b => Gen.V2 m (outs m) c b
/-- and those the second leaves: the last valuation of the run. -/
abbrev VV6 : (c : Dev nD) → (b : Ref sig .tc) → Buf (Elt F) ((c : Thread nD τ).loc b) := fun c b => Gen.V6 m (outs m) c b

/-! ### What each region's arrays hold when it returns

An input window's array is never written back, so it ends as entered; the output window's array ends at the fold
of its write-backs, which is what the contents the regions leave were named to be. No other unscoped buffer belongs
to the region at all. -/

theorem hF0 (c : Dev nD) : ∀ w : Fin cfg0.W, (dat0 (VV1 m) c).arrAt w cfg0.N = VV2 m c (Pipeline.arrRef spec0 w)
  | ⟨0, _⟩ => ((dat0 (VV1 m) c).arrAt_in 0 rfl _).trans ((A_eq0 (VV1 m) c 0).trans (Gen.V2_of m (outs m) c main_arg0 (by decide)).symm)
  | ⟨1, _⟩ => ((dat0 (VV1 m) c).arrAt_in 1 rfl _).trans ((A_eq0 (VV1 m) c 1).trans (Gen.V2_of m (outs m) c main_v4 (by decide)).symm)
  | ⟨2, _⟩ => (outs_v5 m c).symm.trans (Function.update_self (f := Gen.V1 m c) _ _).symm

theorem hrest0 (c : Dev nD) : ∀ b, b ∉ Finset.univ.image (Pipeline.arrRef spec0) → VV2 m c b = VV1 m c b :=
  fun b hb => Gen.V2_of m (outs m) c b fun h =>
    hb (Finset.mem_image.mpr ⟨2, Finset.mem_univ _, (List.mem_singleton.mp h).symm⟩)

theorem hF1 (c : Dev nD) : ∀ w : Fin cfg1.W, (dat1 (VV5 m) c).arrAt w cfg1.N = VV6 m c (Pipeline.arrRef spec1 w)
  | ⟨0, _⟩ => ((dat1 (VV5 m) c).arrAt_in 0 rfl _).trans ((A_eq1 (VV5 m) c 0).trans (Gen.V6_of m (outs m) c main_v44 (by decide)).symm)
  | ⟨1, _⟩ => ((dat1 (VV5 m) c).arrAt_in 1 rfl _).trans ((A_eq1 (VV5 m) c 1).trans (Gen.V6_of m (outs m) c main_arg6 (by decide)).symm)
  | ⟨2, _⟩ => ((dat1 (VV5 m) c).arrAt_in 2 rfl _).trans ((A_eq1 (VV5 m) c 2).trans (Gen.V6_of m (outs m) c main_v46 (by decide)).symm)
  | ⟨3, _⟩ => ((dat1 (VV5 m) c).arrAt_in 3 rfl _).trans ((A_eq1 (VV5 m) c 3).trans (Gen.V6_of m (outs m) c main_v47 (by decide)).symm)
  | ⟨4, _⟩ => ((dat1 (VV5 m) c).arrAt_in 4 rfl _).trans ((A_eq1 (VV5 m) c 4).trans (Gen.V6_of m (outs m) c main_v45 (by decide)).symm)
  | ⟨5, _⟩ => (V6_v48 m c).symm

theorem hrest1 (c : Dev nD) : ∀ b, b ∉ Finset.univ.image (Pipeline.arrRef spec1) → VV6 m c b = VV5 m c b :=
  fun b hb => Gen.V6_of m (outs m) c b fun h =>
    hb (Finset.mem_image.mpr ⟨5, Finset.mem_univ _, (List.mem_singleton.mp h).symm⟩)

/-! ## The algebra and what rides beside the buffers -/

abbrev 𝒱₀ : Variants := Variants.none
/-- No core owes another anything: no level is assigned. -/
abbrev L : GSem nD τ sig → Finset Unit := fun _ => ∅
abbrev lv : GSem nD τ sig → Unit → ℕ := fun _ _ => 0
/-- What a core holds beside its unscoped buffers throughout: its generator register at some state and its dues,
    which are none. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

set_option backward.isDefEq.respectTransparency.types false in
/-- The first region: entered with every unscoped buffer at the contents after the first host stretch, left with
    the output window's array at its folded write-backs and every other buffer untouched. Its three arrays are taken
    out of the unscoped buffers at entry and put back at exit; the generator register passes through the region's
    invariant; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at the contents after the three host stretches that follow
    the first region, left with the output window's array at its folded write-backs and every other buffer untouched.
    Its invariant between points is not the one it is entered with (it names the accumulator's contents), so the first and
    the last point's go through the two entailments that connect them. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV5 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VV5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VV5 m) c)
    unfold Pipeline.ΦA
    iintro ⟨Hp, -, Hr⟩
    isplitl [Hr]; · iexact Hr
    iexact Hp
  hout c := by
    rw [Pipeline.ownSems0_none]
    refine BIBase.Entails.trans (hout1 (VV5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV5 m c) (VV6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, and the final memory holds
    every unscoped buffer at the last valuation of the run: any claim that follows from that reading holds of every
    final memory. The six items chain: each host stretch is entered with what the item before it left, each region with
    the contents its proof data were taken at; the launch hands every core its buffers as launched, its generator register
    and no dues; at the end the register is dropped and the buffers are read against the final state. -/
theorem run_gen {Q : PUnit × MemSt nD τ sig (Elt F) → Prop}
    (hQ : ∀ s : MemSt nD τ sig (Elt F),
      (∀ c : Dev nD, ∀ b ∈ Pipeline.ucRefs τ sig, s.mem (((c : Thread nD τ)).1, b) = Gen.V6 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨Hh, HSI⟩
      unfold StableHlo.held
      imodintro
      iapply (pointsTo_read_all (Pipeline.ucRefs τ sig) (fun b => (((c : Thread nD τ)).1, b)) (Gen.V6 m (outs m) c) s')
      isplitl [Hh] <;> iassumption)
    (hQ := hQ)

/-- THE RUN, with every unscoped buffer named at the end. -/
theorem run_main : θ_run defs (onTc (τ := τ) (main (F := F))) ⟨m, fun _ => 0, ρ⟩
    (fun r => ∀ c : Dev nD, ∀ b ∈ Pipeline.ucRefs τ sig, r.2.mem (((c : Thread nD τ)).1, b) = Gen.V6 m (outs m) c b) :=
  run_gen m ρ fun _ h => h

/-- THE FRAME: no host stretch writes an argument array and neither region may change one, so each is read back off the
    last valuation at what the launch memory held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_gen m ρ fun s h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c),
     (h c _ (mem_uc main_arg7 (by decide))).trans (Gen.V6_main_arg7 m (outs m) c)⟩

end Cert.KernelIdeal.Hand

end
-- ==== Proof.Val.R0Value.lean ====
/- The first kernel region's output array, entry by entry, at the ideal values: every block of 5000 rows of the
   output is the product of the same rows of `x` with the 128×192 matrix, the ten blocks fill the array, and so the
   array is the product of the two arrays. -/
import proofs.«111678_j16475494547689_1_alg».proof.Proof.KI.R0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

/-! ## One block's product, entry by entry -/

/-- Row axis of the left operand: the output's row. -/
theorem lhs_embed_0 (i : S5000x192.Idx) (q : dot_S5000x128_S128x192_S5000x192_1_0_0_1_n_n.contr.Idx) :
    (dot_S5000x128_S128x192_S5000x192_1_0_0_1_n_n.lhsIdx i q 0).val = (i 0).val := by
  unfold DotDims.lhsIdx
  rw [dif_neg (show ¬(0 : Fin S5000x128.rank) ∈ dot_S5000x128_S128x192_S5000x192_1_0_0_1_n_n.lhsBatch by decide), dif_pos (show (0 : Fin S5000x128.rank) ∈ dot_S5000x128_S128x192_S5000x192_1_0_0_1_n_n.lhsNonContracting by decide)]
  rfl
/-- Column axis of the left operand: the contraction index. -/
theorem lhs_embed_1 (i : S5000x192.Idx) (q : dot_S5000x128_S128x192_S5000x192_1_0_0_1_n_n.contr.Idx) :
    (dot_S5000x128_S128x192_S5000x192_1_0_0_1_n_n.lhsIdx i q 1).val = (q ⟨0, by decide⟩).val :=
  dot_S5000x128_S128x192_S5000x192_1_0_0_1_n_n.lhsIdx_val_of_single rfl i q
/-- Row axis of the right operand: the contraction index. -/
theorem rhs_embed_0 (i : S5000x192.Idx) (q : dot_S5000x128_S128x192_S5000x192_1_0_0_1_n_n.contr.Idx) :
    (dot_S5000x128_S128x192_S5000x192_1_0_0_1_n_n.rhsIdx i q 0).val = (q ⟨0, by decide⟩).val :=
  dot_S5000x128_S128x192_S5000x192_1_0_0_1_n_n.rhsIdx_val_of_single rfl i q
/-- Column axis of the right operand: the output's column. -/
theorem rhs_embed_1 (i : S5000x192.Idx) (q : dot_S5000x128_S128x192_S5000x192_1_0_0_1_n_n.contr.Idx) :
    (dot_S5000x128_S128x192_S5000x192_1_0_0_1_n_n.rhsIdx i q 1).val = (i 1).val := by
  unfold DotDims.rhsIdx
  rw [dif_neg (show ¬(1 : Fin S128x192.rank) ∈ dot_S5000x128_S128x192_S5000x192_1_0_0_1_n_n.rhsBatch by decide), dif_pos (show (1 : Fin S128x192.rank) ∈ dot_S5000x128_S128x192_S5000x192_1_0_0_1_n_n.rhsNonContracting by decide)]
  rfl

/-- The body's one stored value at entry (p, q): the sum over the 128 contraction indices of the products of row p of
    the left block with column q of the right block. At the ideal values the format changes are the identity and the
    accumulator is zero. -/
theorem pay_apply (x0 : Vec Ideal S5000x128 .f32) (x1 : Vec Ideal S128x192 .f32) (p : Fin 5000) (q : Fin 192) :
    k0_pay1 (F := Ideal) x0 x1 (ix2 p q) = ∑ k : Fin 128, x0 (ix2 p k) * x1 (ix2 k q) := by
  unfold k0_pay1
  rw [shapeCast_self]
  show FloatOps.matmul dot_S5000x128_S128x192_S5000x192_1_0_0_1_n_n none (truncf .bf16 x0 bitsLt_bf16_f32) (truncf .bf16 x1 bitsLt_bf16_f32) (constant (F := Ideal) S5000x192 .f32 0x00000000#32) (ix2 p q) = _
  rw [Ideal.matmul_constant_zero_apply, ← Equiv.sum_comp (contrEquiv1 dot_S5000x128_S128x192_S5000x192_1_0_0_1_n_n 128 rfl rfl).symm]
  refine Finset.sum_congr rfl fun k _ => ?_
  have hk := contrEquiv1_symm_val dot_S5000x128_S128x192_S5000x192_1_0_0_1_n_n 128 rfl rfl k
  have el : dot_S5000x128_S128x192_S5000x192_1_0_0_1_n_n.lhsIdx (ix2 p q) ((contrEquiv1 dot_S5000x128_S128x192_S5000x192_1_0_0_1_n_n 128 rfl rfl).symm k) = ix2 p k := funext fun a => Fin.ext (by
    match a with
    | ⟨0, _⟩ => exact lhs_embed_0 _ _
    | ⟨1, _⟩ => exact (lhs_embed_1 _ _).trans hk)
  have er : dot_S5000x128_S128x192_S5000x192_1_0_0_1_n_n.rhsIdx (ix2 p q) ((contrEquiv1 dot_S5000x128_S128x192_S5000x192_1_0_0_1_n_n 128 rfl rfl).symm k) = ix2 k q := funext fun a => Fin.ext (by
    match a with
    | ⟨0, _⟩ => exact (rhs_embed_0 _ _).trans hk
    | ⟨1, _⟩ => exact rhs_embed_1 _ _)
  rw [el, er]
  rfl

/-! ## The product of the two arrays -/

/-- The 50000×192 product of a 50000×128 array with a 128×192 array, entry by entry. -/
def prod (a0 : S50000x128.Idx → EReal) (a1 : S128x192.Idx → EReal) : S50000x192.Idx → EReal :=
  fun i => ∑ k : Fin 128, a0 (ix2 (i 0) k) * a1 (ix2 k (i 1))

/-- A block whose rows are rows 5000·tv … 5000·tv + 4999 of the left array, times the whole right array, is the same
    rows of the product. -/
theorem block_prod (x0 : Vec Ideal S5000x128 .f32) (x1 : Vec Ideal S128x192 .f32)
    (a0 : S50000x128.Idx → EReal) (a1 : S128x192.Idx → EReal) (tv : Nat)
    (h0 : ∀ (p : Fin 5000) (k : Fin 128) (r : Fin 50000), r.val = 5000 * tv + p.val → x0 (ix2 p k) = a0 (ix2 r k))
    (h1 : ∀ (k : Fin 128) (q : Fin 192), x1 (ix2 k q) = a1 (ix2 k q))
    (y : S5000x192.Idx) (i : S50000x192.Idx) (hi0 : (i 0).val = 5000 * tv + (y 0).val) (hi1 : (i 1).val = (y 1).val) :
    k0_pay1 (F := Ideal) x0 x1 y = prod a0 a1 i := by
  obtain ⟨p, q, rfl⟩ : ∃ (p : Fin 5000) (q : Fin 192), y = ix2 p q := ⟨y 0, y 1, eq_ix2 y⟩
  rw [pay_apply]
  unfold prod
  refine Finset.sum_congr rfl fun k _ => ?_
  have hq : (i 1) = q := Fin.ext hi1
  rw [h0 p k (i 0) hi0, h1 k q, hq]

/-! ## The blocks of the region's windows -/

theorem hz : (![0, 0] : Fin 2 → Nat) = fun _ => 0 := funext fun a => by
  match a with
  | ⟨0, _⟩ => rfl
  | ⟨1, _⟩ => rfl

/-- The windows' block indices over the grid: the row blocks of `x` and of the output move with the point, the
    matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The block of `x` at point `t` is rows 5000·t … 5000·t + 4999 of `x`. -/
theorem iblk0_0_apply (c : Dev nD) (t : Fin cfg0.N) (p : Fin 5000) (k : Fin 128) (r : Fin 50000)
    (hr : r.val = 5000 * t.val + p.val) :
    (iblk0 V c 0 t : Vec Ideal S5000x128 .f32) (ix2 p k) = (V c main_arg0 : S50000x128.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The block of the matrix at every point is the matrix. -/
theorem iblk0_1_apply (c : Dev nD) (t : Fin cfg0.N) (k : Fin 128) (q : Fin 192) :
    (iblk0 V c 1 t : Vec Ideal S128x192 .f32) (ix2 k q) = (V c main_v4 : S128x192.Idx → EReal) (ix2 k q) := by
  obtain ⟨-, -, e2, e3, -⟩ := idx_facts t
  unfold iblk0
  rw [View.read_apply]
  show V c main_v4 _ = V c main_v4 _
  congr 1
  funext a
  apply Fin.ext
  match a with
  | ⟨0, _⟩ => show win0_1.index t (0 : Fin 2) * 128 + 1 * k.val = k.val; rw [e2]; omega
  | ⟨1, _⟩ => show win0_1.index t (1 : Fin 2) * 192 + 1 * q.val = q.val; rw [e3]; omega

/-! ## What each point writes back, and the array after the region -/

/-- Point `t` writes back rows 5000·t … 5000·t + 4999 of the product of the two arrays. -/
theorem flushed_eq (c : Dev nD) (t : Fin cfg0.N) :
    (dat0 V c).flushed 2 t = ((cfg0.win 2).blk t).view.read (Elt Ideal) (prod (V c main_arg0) (V c main_v4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x192) hz]
  obtain ⟨-, -, -, -, e4, e5⟩ := idx_facts t
  funext y
  show k0_pay1 (F := Ideal) (iblk0 V c 0 t) (iblk0 V c 1 t) y = prod (V c main_arg0) (V c main_v4) (((cfg0.win 2).blk t).view.emb y)
  refine block_prod _ _ _ _ t.val (fun p k r hr => iblk0_0_apply V c t p k r hr) (fun k q => iblk0_1_apply V c t k q) y _ ?_ ?_
  · show win0_2.index t (0 : Fin 2) * 5000 + 1 * (y 0).val = 5000 * t.val + (y 0).val
    rw [e4]; omega
  · show win0_2.index t (1 : Fin 2) * 192 + 1 * (y 1).val = (y 1).val
    rw [e5]; omega

/-- An index of the output array is in point `t`'s block iff each coordinate is in the block's range on its axis. -/
theorem mem_blk (t : Fin cfg0.N) (i : S50000x192.Idx) :
    i ∈ ((cfg0.win 2).blk t).view.set ↔ ∀ a : Fin 2, win0_2.index t a * S5000x192.size a ≤ (i a).val ∧ (i a).val < win0_2.index t a * S5000x192.size a + S5000x192.size a := by
  show i ∈ ((View.whole main_v5).slice (win0_2.rect t)).set ↔ _
  rw [View.set_slice_whole, Rect.mem_set_unit]
  exact Iff.rfl

/-- Row r of the output lies in the block of point r / 5000, which is written back. -/
theorem cover (i : S50000x192.Idx) :
    ∃ t : Fin cfg0.N, (cfg0.win 2).flush t = true ∧ i ∈ ((cfg0.win 2).blk t).view.set := by
  have hi0 : (i 0).val < 50000 := (i 0).isLt
  have hi1 : (i 1).val < 192 := (i 1).isLt
  have hN : grid0.N = 10 := N_0
  obtain ⟨t, ht⟩ : ∃ t : Fin cfg0.N, t.val = (i 0).val / 5000 := ⟨⟨(i 0).val / 5000, by show _ < grid0.N; rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 192 ≤ (i 1).val ∧ (i 1).val < win0_2.index t (1 : Fin 2) * 192 + 192; rw [e5]; omega

/-- The output array after the region is the product of the two arrays. -/
theorem final (c : Dev nD) : (dat0 V c).arrAt 2 cfg0.N = prod (V c main_arg0) (V c main_v4) :=
  (dat0 V c).arrAt_eq_of_cover 2 (prod (V c main_arg0) (V c main_v4)) (fun t _ => flushed_eq V c t) cover

end

/-- The product at an entry, spelt out. -/
theorem prod_apply (a0 : S50000x128.Idx → EReal) (a1 : S128x192.Idx → EReal) (n : Fin 50000) (j : Fin 192) :
    prod a0 a1 (ix2 n j) = ∑ k : Fin 128, a0 (ix2 n k) * a1 (ix2 k j) := rfl

/-- The output array after the region at entry (n, j): the sum over k of x(n, k) times the matrix's (k, j). -/
theorem H_apply (V : (c : Dev nD) → (b : Ref sig .tc) → Buf (Elt Ideal) ((c : Thread nD τ).loc b)) (c : Dev nD) (n : Fin 50000) (j : Fin 192) :
    @Eq EReal ((Cert.KernelIdeal.Hand.dat0 V c).arrAt 2 cfg0.N (ValueIdx.ix2 n j))
      (∑ k : Fin 128, @HMul.hMul EReal EReal EReal instHMul (V c main_arg0 (ValueIdx.ix2 n k)) (V c main_v4 (ValueIdx.ix2 k j))) := by
  rw [final V c]
  rfl

end Cert.KernelIdeal.Val

end
-- ==== Proof.Val.Spec.lean ====
/-
  The mathematics both programs compute, over the extended reals, written row by row.

  A node's aggregated features are a weighted sum over the edges that point at it: edge `e` contributes
  the source node's projected features times the edge's weight. From the first 128 aggregated channels
  (plus a bias, clipped at zero) comes the node's embedding row `zrow`; from the last 64 (plus a bias,
  clipped at zero, times a 64×512 matrix, plus a bias) come its 512 logits `lrow`, whose softmax
  `srow` is the node's soft cluster assignment. The pooled result at (cluster, channel) is the sum over
  all nodes of assignment × embedding.
-/
import Idealize.ShloMosaic.PureOps.Ideal
import Idealize.ShloMosaic.PureOps.Ideal.Laws

noncomputable section

namespace Cert.Spec

open Idealize.ShloMosaic

/-- The float word of −∞, kept as a word: both programs start their row maximum from it. -/
abbrev ninf : EReal := Ideal.ofBits .f32 0xFF800000#32

/-- A node's embedding row: aggregated channel plus bias, clipped at zero. -/
def zrow (a be : Fin 128 → EReal) (h : Fin 128) : EReal := max (a h + be h) 0

/-- A node's logits: the clipped assignment channels times the 64×512 matrix, plus the bias. -/
def lrow (a ba : Fin 64 → EReal) (wl : Fin 64 → Fin 512 → EReal) (bl : Fin 512 → EReal) (c : Fin 512) : EReal :=
  (∑ k : Fin 64, max (a k + ba k) 0 * wl k c) + bl c

/-- The maximum a row's softmax subtracts: the fold of `max` from −∞, once more against −∞. -/
def mrow (l : Fin 512 → EReal) : EReal := max ninf ((Finset.univ : Finset (Fin 512)).fold max ninf l)

/-- Softmax of a row of logits. -/
def srow (l : Fin 512 → EReal) (c : Fin 512) : EReal :=
  Ideal.div (Ideal.exp (l c - mrow l)) (∑ c' : Fin 512, Ideal.exp (l c' - mrow l))

/-- One node's contribution to the pooled result at (cluster `c`, channel `h`). -/
def term (aE : Fin 128 → EReal) (aA : Fin 64 → EReal) (be : Fin 128 → EReal) (ba : Fin 64 → EReal)
    (wl : Fin 64 → Fin 512 → EReal) (bl : Fin 512 → EReal) (c : Fin 512) (h : Fin 128) : EReal :=
  srow (lrow aA ba wl bl) c * zrow aE be h

/-- The pooled result: the sum over the 50000 nodes of each node's contribution. -/
def pool (aggE : Fin 50000 → Fin 128 → EReal) (aggA : Fin 50000 → Fin 64 → EReal) (be : Fin 128 → EReal)
    (ba : Fin 64 → EReal) (wl : Fin 64 → Fin 512 → EReal) (bl : Fin 512 → EReal) (c : Fin 512) (h : Fin 128) : EReal :=
  ∑ n : Fin 50000, term (aggE n) (aggA n) be ba wl bl c h

/-- The aggregation at node `n` of a per-node value `f`: the sum, over the edges `e` whose target `D e`
    is `n`, of `f` at the edge's source `S e` times the edge's weight `W e`. -/
def aggAt (D : Fin 650000 → Option (Fin 50000)) (S : Fin 650000 → Fin 50000) (W : Fin 650000 → EReal)
    (f : Fin 50000 → EReal) (n : Fin 50000) : EReal :=
  ∑ e ∈ Finset.univ.filter (fun e => D e = some n), f (S e) * W e

/-- A node's projected feature: row `n` of the node features times column of a 128-row matrix. -/
def proj (x : Fin 50000 → Fin 128 → EReal) (w : Fin 128 → EReal) (n : Fin 50000) : EReal :=
  ∑ k : Fin 128, x n k * w k

end Cert.Spec

end
-- ==== Proof.Val.StepValue.lean ====
/-
  One grid point's update of the pooling accumulator, read at an index over the extended reals.
-/
import proofs.«111678_j16475494547689_1_alg».proof.Proof.KI.R1
import proofs.«111678_j16475494547689_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand Idealize.ShloMosaic Idealize.ShloMosaic.ValueIdx

/-! ## Layout operations read at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` of a matrix reduced along its lanes, with lane `k` put back, is `(p, k)`. -/
theorem lift_ix2_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Layout

/-! ## The embedding rows: aggregated channel plus bias, clipped at zero -/

section Embedding

theorem pay5_apply (x0 : Vec Ideal S1000x192 .f32) (x4 : Vec Ideal S1x128 .f32) (r : Fin 1000) (h : Fin 128) :
    (k1_pay5 (F := Ideal) x0 x4 : S1000x128.Idx → EReal) (ix2 r h)
      = max ((x0 : S1000x192.Idx → EReal) (ix2 r ⟨h.val, by omega⟩) + (x4 : S1x128.Idx → EReal) (ix2 0 h)) 0 := by
  unfold k1_pay5 k1_pay3
  simp only [shapeCast_self]
  rw [truncf_apply, maximumf_apply, addf_apply, broadcast_apply,
    slice2_axis1_apply (n1 := 192) 0 x0 slices_S1000x192_o0_0_S1000x128 r h ⟨h.val, by omega⟩ (Nat.zero_add _).symm, broadcastTo_1b_ab_apply]
  show max (_ + _) (Ideal.ofBits .f32 0x00000000#32) = _
  rw [Ideal.ofBits_zero_f32]

end Embedding

/-! ## The assignment rows, stage by stage -/

section Assignment

/-- The clipped assignment channels of the block's rows. -/
def aV (x0 : Vec Ideal S1000x192 .f32) (x2 : Vec Ideal S1x64 .f32) : FVec Ideal S1000x64 .f32 :=
  maximumf (addf (extractStridedSlice S1000x64 ![0, 128] (k1_pay3 x0) slices_S1000x192_o0_128_S1000x64)
      (broadcastTo S1000x64 (shapeCast S1x64 x2 shapeCasts_S1x64_S1x64) broadcasts_S1x64_S1000x64))
    (broadcast S1000x64 (Scalar.ofBits .f32 0x00000000#32))

/-- The logits of the block's rows. -/
def lV (a : FVec Ideal S1000x64 .f32) (x1 : Vec Ideal S64x512 .f32) (x3 : Vec Ideal S1x512 .f32) : FVec Ideal S1000x512 .f32 :=
  addf (matmul dot_S1000x64_S64x512_S1000x512_1_0_0_1_n_n none (truncf .bf16 a bitsLt_bf16_f32) (truncf .bf16 x1 bitsLt_bf16_f32)
      (constant S1000x512 .f32 0x00000000#32))
    (broadcastTo S1000x512 (shapeCast S1x512 x3 shapeCasts_S1x512_S1x512) broadcasts_S1x512_S1000x512)

/-- The maximum each row's softmax subtracts. -/
def mV (l : FVec Ideal S1000x512 .f32) : FVec Ideal S1000 .f32 :=
  maximumf (broadcast S1000 (Scalar.ofBits .f32 0xFF800000#32))
    (multiReduction .maximumf [1] S1000 l 0xFF800000#32 reduces_S1000x512_S1000 (.inl rfl) rfl)

/-- The exponentials of the shifted logits. -/
def eV (l : FVec Ideal S1000x512 .f32) : FVec Ideal S1000x512 .f32 :=
  exp (subf l (broadcastTo S1000x512 (shapeCast S1000x1 (mV l) shapeCasts_S1000_S1000x1) broadcasts_S1000x1_S1000x512))

/-- The softmax of each row. -/
def sV (l : FVec Ideal S1000x512 .f32) : FVec Ideal S1000x512 .f32 :=
  divf (eV l) (broadcastTo S1000x512 (shapeCast S1000x1
    (multiReduction .add [1] S1000 (eV l) 0x00000000#32 reduces_S1000x512_S1000 (.inl rfl) rfl) shapeCasts_S1000_S1000x1)
    broadcasts_S1000x1_S1000x512)

theorem pay4_eq (x0 : Vec Ideal S1000x192 .f32) (x2 : Vec Ideal S1x64 .f32) (x1 : Vec Ideal S64x512 .f32) (x3 : Vec Ideal S1x512 .f32) :
    k1_pay4 (F := Ideal) x0 x2 x1 x3 = truncf .bf16 (sV (lV (aV x0 x2) x1 x3)) bitsLt_bf16_f32 := rfl

theorem aV_apply (x0 : Vec Ideal S1000x192 .f32) (x2 : Vec Ideal S1x64 .f32) (r : Fin 1000) (k : Fin 64) :
    aV x0 x2 (ix2 r k)
      = max ((x0 : S1000x192.Idx → EReal) (ix2 r ⟨128 + k.val, by omega⟩) + (x2 : S1x64.Idx → EReal) (ix2 0 k)) 0 := by
  unfold aV k1_pay3
  simp only [shapeCast_self]
  rw [maximumf_apply, addf_apply, broadcast_apply,
    slice2_axis1_apply (n1 := 192) 128 x0 slices_S1000x192_o0_128_S1000x64 r k ⟨128 + k.val, by omega⟩ rfl, broadcastTo_1b_ab_apply]
  show max (_ + _) (Ideal.ofBits .f32 0x00000000#32) = _
  rw [Ideal.ofBits_zero_f32]

end Assignment

/-! ## The two products -/

section Products

theorem lhsL_0 (i : S1000x512.Idx) (q : dot_S1000x64_S64x512_S1000x512_1_0_0_1_n_n.contr.Idx) :
    (dot_S1000x64_S64x512_S1000x512_1_0_0_1_n_n.lhsIdx i q 0).val = (i 0).val := by
  unfold DotDims.lhsIdx
  rw [dif_neg (show ¬(0 : Fin S1000x64.rank) ∈ dot_S1000x64_S64x512_S1000x512_1_0_0_1_n_n.lhsBatch by decide), dif_pos (show (0 : Fin S1000x64.rank) ∈ dot_S1000x64_S64x512_S1000x512_1_0_0_1_n_n.lhsNonContracting by decide)]
  rfl
theorem lhsL_1 (i : S1000x512.Idx) (q : dot_S1000x64_S64x512_S1000x512_1_0_0_1_n_n.contr.Idx) :
    (dot_S1000x64_S64x512_S1000x512_1_0_0_1_n_n.lhsIdx i q 1).val = (q ⟨0, by decide⟩).val :=
  dot_S1000x64_S64x512_S1000x512_1_0_0_1_n_n.lhsIdx_val_of_single rfl i q
theorem rhsL_0 (i : S1000x512.Idx) (q : dot_S1000x64_S64x512_S1000x512_1_0_0_1_n_n.contr.Idx) :
    (dot_S1000x64_S64x512_S1000x512_1_0_0_1_n_n.rhsIdx i q 0).val = (q ⟨0, by decide⟩).val :=
  dot_S1000x64_S64x512_S1000x512_1_0_0_1_n_n.rhsIdx_val_of_single rfl i q
theorem rhsL_1 (i : S1000x512.Idx) (q : dot_S1000x64_S64x512_S1000x512_1_0_0_1_n_n.contr.Idx) :
    (dot_S1000x64_S64x512_S1000x512_1_0_0_1_n_n.rhsIdx i q 1).val = (i 1).val := by
  unfold DotDims.rhsIdx
  rw [dif_neg (show ¬(1 : Fin S64x512.rank) ∈ dot_S1000x64_S64x512_S1000x512_1_0_0_1_n_n.rhsBatch by decide), dif_pos (show (1 : Fin S64x512.rank) ∈ dot_S1000x64_S64x512_S1000x512_1_0_0_1_n_n.rhsNonContracting by decide)]
  rfl

/-- The rows-by-matrix product into a zero accumulator, at (row `r`, lane `c`): the sum over the 64 channels. -/
theorem matmulL_apply (a : FVec Ideal S1000x64 .bf16) (b : FVec Ideal S64x512 .bf16) (r : Fin 1000) (c : Fin 512) :
    matmul dot_S1000x64_S64x512_S1000x512_1_0_0_1_n_n none a b (constant (F := Ideal) S1000x512 .f32 0x00000000#32) (ix2 r c)
      = ∑ k : Fin 64, a (ix2 r k) * b (ix2 k c) := by
  simp only [matmul]
  rw [Ideal.matmul_constant_zero_apply, ← Equiv.sum_comp (ValueIdx.contrEquiv1 dot_S1000x64_S64x512_S1000x512_1_0_0_1_n_n 64 rfl rfl).symm]
  refine Finset.sum_congr rfl fun k _ => ?_
  have hk := ValueIdx.contrEquiv1_symm_val dot_S1000x64_S64x512_S1000x512_1_0_0_1_n_n 64 rfl rfl k
  have el : dot_S1000x64_S64x512_S1000x512_1_0_0_1_n_n.lhsIdx (ix2 r c) ((ValueIdx.contrEquiv1 dot_S1000x64_S64x512_S1000x512_1_0_0_1_n_n 64 rfl rfl).symm k) = ix2 r k := funext fun a => Fin.ext (by
    match a with
    | ⟨0, _⟩ => exact lhsL_0 _ _
    | ⟨1, _⟩ => exact (lhsL_1 _ _).trans hk)
  have er : dot_S1000x64_S64x512_S1000x512_1_0_0_1_n_n.rhsIdx (ix2 r c) ((ValueIdx.contrEquiv1 dot_S1000x64_S64x512_S1000x512_1_0_0_1_n_n 64 rfl rfl).symm k) = ix2 k c := funext fun a => Fin.ext (by
    match a with
    | ⟨0, _⟩ => exact (rhsL_0 _ _).trans hk
    | ⟨1, _⟩ => exact rhsL_1 _ _)
  rw [el, er]

theorem lhsP_0 (i : S512x128.Idx) (q : dot_S512x1000_S1000x128_S512x128_1_0_0_1_n_n.contr.Idx) :
    (dot_S512x1000_S1000x128_S512x128_1_0_0_1_n_n.lhsIdx i q 0).val = (i 0).val := by
  unfold DotDims.lhsIdx
  rw [dif_neg (show ¬(0 : Fin S512x1000.rank) ∈ dot_S512x1000_S1000x128_S512x128_1_0_0_1_n_n.lhsBatch by decide), dif_pos (show (0 : Fin S512x1000.rank) ∈ dot_S512x1000_S1000x128_S512x128_1_0_0_1_n_n.lhsNonContracting by decide)]
  rfl
theorem lhsP_1 (i : S512x128.Idx) (q : dot_S512x1000_S1000x128_S512x128_1_0_0_1_n_n.contr.Idx) :
    (dot_S512x1000_S1000x128_S512x128_1_0_0_1_n_n.lhsIdx i q 1).val = (q ⟨0, by decide⟩).val :=
  dot_S512x1000_S1000x128_S512x128_1_0_0_1_n_n.lhsIdx_val_of_single rfl i q
theorem rhsP_0 (i : S512x128.Idx) (q : dot_S512x1000_S1000x128_S512x128_1_0_0_1_n_n.contr.Idx) :
    (dot_S512x1000_S1000x128_S512x128_1_0_0_1_n_n.rhsIdx i q 0).val = (q ⟨0, by decide⟩).val :=
  dot_S512x1000_S1000x128_S512x128_1_0_0_1_n_n.rhsIdx_val_of_single rfl i q
theorem rhsP_1 (i : S512x128.Idx) (q : dot_S512x1000_S1000x128_S512x128_1_0_0_1_n_n.contr.Idx) :
    (dot_S512x1000_S1000x128_S512x128_1_0_0_1_n_n.rhsIdx i q 1).val = (i 1).val := by
  unfold DotDims.rhsIdx
  rw [dif_neg (show ¬(1 : Fin S1000x128.rank) ∈ dot_S512x1000_S1000x128_S512x128_1_0_0_1_n_n.rhsBatch by decide), dif_pos (show (1 : Fin S1000x128.rank) ∈ dot_S512x1000_S1000x128_S512x128_1_0_0_1_n_n.rhsNonContracting by decide)]
  rfl

/-- The pooling product into a zero accumulator, at (cluster `cc`, channel `h`): the sum over the block's 1000 rows. -/
theorem matmulP_apply (a : FVec Ideal S512x1000 .bf16) (b : FVec Ideal S1000x128 .bf16) (cc : Fin 512) (h : Fin 128) :
    matmul dot_S512x1000_S1000x128_S512x128_1_0_0_1_n_n none a b (constant (F := Ideal) S512x128 .f32 0x00000000#32) (ix2 cc h)
      = ∑ r : Fin 1000, a (ix2 cc r) * b (ix2 r h) := by
  simp only [matmul]
  rw [Ideal.matmul_constant_zero_apply, ← Equiv.sum_comp (ValueIdx.contrEquiv1 dot_S512x1000_S1000x128_S512x128_1_0_0_1_n_n 1000 rfl rfl).symm]
  refine Finset.sum_congr rfl fun k _ => ?_
  have hk := ValueIdx.contrEquiv1_symm_val dot_S512x1000_S1000x128_S512x128_1_0_0_1_n_n 1000 rfl rfl k
  have el : dot_S512x1000_S1000x128_S512x128_1_0_0_1_n_n.lhsIdx (ix2 cc h) ((ValueIdx.contrEquiv1 dot_S512x1000_S1000x128_S512x128_1_0_0_1_n_n 1000 rfl rfl).symm k) = ix2 cc k := funext fun a => Fin.ext (by
    match a with
    | ⟨0, _⟩ => exact lhsP_0 _ _
    | ⟨1, _⟩ => exact (lhsP_1 _ _).trans hk)
  have er : dot_S512x1000_S1000x128_S512x128_1_0_0_1_n_n.rhsIdx (ix2 cc h) ((ValueIdx.contrEquiv1 dot_S512x1000_S1000x128_S512x128_1_0_0_1_n_n 1000 rfl rfl).symm k) = ix2 k h := funext fun a => Fin.ext (by
    match a with
    | ⟨0, _⟩ => exact (rhsP_0 _ _).trans hk
    | ⟨1, _⟩ => exact rhsP_1 _ _)
  rw [el, er]

end Products

/-! ## Logits, row maximum, softmax -/

section Softmax

theorem lV_apply (a : FVec Ideal S1000x64 .f32) (x1 : Vec Ideal S64x512 .f32) (x3 : Vec Ideal S1x512 .f32) (r : Fin 1000) (c : Fin 512) :
    lV a x1 x3 (ix2 r c)
      = (∑ k : Fin 64, a (ix2 r k) * (x1 : S64x512.Idx → EReal) (ix2 k c)) + (x3 : S1x512.Idx → EReal) (ix2 0 c) := by
  unfold lV
  simp only [shapeCast_self]
  rw [addf_apply, matmulL_apply, broadcastTo_1b_ab_apply]
  rfl

/-- A row's lane maximum from −∞ is the fold of `max` over its 512 lanes. -/
theorem rowMax_apply (l : FVec Ideal S1000x512 .f32) (r : Fin 1000) :
    multiReduction (F := Ideal) .maximumf [1] S1000 l 0xFF800000#32 reduces_S1000x512_S1000 (.inl rfl) rfl (ix1 r)
      = (Finset.univ : Finset (Fin 512)).fold max Cert.Spec.ninf (fun c => l (ix2 r c)) := by
  refine (Ideal.multiReduction_maximumf_single l 0xFF800000#32 reduces_S1000x512_S1000 (.inl rfl) rfl (ix1 r)).trans ?_
  show (Finset.univ : Finset (Fin 512)).fold max Cert.Spec.ninf (fun k : Fin 512 => l (reduces_S1000x512_S1000.lift (ix1 r) k)) = _
  exact congrArg (fun f : Fin 512 → EReal => (Finset.univ : Finset (Fin 512)).fold max Cert.Spec.ninf f)
    (funext fun k => congrArg l (lift_ix2_axis1 reduces_S1000x512_S1000 r k))

/-- A row's lane sum is the sum over its 512 lanes. -/
theorem rowSum_apply (e : FVec Ideal S1000x512 .f32) (r : Fin 1000) :
    multiReduction (F := Ideal) .add [1] S1000 e 0x00000000#32 reduces_S1000x512_S1000 (.inl rfl) rfl (ix1 r)
      = ∑ c : Fin 512, e (ix2 r c) := by
  refine (Ideal.multiReduction_add_single e 0x00000000#32 reduces_S1000x512_S1000 (.inl rfl) rfl (ix1 r)).trans ?_
  show ∑ k : Fin 512, e (reduces_S1000x512_S1000.lift (ix1 r) k) = _
  exact Finset.sum_congr rfl fun k _ => congrArg e (lift_ix2_axis1 reduces_S1000x512_S1000 r k)

theorem mV_apply (l : FVec Ideal S1000x512 .f32) (r : Fin 1000) :
    mV l (ix1 r) = Cert.Spec.mrow (fun c => l (ix2 r c)) := by
  unfold mV Cert.Spec.mrow
  rw [maximumf_apply, broadcast_apply]
  exact congrArg (max Cert.Spec.ninf) (rowMax_apply l r)

theorem eV_apply (l : FVec Ideal S1000x512 .f32) (r : Fin 1000) (c : Fin 512) :
    eV l (ix2 r c) = Ideal.exp (l (ix2 r c) - Cert.Spec.mrow (fun c' => l (ix2 r c'))) := by
  unfold eV
  show Ideal.exp (subf l _ (ix2 r c)) = _
  rw [subf_apply, broadcastTo_a1_ab_apply, shapeCast_a_a1_apply, mV_apply]

theorem sV_apply (l : FVec Ideal S1000x512 .f32) (r : Fin 1000) (c : Fin 512) :
    sV l (ix2 r c) = Cert.Spec.srow (fun c' => l (ix2 r c')) c := by
  unfold sV Cert.Spec.srow
  rw [divf_apply, broadcastTo_a1_ab_apply, shapeCast_a_a1_apply, rowSum_apply]
  simp only [eV_apply]

theorem pay4_apply (x0 : Vec Ideal S1000x192 .f32) (x2 : Vec Ideal S1x64 .f32) (x1 : Vec Ideal S64x512 .f32) (x3 : Vec Ideal S1x512 .f32)
    (r : Fin 1000) (c : Fin 512) :
    (k1_pay4 (F := Ideal) x0 x2 x1 x3 : S1000x512.Idx → EReal) (ix2 r c)
      = Cert.Spec.srow (Cert.Spec.lrow
          (fun k : Fin 64 => (x0 : S1000x192.Idx → EReal) (ix2 r ⟨128 + k.val, by omega⟩))
          (fun k : Fin 64 => (x2 : S1x64.Idx → EReal) (ix2 0 k))
          (fun (k : Fin 64) (c' : Fin 512) => (x1 : S64x512.Idx → EReal) (ix2 k c'))
          (fun c' : Fin 512 => (x3 : S1x512.Idx → EReal) (ix2 0 c'))) c := by
  rw [pay4_eq, truncf_apply, sV_apply]
  refine congrArg (fun l : Fin 512 → EReal => Cert.Spec.srow l c) (funext fun c' => ?_)
  rw [lV_apply]
  unfold Cert.Spec.lrow
  simp only [aV_apply]

end Softmax

/-! ## The pooling product and the update -/

section Update

theorem pay1_apply (v38 : FVec Ideal S1000x512 .bf16) (v39 : FVec Ideal S1000x128 .bf16) (acc : Vec Ideal S512x128 .f32)
    (cc : Fin 512) (h : Fin 128) :
    (k1_pay1 (F := Ideal) v38 v39 acc : S512x128.Idx → EReal) (ix2 cc h)
      = (acc : S512x128.Idx → EReal) (ix2 cc h) + ∑ r : Fin 1000, v38 (ix2 r cc) * v39 (ix2 r h) := by
  unfold k1_pay1
  simp only [shapeCast_self]
  rw [addf_apply, matmulP_apply]
  exact congrArg (_ + ·) (Finset.sum_congr rfl fun r _ =>
    congrArg (· * v39 (ix2 r h)) (transpose_ix2_apply v38 transposes_S1000x512_p1_0_S512x1000 cc r))

end Update

/-- The zero splat the accumulator starts from is zero everywhere. -/
theorem pay2_apply (i : S512x128.Idx) : (k1_pay2 (F := Ideal) : S512x128.Idx → EReal) i = 0 := by
  unfold k1_pay2
  simp only [shapeCast_self]
  show Ideal.ofBits .f32 0x00000000#32 = 0
  exact Ideal.ofBits_zero_f32

/-- One point's update at (cluster `cc`, channel `h`): the accumulator there plus the sum over the block's 1000 rows of
    (softmax assignment of the row at `cc`) × (embedding of the row at `h`). -/
theorem step1_apply (x0 : Vec Ideal S1000x192 .f32) (x1 : Vec Ideal S64x512 .f32) (x2 : Vec Ideal S1x64 .f32)
    (x3 : Vec Ideal S1x512 .f32) (x4 : Vec Ideal S1x128 .f32) (acc : Vec Ideal S512x128 .f32) (cc : Fin 512) (h : Fin 128) :
    (step1 (F := Ideal) x0 x1 x2 x3 x4 acc : S512x128.Idx → EReal) (ix2 cc h)
      = (acc : S512x128.Idx → EReal) (ix2 cc h)
        + ∑ r : Fin 1000, Cert.Spec.term
            (fun h' : Fin 128 => (x0 : S1000x192.Idx → EReal) (ix2 r ⟨h'.val, by omega⟩))
            (fun k : Fin 64 => (x0 : S1000x192.Idx → EReal) (ix2 r ⟨128 + k.val, by omega⟩))
            (fun h' : Fin 128 => (x4 : S1x128.Idx → EReal) (ix2 0 h'))
            (fun k : Fin 64 => (x2 : S1x64.Idx → EReal) (ix2 0 k))
            (fun (k : Fin 64) (c' : Fin 512) => (x1 : S64x512.Idx → EReal) (ix2 k c'))
            (fun c' : Fin 512 => (x3 : S1x512.Idx → EReal) (ix2 0 c'))
            cc h := by
  unfold step1
  rw [pay1_apply]
  refine congrArg (_ + ·) (Finset.sum_congr rfl fun r _ => ?_)
  rw [pay4_apply, pay5_apply]
  rfl

end Cert.KernelIdeal.Val

end
-- ==== Proof.Val.R1Value.lean ====
/- The second kernel region's output array, entry by entry, at the ideal values. The region walks the 50 blocks of
   1000 rows of the aggregated features; at each block it adds, to an accumulator that starts from zero, the sum over
   the block's rows of (softmax assignment of the row) × (embedding of the row); the accumulator after the last block
   is written to the output array. So the array at (cluster, channel) is the sum over all 50000 rows of that product:
   the pooled result of the specification. -/
import proofs.«111678_j16475494547689_1_alg».proof.Proof.KI.R1
import proofs.«111678_j16475494547689_1_alg».proof.Proof.Val.StepValue
import proofs.«111678_j16475494547689_1_alg».proof.Proof.Val.Spec
import Idealize.ShloMosaic.Lib.Pipeline.Value
import Idealize.ShloMosaic.Lib.ValueIdx

set_option maxRecDepth 16384
set_option pp.maxSteps 5000
set_option pp.deepTerms false

noncomputable section

open scoped BigOperators

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

/-! ## The blocks of the region's windows -/

/-- The windows' block indices over the grid: the row block of the aggregated features moves with the point; the
    matrix, the three biases and the output stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Two contributions are equal when their six ingredients agree entry by entry. -/
theorem term_congr {aE aE' : Fin 128 → EReal} {aA aA' : Fin 64 → EReal} {be be' : Fin 128 → EReal} {ba ba' : Fin 64 → EReal}
    {wl wl' : Fin 64 → Fin 512 → EReal} {bl bl' : Fin 512 → EReal} (cc : Fin 512) (h : Fin 128)
    (h1 : ∀ x, aE x = aE' x) (h2 : ∀ x, aA x = aA' x) (h3 : ∀ x, be x = be' x) (h4 : ∀ x, ba x = ba' x)
    (h5 : ∀ x y, wl x y = wl' x y) (h6 : ∀ x, bl x = bl' x) :
    Cert.Spec.term aE aA be ba wl bl cc h = Cert.Spec.term aE' aA' be' ba' wl' bl' cc h := by
  obtain rfl : aE = aE' := funext h1
  obtain rfl : aA = aA' := funext h2
  obtain rfl : be = be' := funext h3
  obtain rfl : ba = ba' := funext h4
  obtain rfl : wl = wl' := funext fun x => funext (h5 x)
  obtain rfl : bl = bl' := funext h6
  rfl

section
variable (V : (c : Dev nD) → (b : Ref sig .tc) → Buf (Elt Ideal) ((c : Thread nD τ).loc b))

/-- The block of aggregated features at point `t` is rows 1000·t … 1000·t + 999 of the array. -/
theorem iblk1_0_apply (c : Dev nD) (t : Fin cfg1.N) (r : Fin 1000) (j : Fin 192) (n : Fin 50000)
    (hn : n.val = 1000 * t.val + r.val) :
    (iblk1 V c 0 t : Vec Ideal S1000x192 .f32) (ix2 r j) = (V c main_v44 : S50000x192.Idx → EReal) (ix2 n j) := by
  obtain ⟨e0, e1, -⟩ := idx_facts1 t
  unfold iblk1
  rw [View.read_apply]
  show V c main_v44 _ = V c main_v44 _
  congr 1
  funext a
  apply Fin.ext
  match a with
  | ⟨0, _⟩ => show win1_0.index t (0 : Fin 2) * 1000 + 1 * r.val = n.val; rw [e0, hn]; omega
  | ⟨1, _⟩ => show win1_0.index t (1 : Fin 2) * 192 + 1 * j.val = j.val; rw [e1]; omega

/-- The block of the 64×512 matrix at every point is the matrix. -/
theorem iblk1_1_apply (c : Dev nD) (t : Fin cfg1.N) (k : Fin 64) (q : Fin 512) :
    (iblk1 V c 1 t : Vec Ideal S64x512 .f32) (ix2 k q) = (V c main_arg6 : S64x512.Idx → EReal) (ix2 k q) := by
  obtain ⟨-, -, e0, e1, -⟩ := idx_facts1 t
  unfold iblk1
  rw [View.read_apply]
  show V c main_arg6 _ = V c main_arg6 _
  congr 1
  funext a
  apply Fin.ext
  match a with
  | ⟨0, _⟩ => show win1_1.index t (0 : Fin 2) * 64 + 1 * k.val = k.val; rw [e0]; omega
  | ⟨1, _⟩ => show win1_1.index t (1 : Fin 2) * 512 + 1 * q.val = q.val; rw [e1]; omega

/-- The block of the assignment bias at every point is the bias. -/
theorem iblk1_2_apply (c : Dev nD) (t : Fin cfg1.N) (z : Fin 1) (k : Fin 64) :
    (iblk1 V c 2 t : Vec Ideal S1x64 .f32) (ix2 z k) = (V c main_v46 : S1x64.Idx → EReal) (ix2 z k) := by
  obtain ⟨-, -, -, -, e0, e1, -⟩ := idx_facts1 t
  unfold iblk1
  rw [View.read_apply]
  show V c main_v46 _ = V c main_v46 _
  congr 1
  funext a
  apply Fin.ext
  match a with
  | ⟨0, _⟩ => show win1_2.index t (0 : Fin 2) * 1 + 1 * z.val = z.val; rw [e0]; omega
  | ⟨1, _⟩ => show win1_2.index t (1 : Fin 2) * 64 + 1 * k.val = k.val; rw [e1]; omega

/-- The block of the logit bias at every point is the bias. -/
theorem iblk1_3_apply (c : Dev nD) (t : Fin cfg1.N) (z : Fin 1) (q : Fin 512) :
    (iblk1 V c 3 t : Vec Ideal S1x512 .f32) (ix2 z q) = (V c main_v47 : S1x512.Idx → EReal) (ix2 z q) := by
  obtain ⟨-, -, -, -, -, -, e0, e1, -⟩ := idx_facts1 t
  unfold iblk1
  rw [View.read_apply]
  show V c main_v47 _ = V c main_v47 _
  congr 1
  funext a
  apply Fin.ext
  match a with
  | ⟨0, _⟩ => show win1_3.index t (0 : Fin 2) * 1 + 1 * z.val = z.val; rw [e0]; omega
  | ⟨1, _⟩ => show win1_3.index t (1 : Fin 2) * 512 + 1 * q.val = q.val; rw [e1]; omega

/-- The block of the embedding bias at every point is the bias. -/
theorem iblk1_4_apply (c : Dev nD) (t : Fin cfg1.N) (z : Fin 1) (q : Fin 128) :
    (iblk1 V c 4 t : Vec Ideal S1x128 .f32) (ix2 z q) = (V c main_v45 : S1x128.Idx → EReal) (ix2 z q) := by
  obtain ⟨-, -, -, -, -, -, -, -, e0, e1, -⟩ := idx_facts1 t
  unfold iblk1
  rw [View.read_apply]
  show V c main_v45 _ = V c main_v45 _
  congr 1
  funext a
  apply Fin.ext
  match a with
  | ⟨0, _⟩ => show win1_4.index t (0 : Fin 2) * 1 + 1 * z.val = z.val; rw [e0]; omega
  | ⟨1, _⟩ => show win1_4.index t (1 : Fin 2) * 128 + 1 * q.val = q.val; rw [e1]; omega

/-! ## One row's contribution, and one point's update -/

/-- Row `n`'s contribution to the pooled result at (cluster `cc`, channel `h`), read off the arrays the region is
    entered with. -/
def rowTerm (c : Dev nD) (cc : Fin 512) (h : Fin 128) (n : Fin 50000) : EReal :=
  Cert.Spec.term
    (fun h' : Fin 128 => (V c main_v44 : S50000x192.Idx → EReal) (ix2 n ⟨h'.val, by omega⟩))
    (fun k : Fin 64 => (V c main_v44 : S50000x192.Idx → EReal) (ix2 n ⟨128 + k.val, by omega⟩))
    (fun h' : Fin 128 => (V c main_v45 : S1x128.Idx → EReal) (ix2 0 h'))
    (fun k : Fin 64 => (V c main_v46 : S1x64.Idx → EReal) (ix2 0 k))
    (fun (k : Fin 64) (c' : Fin 512) => (V c main_arg6 : S64x512.Idx → EReal) (ix2 k c'))
    (fun c' : Fin 512 => (V c main_v47 : S1x512.Idx → EReal) (ix2 0 c'))
    cc h

/-- The same contribution as a function of every natural number (zero past the last row), so that sums over ranges
    of rows need no bounds. -/
def rowTermN (c : Dev nD) (cc : Fin 512) (h : Fin 128) (m : ℕ) : EReal :=
  if hm : m < 50000 then rowTerm V c cc h ⟨m, hm⟩ else 0

/-- Point `t` adds to the accumulator the contributions of rows 1000·t … 1000·t + 999. -/
theorem step_point (c : Dev nD) (t : Fin cfg1.N) (acc : Vec Ideal S512x128 .f32) (cc : Fin 512) (h : Fin 128) :
    (step1 (F := Ideal) (iblk1 V c 0 t) (iblk1 V c 1 t) (iblk1 V c 2 t) (iblk1 V c 3 t) (iblk1 V c 4 t) acc : S512x128.Idx → EReal) (ix2 cc h)
      = (acc : S512x128.Idx → EReal) (ix2 cc h) + ∑ r ∈ Finset.range 1000, rowTermN V c cc h (1000 * t.val + r) := by
  have hN : cfg1.N = 50 := N_1
  have ht : t.val < 50 := hN ▸ t.isLt
  refine (step1_apply (iblk1 V c 0 t) (iblk1 V c 1 t) (iblk1 V c 2 t) (iblk1 V c 3 t) (iblk1 V c 4 t) acc cc h).trans ?_
  refine congrArg (fun s => (acc : S512x128.Idx → EReal) (ix2 cc h) + s) ?_
  rw [Finset.sum_range]
  refine Finset.sum_congr rfl fun r _ => ?_
  have hb : 1000 * t.val + r.val < 50000 := by have := r.isLt; omega
  unfold rowTermN
  rw [dif_pos hb]
  unfold rowTerm
  exact term_congr cc h
    (fun x => iblk1_0_apply V c t r _ ⟨1000 * t.val + r.val, hb⟩ rfl)
    (fun x => iblk1_0_apply V c t r _ ⟨1000 * t.val + r.val, hb⟩ rfl)
    (fun x => iblk1_4_apply V c t 0 x)
    (fun x => iblk1_2_apply V c t 0 x)
    (fun x y => iblk1_1_apply V c t x y)
    (fun x => iblk1_3_apply V c t 0 x)

/-! ## The accumulator after each point -/

/-- After point `n` both the output block and the accumulator hold, at (cluster, channel), the sum of the
    contributions of rows 0 … 1000·n + 999. -/
theorem outs1_apply (c : Dev nD) (cc : Fin 512) (h : Fin 128) : ∀ (n : ℕ) (hn : n < cfg1.N),
    ((outsAt1 V c n hn).1 : S512x128.Idx → EReal) (ix2 cc h) = ∑ m ∈ Finset.range (1000 * n + 1000), rowTermN V c cc h m
    ∧ ((outsAt1 V c n hn).2 : S512x128.Idx → EReal) (ix2 cc h) = ∑ m ∈ Finset.range (1000 * n + 1000), rowTermN V c cc h m
  | 0, hn => by
    have key : (step1 (F := Ideal) (iblk1 V c 0 ⟨0, hn⟩) (iblk1 V c 1 ⟨0, hn⟩) (iblk1 V c 2 ⟨0, hn⟩) (iblk1 V c 3 ⟨0, hn⟩) (iblk1 V c 4 ⟨0, hn⟩) (k1_pay2 (F := Ideal)) : S512x128.Idx → EReal) (ix2 cc h)
        = ∑ m ∈ Finset.range (1000 * 0 + 1000), rowTermN V c cc h m := by
      refine (step_point V c ⟨0, hn⟩ (k1_pay2 (F := Ideal)) cc h).trans ?_
      rw [pay2_apply, zero_add]
      refine Finset.sum_congr rfl fun r _ => ?_
      show rowTermN V c cc h (1000 * 0 + r) = _
      rw [Nat.mul_zero, Nat.zero_add]
    rw [outsAt1_first V c hn]
    exact ⟨key, key⟩
  | n + 1, hn => by
    have ih := (outs1_apply c cc h n (Nat.lt_of_succ_lt hn)).2
    have key : (step1 (F := Ideal) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 V c n (Nat.lt_of_succ_lt hn)).2 : S512x128.Idx → EReal) (ix2 cc h)
        = ∑ m ∈ Finset.range (1000 * (n + 1) + 1000), rowTermN V c cc h m := by
      refine (step_point V c ⟨n + 1, hn⟩ (outsAt1 V c n (Nat.lt_of_succ_lt hn)).2 cc h).trans ?_
      rw [show 1000 * (n + 1) + 1000 = (1000 * n + 1000) + 1000 by omega,
        Finset.sum_range_add (rowTermN V c cc h) (1000 * n + 1000) 1000, ih]
      refine congrArg (fun s => (∑ m ∈ Finset.range (1000 * n + 1000), rowTermN V c cc h m) + s) ?_
      refine Finset.sum_congr rfl fun r _ => ?_
      show rowTermN V c cc h (1000 * (n + 1) + r) = _
      rw [show 1000 * (n + 1) + r = 1000 * n + 1000 + r by omega]
    rw [outsAt1_next V c n hn]
    try dsimp only
    exact ⟨key, key⟩

/-! ## What the last point writes back, and the array after the region -/

theorem N1_last : 49 < cfg1.N := by rw [show cfg1.N = 50 from N_1]; omega

/-- The accumulator after the last point, as contents of the output array (its one block is the array). -/
abbrev result1 (c : Dev nD) : Vec Ideal S512x128 .f32 := (outsAt1 V c 49 N1_last).1

/-- The one write-back, at the last point, writes the accumulator after the last point: block (0, 0) of the 512×128
    array is the array. -/
theorem flushed_eq1 (c : Dev nD) (t : Fin cfg1.N) (hf : (cfg1.win 5).flush t = true) :
    (dat1 V c).flushed 5 t = ((cfg1.win 5).blk t).view.read (Elt Ideal) (result1 V c) := by
  have hN : cfg1.N = 50 := N_1
  have h49 : t.val = 49 := by have := (flush1_5 t).mp hf; have := t.isLt; omega
  obtain rfl : t = ⟨49, N1_last⟩ := Fin.ext h49
  obtain ⟨-, -, -, -, -, -, -, -, -, -, e0, e1⟩ := idx_facts1 (⟨49, N1_last⟩ : Fin cfg1.N)
  show (cfg1.win 5).cut (grid1.coords ⟨49, N1_last⟩) ((dat1 V c).after 5 ⟨49, N1_last⟩) = _
  rw [after1_5]
  funext y
  show result1 V c y = result1 V c (((cfg1.win 5).blk ⟨49, N1_last⟩).view.emb y)
  congr 1
  funext a
  apply Fin.ext
  match a with
  | ⟨0, _⟩ => show (y 0).val = win1_5.index ⟨49, N1_last⟩ (0 : Fin 2) * 512 + 1 * (y 0).val; rw [e0]; omega
  | ⟨1, _⟩ => show (y 1).val = win1_5.index ⟨49, N1_last⟩ (1 : Fin 2) * 128 + 1 * (y 1).val; rw [e1]; omega

/-- An index of the output array is in point `t`'s block iff each coordinate is in the block's range on its axis. -/
theorem mem_blk1 (t : Fin cfg1.N) (i : S512x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v48).slice (win1_5.rect t)).set ↔ _
  rw [View.set_slice_whole, Rect.mem_set_unit]
  exact Iff.rfl

/-- Every entry of the output lies in the last point's block, which is written back. -/
theorem cover1 (i : S512x128.Idx) :
    ∃ t : Fin cfg1.N, (cfg1.win 5).flush t = true ∧ i ∈ ((cfg1.win 5).blk t).view.set := by
  have hi0 : (i 0).val < 512 := (i 0).isLt
  have hi1 : (i 1).val < 128 := (i 1).isLt
  obtain ⟨-, -, -, -, -, -, -, -, -, -, e0, e1⟩ := idx_facts1 (⟨49, N1_last⟩ : Fin cfg1.N)
  refine ⟨⟨49, N1_last⟩, (flush1_5 _).mpr rfl, ?_⟩
  rw [mem_blk1]
  intro a
  match a with
  | ⟨0, _⟩ => show win1_5.index ⟨49, N1_last⟩ (0 : Fin 2) * 512 ≤ (i 0).val ∧ (i 0).val < win1_5.index ⟨49, N1_last⟩ (0 : Fin 2) * 512 + 512; rw [e0]; omega
  | ⟨1, _⟩ => show win1_5.index ⟨49, N1_last⟩ (1 : Fin 2) * 128 ≤ (i 1).val ∧ (i 1).val < win1_5.index ⟨49, N1_last⟩ (1 : Fin 2) * 128 + 128; rw [e1]; omega

/-- The output array after the region is the accumulator after the last point. -/
theorem final1 (c : Dev nD) : (dat1 V c).arrAt 5 cfg1.N = result1 V c :=
  (dat1 V c).arrAt_eq_of_cover 5 (result1 V c) (fun t hf => flushed_eq1 V c t hf) cover1

end

/-- The output array after the region at (cluster `cc`, channel `h`): the pooled result of the specification, over
    the arrays the region is entered with. -/
theorem pool_value (V : (c : Dev nD) → (b : Ref sig .tc) → Buf (Elt Ideal) ((c : Thread nD τ).loc b)) (c : Dev nD)
    (cc : Fin 512) (h : Fin 128) :
    ((Cert.KernelIdeal.Hand.dat1 V c).arrAt 5 cfg1.N : S512x128.Idx → EReal) (ValueIdx.ix2 cc h)
      = Cert.Spec.pool (fun n j => (V c main_v44 : S50000x192.Idx → EReal) (ValueIdx.ix2 n ⟨j.val, by omega⟩))
                       (fun n k => (V c main_v44 : S50000x192.Idx → EReal) (ValueIdx.ix2 n ⟨128 + k.val, by omega⟩))
                       (fun h' => (V c main_v45 : S1x128.Idx → EReal) (ValueIdx.ix2 0 h'))
                       (fun k => (V c main_v46 : S1x64.Idx → EReal) (ValueIdx.ix2 0 k))
                       (fun k c' => (V c main_arg6 : S64x512.Idx → EReal) (ValueIdx.ix2 k c'))
                       (fun c' => (V c main_v47 : S1x512.Idx → EReal) (ValueIdx.ix2 0 c')) cc h := by
  rw [final1 V c]
  refine ((outs1_apply V c cc h 49 N1_last).1).trans ?_
  rw [show 1000 * 49 + 1000 = 50000 from rfl, Finset.sum_range]
  unfold Cert.Spec.pool
  refine Finset.sum_congr rfl fun n _ => ?_
  unfold rowTermN
  rw [dif_pos n.isLt]
  rfl

end Cert.KernelIdeal.Val

end
-- ==== Proof.Val.HostKDefs.lean ====
/-
  The host operations of the kernel's program between and around its two kernel regions, as functions of
  the arguments: the edge lists with the self loops appended, the node degrees, the symmetric
  normalisation weight of each edge, the gather of projected rows, and the scatter-add that aggregates
  them at the edges' targets.
-/
import proofs.«111678_j16475494547689_1_alg».proof.Proof.Gen.KernelIdeal
import Idealize.ShloMosaic.Lib.StableHlo.Run

noncomputable section

namespace Cert.KernelIdeal.Val

open Cert.KernelIdeal Cert.KernelIdeal.Gen Idealize.ShloMosaic Idealize.ShloMosaic.TcCoe Idealize.SL.Sem Idealize.ShloMosaic.StableHlo

variable {F : FTy → Type} [FloatOps F]

/-- The two projection matrices side by side: 128 × (128 + 64). -/
def wcat (x2 : (⟨S128x128, .f32⟩ : BufTy).Contents (Elt F)) (x4 : (⟨S128x64, .f32⟩ : BufTy).Contents (Elt F)) :
    (⟨S128x192, .f32⟩ : BufTy).Contents (Elt F) :=
  concatenate S128x192 1 [⟨S128x128, x2⟩, ⟨S128x64, x4⟩] concatenates_S128x128_S128x64_S128x192_d1

/-- The node numbers 0 … 49999: the self loops' ends. -/
def loops : (⟨S50000, .i32⟩ : BufTy).Contents (Elt F) := iotaInDim S50000 32 0

/-- The edges' sources, self loops appended. -/
def srcv (x1 : (⟨S2x600000, .i32⟩ : BufTy).Contents (Elt F)) : (⟨S650000, .i32⟩ : BufTy).Contents (Elt F) :=
  concatenate S650000 0 [⟨S600000, shapeCast _ (extractStridedSlice S1x600000 ![0, 0] x1 slices_S2x600000_S1x600000_0_0) shapeCasts_S1x600000_S600000⟩, ⟨S50000, loops (F := F)⟩] concatenates_S600000_S50000_S650000_d0

/-- The edges' targets, self loops appended. -/
def dstv (x1 : (⟨S2x600000, .i32⟩ : BufTy).Contents (Elt F)) : (⟨S650000, .i32⟩ : BufTy).Contents (Elt F) :=
  concatenate S650000 0 [⟨S600000, shapeCast _ (extractStridedSlice S1x600000 ![1, 0] x1 slices_S2x600000_S1x600000_1_0) shapeCasts_S1x600000_S600000⟩, ⟨S50000, loops (F := F)⟩] concatenates_S600000_S50000_S650000_d0

/-- The targets as the scatter's index column. -/
def dsc (x1 : (⟨S2x600000, .i32⟩ : BufTy).Contents (Elt F)) : (⟨S650000x1, .i32⟩ : BufTy).Contents (Elt F) :=
  broadcastInDim S650000x1 ![0] bcast_S650000_S650000x1_0 (dstv (F := F) x1)

/-- A node's degree: the number of edges (self loops included) that point at it. -/
def deg (x1 : (⟨S2x600000, .i32⟩ : BufTy).Contents (Elt F)) : (⟨S50000, .f32⟩ : BufTy).Contents (Elt F) :=
  Host.scatterAdd scatter_S50000_S650000x1_S650000_n_0_0_1
    (broadcastInDim S50000 ![] bcast_S_S50000 (constant S_ .f32 0x00000000#32))
    (dsc (F := F) x1)
    (broadcastInDim S650000 ![] bcast_S_S650000 (constant S_ .f32 0x3F800000#32))

/-- degree^(-1/2) where the degree is positive, else zero. -/
def dinv (x1 : (⟨S2x600000, .i32⟩ : BufTy).Contents (Elt F)) : (⟨S50000, .f32⟩ : BufTy).Contents (Elt F) :=
  select (cmpf .ogt (deg (F := F) x1) (broadcastInDim S50000 ![] bcast_S_S50000 (constant S_ .f32 0x00000000#32)))
    (Host.rsqrt (deg (F := F) x1))
    (broadcastInDim S50000 ![] bcast_S_S50000 (id (constant S_ .f32 0x00000000#32)))

/-- An index list made non-negative (a negative index counts from the end of the 50000 rows),
    as a gather's index column. -/
def wrapIdx (v : (⟨S650000, .i32⟩ : BufTy).Contents (Elt F)) : (⟨S650000x1, .i32⟩ : BufTy).Contents (Elt F) :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)

/-- Each edge's weight: dinv at its source times dinv at its target. -/
def nrm (x1 : (⟨S2x600000, .i32⟩ : BufTy).Contents (Elt F)) : (⟨S650000, .f32⟩ : BufTy).Contents (Elt F) :=
  mulf (Host.gather gather_S50000_S650000x1_S650000_n_0_n_n_0_1_1 (dinv (F := F) x1) (wrapIdx (F := F) (srcv (F := F) x1)))
    (Host.gather gather_S50000_S650000x1_S650000_n_0_n_n_0_1_1 (dinv (F := F) x1) (wrapIdx (F := F) (dstv (F := F) x1)))

/-- The aggregation of the projected rows `H`: gather each edge's source row, weight it, add it at the
    edge's target. -/
def aggK (H : (⟨S50000x192, .f32⟩ : BufTy).Contents (Elt F)) (x1 : (⟨S2x600000, .i32⟩ : BufTy).Contents (Elt F)) :
    (⟨S50000x192, .f32⟩ : BufTy).Contents (Elt F) :=
  Host.scatterAdd scatter_S50000x192_S650000x1_S650000x192_1_0_0_1
    (broadcastInDim S50000x192 ![] bcast_S_S50000x192 (constant S_ .f32 0x00000000#32))
    (dsc (F := F) x1)
    (mulf (Host.gather gather_S50000x192_S650000x1_S650000x192_1_0_n_n_0_1_1192 H (wrapIdx (F := F) (srcv (F := F) x1)))
      (broadcastInDim S650000x192 ![0, 1] bcast_S650000x1_S650000x192_0_1
        (broadcastInDim S650000x1 ![0] bcast_S650000_S650000x1_0 (nrm (F := F) x1))))

/-- The three bias vectors as one-row matrices. -/
def bE (x3 : (⟨S128, .f32⟩ : BufTy).Contents (Elt F)) : (⟨S1x128, .f32⟩ : BufTy).Contents (Elt F) := shapeCast _ x3 shapeCasts_S128_S1x128
def bA (x5 : (⟨S64, .f32⟩ : BufTy).Contents (Elt F)) : (⟨S1x64, .f32⟩ : BufTy).Contents (Elt F) := shapeCast _ x5 shapeCasts_S64_S1x64
def bL (x7 : (⟨S512, .f32⟩ : BufTy).Contents (Elt F)) : (⟨S1x512, .f32⟩ : BufTy).Contents (Elt F) := shapeCast _ x7 shapeCasts_S512_S1x512

end Cert.KernelIdeal.Val

end
-- ==== Proof.Val.HostKValue.lean ====
/-
  What the host operations of the kernel's program leave in the buffers its two kernel regions read, as
  explicit functions of the arguments: the two projection matrices side by side, the aggregation of the
  projected rows along the edges, and the three bias vectors as one-row matrices; then those layout
  operations read at an index.
-/
import proofs.«111678_j16475494547689_1_alg».proof.Proof.Val.HostKDefs
import proofs.«111678_j16475494547689_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (outs : Gen.Outs (F := F)) (c : Dev nD)

/-! ## Before the first region -/

/-- No host operation writes the node features. -/
theorem V1_arg0 : Gen.V1 m c main_arg0 = m ((c : Thread nD τ).loc main_arg0) :=
  (Gen.V1_of m c main_arg0 (by decide)).trans rfl

/-- The edges' sources as a vector: row 0 of the edge list, sliced then reshaped. -/
theorem V1_v1 : Gen.V1 m c main_v1
    = shapeCast _ (extractStridedSlice S1x600000 ![0, 0] (m ((c : Thread nD τ).loc main_arg1)) slices_S2x600000_S1x600000_0_0) shapeCasts_S1x600000_S600000 := by
  show StableHlo.after Gen.hostOps0 _ (Proc.devRef .tc main_v1) = _
  after_results; rfl

/-- The edges' targets as a vector: row 1 of the edge list, sliced then reshaped. -/
theorem V1_v3 : Gen.V1 m c main_v3
    = shapeCast _ (extractStridedSlice S1x600000 ![1, 0] (m ((c : Thread nD τ).loc main_arg1)) slices_S2x600000_S1x600000_1_0) shapeCasts_S1x600000_S600000 := by
  show StableHlo.after Gen.hostOps0 _ (Proc.devRef .tc main_v3) = _
  after_results; rfl

/-- The concatenate of the two projection matrices along the columns. -/
theorem V1_v4 : Gen.V1 m c main_v4 = wcat (m ((c : Thread nD τ).loc main_arg2)) (m ((c : Thread nD τ).loc main_arg4)) := by
  show StableHlo.after Gen.hostOps0 _ (Proc.devRef .tc main_v4) = _
  after_results; rfl

/-! ## Between the regions: the degrees and the edge lists -/

/-- The first region leaves the edges' sources alone; then the self loops are appended. -/
theorem V3_v7 : Gen.V3 m outs c main_v7 = srcv (m ((c : Thread nD τ).loc main_arg1)) := by
  show StableHlo.after Gen.hostOps1 (Gen.V2 m outs c) (Proc.devRef .tc main_v7) = _
  after_results
  rw [Gen.V2_of m outs c main_v1 (by decide), V1_v1]; rfl

/-- Likewise the edges' targets. -/
theorem V3_v8 : Gen.V3 m outs c main_v8 = dstv (m ((c : Thread nD τ).loc main_arg1)) := by
  show StableHlo.after Gen.hostOps1 (Gen.V2 m outs c) (Proc.devRef .tc main_v8) = _
  after_results
  rw [Gen.V2_of m outs c main_v3 (by decide), V1_v3]; rfl

/-- The comparison of the degrees (ones scattered at the targets) with zero. -/
theorem V3_v14 : Gen.V3 m outs c main_v14
    = cmpf .ogt (deg (m ((c : Thread nD τ).loc main_arg1))) (broadcastInDim S50000 ![] bcast_S_S50000 (constant (F := F) S_ .f32 0x00000000#32)) := by
  show StableHlo.after Gen.hostOps1 (Gen.V2 m outs c) (Proc.devRef .tc main_v14) = _
  after_results
  rw [Gen.V2_of m outs c main_v3 (by decide), V1_v3]; rfl

/-- The reciprocal square roots of the degrees. -/
theorem V3_v15 : Gen.V3 m outs c main_v15 = Host.rsqrt (deg (m ((c : Thread nD τ).loc main_arg1))) := by
  show StableHlo.after Gen.hostOps1 (Gen.V2 m outs c) (Proc.devRef .tc main_v15) = _
  after_results
  rw [Gen.V2_of m outs c main_v3 (by decide), V1_v3]; rfl

/-- The zero the selection falls back to. -/
theorem V3_cst_2 : Gen.V3 m outs c main_cst_2 = constant (F := F) S_ .f32 0x00000000#32 := by
  show StableHlo.after Gen.hostOps1 (Gen.V2 m outs c) (Proc.devRef .tc main_cst_2) = _
  after_results

/-- The selection: degree^(-1/2) where the degree is positive, else zero. -/
theorem V4_v16 : Gen.V4 m outs c main_v16 = dinv (m ((c : Thread nD τ).loc main_arg1)) := by
  show StableHlo.after Gen.hostOps1_1 (Gen.V3 m outs c) (Proc.devRef .tc main_v16) = _
  have h14 := V3_v14 m outs c
  have h15 := V3_v15 m outs c
  have hc := V3_cst_2 m outs c
  generalize Gen.V3 m outs c = W at h14 h15 hc ⊢
  after_results
  rw [h14, h15, hc]; rfl

theorem V4_v7 : Gen.V4 m outs c main_v7 = srcv (m ((c : Thread nD τ).loc main_arg1)) :=
  (Gen.V4_of m outs c main_v7 (by decide)).trans (V3_v7 m outs c)

theorem V4_v8 : Gen.V4 m outs c main_v8 = dstv (m ((c : Thread nD τ).loc main_arg1)) :=
  (Gen.V4_of m outs c main_v8 (by decide)).trans (V3_v8 m outs c)

/-- What the first region left in its output is still there: no host operation writes it. -/
theorem V4_v5 : Gen.V4 m outs c main_v5 = outs 2 main_v5 c :=
  (Gen.V4_of m outs c main_v5 (by decide)).trans <| (Gen.V3_of m outs c main_v5 (by decide)).trans (Function.update_self ..)

/-- No item before the second region writes an argument. -/
theorem V4_arg (r : Ref sig .tc) (h1 : r ∉ Gen.hostOps1_1_W) (h2 : r ∉ Gen.hostOps1_W) (h3 : r ∉ ([main_v5] : List (Ref sig .tc)))
    (h4 : r ∉ Gen.hostOps0_W) : Gen.V4 m outs c r = m ((c : Thread nD τ).loc r) :=
  (Gen.V4_of m outs c r h1).trans <| (Gen.V3_of m outs c r h2).trans <| (Gen.V2_of m outs c r h3).trans <| (Gen.V1_of m c r h4).trans rfl

/-! ## Before the second region -/

theorem V5_arg6 : Gen.V5 m outs c main_arg6 = m ((c : Thread nD τ).loc main_arg6) :=
  (Gen.V5_of m outs c main_arg6 (by decide)).trans (V4_arg m outs c main_arg6 (by decide) (by decide) (by decide) (by decide))

/-- The three bias vectors reshaped to one-row matrices. -/
theorem V5_v45 : Gen.V5 m outs c main_v45 = bE (m ((c : Thread nD τ).loc main_arg3)) := by
  show StableHlo.after Gen.hostOps1_2 (Gen.V4 m outs c) (Proc.devRef .tc main_v45) = _
  have h := V4_arg m outs c main_arg3 (by decide) (by decide) (by decide) (by decide)
  generalize Gen.V4 m outs c = W at h ⊢
  after_results_simp
  rw [h]; rfl

theorem V5_v46 : Gen.V5 m outs c main_v46 = bA (m ((c : Thread nD τ).loc main_arg5)) := by
  show StableHlo.after Gen.hostOps1_2 (Gen.V4 m outs c) (Proc.devRef .tc main_v46) = _
  have h := V4_arg m outs c main_arg5 (by decide) (by decide) (by decide) (by decide)
  generalize Gen.V4 m outs c = W at h ⊢
  after_results_simp
  rw [h]; rfl

theorem V5_v47 : Gen.V5 m outs c main_v47 = bL (m ((c : Thread nD τ).loc main_arg7)) := by
  show StableHlo.after Gen.hostOps1_2 (Gen.V4 m outs c) (Proc.devRef .tc main_v47) = _
  have h := V4_arg m outs c main_arg7 (by decide) (by decide) (by decide) (by decide)
  generalize Gen.V4 m outs c = W at h ⊢
  after_results_simp
  rw [h]; rfl

/-- The aggregation: each edge's source row of the first region's output, gathered, weighted by the edge's
    normalisation, added at the edge's target. -/
theorem V5_v44 : Gen.V5 m outs c main_v44 = aggK (outs 2 main_v5 c) (m ((c : Thread nD τ).loc main_arg1)) := by
  show StableHlo.after Gen.hostOps1_2 (Gen.V4 m outs c) (Proc.devRef .tc main_v44) = _
  have h5 := V4_v5 m outs c
  have h7 := V4_v7 m outs c
  have h8 := V4_v8 m outs c
  have h16 := V4_v16 m outs c
  generalize Gen.V4 m outs c = W at h5 h7 h8 h16 ⊢
  after_results_simp
  rw [h5, h7, h8, h16]; rfl

/-! ## The layout operations read at an index -/

open Idealize.ShloMosaic.ValueIdx in
/-- The side-by-side matrix at column `j`: the first matrix's column `j` below 128, else the second's column `j - 128`. -/
theorem wcat_apply (x2 : (⟨S128x128, .f32⟩ : BufTy).Contents (Elt Ideal)) (x4 : (⟨S128x64, .f32⟩ : BufTy).Contents (Elt Ideal))
    (k : Fin 128) (j : Fin 192) :
    wcat (F := Ideal) x2 x4 (ValueIdx.ix2 k j)
      = if h : j.val < 128 then x2 (ValueIdx.ix2 k ⟨j.val, h⟩) else x4 (ValueIdx.ix2 k ⟨j.val - 128, by omega⟩) := by
  unfold wcat
  split
  · next h =>
    exact concatenate_pair_apply_left _ x2 x4 _ (ValueIdx.ix2 k j) rfl (ValueIdx.ix2 k ⟨j.val, h⟩)
      (by intro b; match b with | ⟨0, _⟩ => rfl | ⟨1, _⟩ => rfl)
  · next h =>
    exact concatenate_pair_apply_right _ x2 x4 _ (ValueIdx.ix2 k j) rfl rfl (ValueIdx.ix2 k ⟨j.val - 128, by omega⟩)
      (by intro b hb; match b, hb with | ⟨0, _⟩, _ => rfl | ⟨1, _⟩, hb => exact absurd rfl hb)
      (by show (j.val - 128) + 128 = j.val; omega)

/-- A bias vector as a one-row matrix reads, in its row, the vector. -/
theorem bE_apply (x3 : (⟨S128, .f32⟩ : BufTy).Contents (Elt Ideal)) (h' : Fin 128) :
    bE (F := Ideal) x3 (ValueIdx.ix2 0 h') = x3 (ValueIdx.ix1 h') :=
  ValueIdx.shapeCast_a_1a_apply x3 _ 0 h'

theorem bA_apply (x5 : (⟨S64, .f32⟩ : BufTy).Contents (Elt Ideal)) (h' : Fin 64) :
    bA (F := Ideal) x5 (ValueIdx.ix2 0 h') = x5 (ValueIdx.ix1 h') :=
  ValueIdx.shapeCast_a_1a_apply x5 _ 0 h'

theorem bL_apply (x7 : (⟨S512, .f32⟩ : BufTy).Contents (Elt Ideal)) (h' : Fin 512) :
    bL (F := Ideal) x7 (ValueIdx.ix2 0 h') = x7 (ValueIdx.ix1 h') :=
  ValueIdx.shapeCast_a_1a_apply x7 _ 0 h'

end Cert.KernelIdeal.Val

end
-- ==== Proof.Val.LibRowAgg.lean ====
/-
  Row aggregation read at an index.

  A table of 50000 rows and C columns is gathered at 650000 row numbers, each gathered row is weighted, and the
  weighted rows are added into a table of the same shape at 650000 target rows. Read at one element (n, j) of the
  result, this is the operand's element plus the sum, over the edges e whose target row is n, of the source row's
  element in column j times the edge's weight.

  The two row numbers of an edge are decoded from 32-bit index columns by different rules: a gather clamps the signed
  start index into the table, a scatter drops an update whose signed start index lies outside it.
-/
import Idealize.ShloMosaic.PureOps.Ideal
import Idealize.ShloMosaic.PureOps.Ideal.Laws
import Idealize.ShloMosaic.Lib.ValueIdx
import proofs.«111678_j16475494547689_1_alg».proof.Proof.Val.Spec

noncomputable section

open scoped BigOperators

namespace Cert.RowAgg

open Idealize.ShloMosaic Idealize.ShloMosaic.ValueIdx

/-- The row an update lands on: the index column's word at `e` read as a signed integer, when it names one of the
    50000 rows; an update whose word is negative or too large lands nowhere. -/
def Dof (iv : (⟨2, ![650000, 1]⟩ : Shape).Idx → BitVec 32) (e : Fin 650000) : Option (Fin 50000) :=
  if h : 0 ≤ (iv (ix2 e 0)).toInt ∧ (iv (ix2 e 0)).toInt < 50000 then
    some ⟨(iv (ix2 e 0)).toInt.toNat, by omega⟩
  else none

/-- The row a gather reads: the index column's word at `e` read as a signed integer and clamped into the 50000 rows
    (a negative word reads row 0, a too large one the last row). -/
def Sof (iv : (⟨2, ![650000, 1]⟩ : Shape).Idx → BitVec 32) (e : Fin 650000) : Fin 50000 :=
  ⟨min (iv (ix2 e 0)).toInt.toNat 49999, by omega⟩

/-- Two rank-2 indices built from coordinates are equal exactly when the coordinates are. -/
theorem ix2_eq_iff {n0 n1 : Nat} (a a' : Fin n0) (b b' : Fin n1) : ix2 a b = ix2 a' b' ↔ a = a' ∧ b = b' := by
  constructor
  · intro h
    have h0 := congrFun h (0 : Fin 2)
    have h1 := congrFun h (1 : Fin 2)
    exact ⟨h0, h1⟩
  · rintro ⟨rfl, rfl⟩; rfl

/-! ## The gather of whole rows -/

/-- The dimension numbers of a gather of whole rows of a 50000 × C table at a column of 650000 row numbers:
    the result's axis 1 is the row's own axis, the table's axis 0 is indexed and collapsed. -/
abbrev gatherDims (C : Nat)
    (wf : GatherDims.WF ⟨2, ![50000, C]⟩ ⟨2, ![650000, 1]⟩ ⟨2, ![650000, C]⟩ [1] [0] [] [0] [] 1 ![1, C]) :
    GatherDims ⟨2, ![50000, C]⟩ ⟨2, ![650000, 1]⟩ ⟨2, ![650000, C]⟩ where
  offsetDims := [1]
  collapsedSliceDims := [0]
  operandBatchingDims := []
  startIndicesBatchingDims := []
  startIndexMap := [0]
  indexVectorDim := 1
  sliceSizes := ![1, C]
  wf := wf

/-- The gathered table at (e, j) is the table at (the clamped row number of e, j). -/
theorem gather_rows_apply {α : Type} {C : Nat}
    (wf : GatherDims.WF ⟨2, ![50000, C]⟩ ⟨2, ![650000, 1]⟩ ⟨2, ![650000, C]⟩ [1] [0] [] [0] [] 1 ![1, C])
    (x : (⟨2, ![50000, C]⟩ : Shape).Idx → α) (idx : IVec ⟨2, ![650000, 1]⟩ 32) (e : Fin 650000) (j : Fin C) :
    Host.gather (gatherDims C wf) x idx (ix2 e j) = x (ix2 (Sof idx e) j) := by
  unfold Host.gather
  congr 1
  funext a
  refine Fin.ext ?_
  match a with
  | ⟨0, _⟩ =>
    show (gatherDims C wf).start (ix2 e j) idx 0 + (gatherDims C wf).batchCoord (ix2 e j) 0
      + (gatherDims C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims C wf).startIndexMap from List.mem_singleton.mpr rfl)]
    have hsi : (gatherDims C wf).siIdx (ix2 e j) ⟨List.idxOf (0 : Fin 2) (gatherDims C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims C wf).start (ix2 e j) idx 1 + (gatherDims C wf).batchCoord (ix2 e j) 1
      + (gatherDims C wf).offCoord (ix2 e j) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-! ## The scatter-add of whole rows -/

/-- The dimension numbers of a scatter of whole rows into a 50000 × C table at a column of 650000 row numbers:
    the updates' axis 1 is the row's own axis, the table's axis 0 is the indexed one. -/
abbrev scatterDims (C : Nat)
    (wf : ScatterDims.WF ⟨2, ![50000, C]⟩ ⟨2, ![650000, 1]⟩ ⟨2, ![650000, C]⟩ [1] [0] [0] 1) :
    ScatterDims ⟨2, ![50000, C]⟩ ⟨2, ![650000, 1]⟩ ⟨2, ![650000, C]⟩ where
  updateWindowDims := [1]
  insertedWindowDims := [0]
  scatterDimsToOperandDims := [0]
  indexVectorDim := 1
  wf := wf

section Scatter
variable {C : Nat} (wf : ScatterDims.WF ⟨2, ![50000, C]⟩ ⟨2, ![650000, 1]⟩ ⟨2, ![650000, C]⟩ [1] [0] [0] 1)
  (idx : IVec ⟨2, ![650000, 1]⟩ 32) (e : Fin 650000) (j : Fin C)

/-- On the row axis the window of update (e, j) starts at the signed word of the index column at e. -/
theorem start_row : (scatterDims C wf).start (ix2 e j) idx 0 = (idx (ix2 e 0)).toInt := by
  unfold ScatterDims.start
  rw [dif_pos (show (0 : Fin 2) ∈ (scatterDims C wf).scatterDimsToOperandDims from List.mem_singleton.mpr rfl)]
  have hsi : (scatterDims C wf).siIdx (ix2 e j) ⟨List.idxOf (0 : Fin 2) (scatterDims C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem start_col : (scatterDims C wf).start (ix2 e j) idx 1 = 0 := by
  unfold ScatterDims.start
  rw [dif_neg (show ¬ (1 : Fin 2) ∈ ([0] : List (Fin 2)) by decide)]

/-- The row axis is not a window axis: the window coordinate there is 0. -/
theorem window_row : (scatterDims C wf).window (ix2 e j) 0 = 0 := by
  unfold ScatterDims.window
  have h0 : ¬ (0 : Fin 2) ∈ (scatterDims C wf).sKept :=
    (show ¬ (0 : Fin 2) ∈ (List.finRange 2).filter (· ∉ ([0] : List (Fin 2))) by decide)
  rw [dif_neg h0]

/-- On the column axis the window coordinate is the update's column. -/
theorem window_col : (scatterDims C wf).window (ix2 e j) 1 = j.val := by
  unfold ScatterDims.window
  have h1 : (1 : Fin 2) ∈ (scatterDims C wf).sKept :=
    (show (1 : Fin 2) ∈ (List.finRange 2).filter (· ∉ ([0] : List (Fin 2))) by decide)
  rw [dif_pos h1]
  rfl

/-- Update (e, j) lands on (the row the index column names at e, j), or nowhere when it names none. -/
theorem resultIdx?_rows :
    (scatterDims C wf).resultIdx? (ix2 e j) idx = (Dof idx e).map (fun r => ix2 r j) := by
  unfold ScatterDims.resultIdx? Dof
  by_cases h : 0 ≤ (idx (ix2 e 0)).toInt ∧ (idx (ix2 e 0)).toInt < 50000
  · have hall : ∀ a : Fin 2, 0 ≤ (scatterDims C wf).start (ix2 e j) idx a + (scatterDims C wf).window (ix2 e j) a ∧
        (scatterDims C wf).start (ix2 e j) idx a + (scatterDims C wf).window (ix2 e j) a
          < (⟨2, ![50000, C]⟩ : Shape).size a := by
      intro a
      match a with
      | ⟨0, _⟩ =>
        show 0 ≤ (scatterDims C wf).start (ix2 e j) idx 0 + ((scatterDims C wf).window (ix2 e j) 0 : Nat) ∧
          (scatterDims C wf).start (ix2 e j) idx 0 + ((scatterDims C wf).window (ix2 e j) 0 : Nat) < ((50000 : Nat) : Int)
        rw [start_row, window_row]
        omega
      | ⟨1, _⟩ =>
        show 0 ≤ (scatterDims C wf).start (ix2 e j) idx 1 + ((scatterDims C wf).window (ix2 e j) 1 : Nat) ∧
          (scatterDims C wf).start (ix2 e j) idx 1 + ((scatterDims C wf).window (ix2 e j) 1 : Nat) < ((C : Nat) : Int)
        rw [start_col, window_col]
        have := j.isLt
        omega
    rw [dif_pos hall, dif_pos h, Option.map_some]
    congr 1
    funext a
    refine Fin.ext ?_
    match a with
    | ⟨0, _⟩ =>
      show ((scatterDims C wf).start (ix2 e j) idx 0 + ((scatterDims C wf).window (ix2 e j) 0 : Nat)).toNat = (idx (ix2 e 0)).toInt.toNat
      rw [start_row, window_row]
      simp
    | ⟨1, _⟩ =>
      show ((scatterDims C wf).start (ix2 e j) idx 1 + ((scatterDims C wf).window (ix2 e j) 1 : Nat)).toNat = j.val
      rw [start_col, window_col]
      simp
  · have hnot : ¬ ∀ a : Fin 2, 0 ≤ (scatterDims C wf).start (ix2 e j) idx a + (scatterDims C wf).window (ix2 e j) a ∧
        (scatterDims C wf).start (ix2 e j) idx a + (scatterDims C wf).window (ix2 e j) a
          < (⟨2, ![50000, C]⟩ : Shape).size a := by
      intro hall
      have h0 := hall 0
      change 0 ≤ (scatterDims C wf).start (ix2 e j) idx 0 + ((scatterDims C wf).window (ix2 e j) 0 : Nat) ∧
          (scatterDims C wf).start (ix2 e j) idx 0 + ((scatterDims C wf).window (ix2 e j) 0 : Nat) < ((50000 : Nat) : Int) at h0
      rw [start_row, window_row] at h0
      exact h (by omega)
    rw [dif_neg hnot, dif_neg h, Option.map_none]

end Scatter

/-- The scatter-add read at (n, j): the operand there plus the sum of the updates (e, j) over the edges e whose
    index word names row n. -/
theorem scatterAdd_rows_apply {φ : FTy} {C : Nat}
    (wf : ScatterDims.WF ⟨2, ![50000, C]⟩ ⟨2, ![650000, 1]⟩ ⟨2, ![650000, C]⟩ [1] [0] [0] 1)
    (x : FVec Ideal ⟨2, ![50000, C]⟩ φ) (idx : IVec ⟨2, ![650000, 1]⟩ 32) (upd : FVec Ideal ⟨2, ![650000, C]⟩ φ)
    (n : Fin 50000) (j : Fin C) :
    Host.scatterAdd (scatterDims C wf) x idx upd (ix2 n j)
      = x (ix2 n j) + ∑ e ∈ Finset.univ.filter (fun e => Dof idx e = some n), upd (ix2 e j) := by
  unfold Host.scatterAdd
  rw [Ideal.hostScatterAdd_def]
  unfold Ideal.hostScatterAdd
  refine congrArg (fun t => x (ix2 n j) + t) ?_
  rw [Finset.sum_filter, Finset.sum_filter, sum_idx2]
  refine Finset.sum_congr rfl fun e _ => ?_
  have key : ∀ b : Fin C, ((Dof idx e).map (fun r => ix2 r b) = some (ix2 n j)) ↔ (Dof idx e = some n ∧ b = j) := by
    intro b
    cases hd : Dof idx e with
    | none => simp
    | some r => rw [Option.map_some, Option.some.injEq, Option.some.injEq, ix2_eq_iff]
  simp only [resultIdx?_rows, key]
  by_cases hD : Dof idx e = some n
  · rw [if_pos hD, Finset.sum_eq_single j]
    · rw [if_pos ⟨hD, rfl⟩]
    · intro b _ hb
      rw [if_neg (fun h => hb h.2)]
    · intro hj
      exact absurd (Finset.mem_univ j) hj
  · rw [if_neg hD]
    exact Finset.sum_eq_zero fun b _ => if_neg (fun h => hD h.1)

/-! ## The aggregation -/

/-- Gather the rows of `H` at the source column, weight row e by `w e` (the weight table `Wt` is constant along each
    row), and add the weighted rows into a zero table at the target column: read at (n, j) this is the sum, over the
    edges whose target is n, of `H` at (the edge's source, j) times the edge's weight. -/
theorem aggregate_apply {C : Nat}
    (wg : GatherDims.WF ⟨2, ![50000, C]⟩ ⟨2, ![650000, 1]⟩ ⟨2, ![650000, C]⟩ [1] [0] [] [0] [] 1 ![1, C])
    (ws : ScatterDims.WF ⟨2, ![50000, C]⟩ ⟨2, ![650000, 1]⟩ ⟨2, ![650000, C]⟩ [1] [0] [0] 1)
    (Z : FVec Ideal ⟨2, ![50000, C]⟩ .f32) (hZ : ∀ i, Z i = 0)
    (dcol scol : IVec ⟨2, ![650000, 1]⟩ 32) (H : FVec Ideal ⟨2, ![50000, C]⟩ .f32)
    (Wt : FVec Ideal ⟨2, ![650000, C]⟩ .f32) (w : Fin 650000 → EReal) (hW : ∀ e j, Wt (ix2 e j) = w e)
    (n : Fin 50000) (j : Fin C) :
    Host.scatterAdd (scatterDims C ws) Z dcol (mulf (Host.gather (gatherDims C wg) H scol) Wt) (ix2 n j)
      = Cert.Spec.aggAt (Dof dcol) (Sof scol) w (fun n' => H (ix2 n' j)) n := by
  rw [scatterAdd_rows_apply, hZ, zero_add]
  unfold Cert.Spec.aggAt
  refine Finset.sum_congr rfl fun e _ => ?_
  rw [mulf_apply, gather_rows_apply, hW]

end Cert.RowAgg

end
-- ==== Proof.Val.AggValue.lean ====
/-
  The kernel program's aggregation read at an index: the scatter-add of the weighted gathered rows is, at node n and
  channel j, the sum over the edges that point at n of the source node's projected channel times the edge's weight.
-/
import proofs.«111678_j16475494547689_1_alg».proof.Proof.Val.LibRowAgg
import proofs.«111678_j16475494547689_1_alg».proof.Proof.Val.HostKDefs
import Idealize.ShloMosaic.Lib.Pipeline.Value

noncomputable section

namespace Cert.KernelIdeal.Val

open Cert.KernelIdeal Cert.KernelIdeal.Gen Idealize.ShloMosaic Idealize.ShloMosaic.TcCoe Idealize.SL.Sem Idealize.ShloMosaic.StableHlo

/-- The aggregation of the projected rows `H` at node `n`, channel `j`: the sum, over the edges whose target word
    names `n`, of `H` at (the edge's clamped source row, `j`) times the edge's normalisation weight. The operand the
    rows are added into is the zero table, so nothing else contributes. -/
theorem aggK_apply (H : (⟨S50000x192, .f32⟩ : BufTy).Contents (Elt Ideal))
    (x1 : (⟨S2x600000, .i32⟩ : BufTy).Contents (Elt Ideal)) (n : Fin 50000) (j : Fin 192) :
    aggK (F := Ideal) H x1 (ValueIdx.ix2 n j)
      = Cert.Spec.aggAt (Cert.RowAgg.Dof (dsc (F := Ideal) x1))
          (Cert.RowAgg.Sof (wrapIdx (F := Ideal) (srcv (F := Ideal) x1)))
          (fun e => nrm (F := Ideal) x1 (ValueIdx.ix1 e)) (fun n' => H (ValueIdx.ix2 n' j)) n := by
  unfold aggK
  generalize dsc (F := Ideal) x1 = dcol
  generalize wrapIdx (F := Ideal) (srcv (F := Ideal) x1) = scol
  generalize nrm (F := Ideal) x1 = w
  refine Cert.RowAgg.aggregate_apply Facts₀.gather_S50000x192_S650000x1_S650000x192_1_0_n_n_0_1_1192_wf
    Facts₀.scatter_S50000x192_S650000x1_S650000x192_1_0_0_1_wf _ ?_ dcol scol H _
    (fun e => w (ValueIdx.ix1 e)) ?_ n j
  · intro i
    show Ideal.ofBits .f32 0x00000000#32 = 0
    exact Ideal.ofBits_zero_f32
  · intro e j'
    rw [broadcastInDim_apply _ _ _ (ValueIdx.ix2 e j') (ValueIdx.ix2 e (0 : Fin 1)) (fun a => match a with
      | ⟨0, _⟩ => by show e.val = if (650000 : Nat) = 1 then 0 else e.val; rw [if_neg (by decide)]
      | ⟨1, _⟩ => by show 0 = if (1 : Nat) = 1 then 0 else j'.val; rw [if_pos rfl])]
    exact broadcastInDim_apply _ _ w (ValueIdx.ix2 e (0 : Fin 1)) (ValueIdx.ix1 e) (fun a => match a with
      | ⟨0, _⟩ => by show e.val = if (650000 : Nat) = 1 then 0 else e.val; rw [if_neg (by decide)])

end Cert.KernelIdeal.Val

end
-- ==== Proof.Val.AggValueRef.lean ====
/-
  The reference program's two aggregations read at an index: each scatter-add of weighted gathered rows is, at node n
  and channel j, the sum over the edges that point at n of the source node's projected channel times the edge's
  weight. One statement for the 128 embedding channels, one for the 64 assignment channels.
-/
import proofs.«111678_j16475494547689_1_alg».proof.Proof.Val.LibRowAgg
import proofs.«111678_j16475494547689_1_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The embedding channels' aggregation at node `n`, channel `j`: the sum, over the edges whose target word names
    `n`, of the projected features at (the edge's clamped source row, `j`) times the edge's weight. -/
theorem agg128_apply (x0 : (⟨S50000x128, .f32⟩ : BufTy).Contents (Elt Ideal))
    (x1 : (⟨S2x600000, .i32⟩ : BufTy).Contents (Elt Ideal)) (x2 : (⟨S128x128, .f32⟩ : BufTy).Contents (Elt Ideal))
    (n : Fin 50000) (j : Fin 128) :
    Read.val_main_v43 (F := Ideal) x0 x1 x2 (ValueIdx.ix2 n j)
      = Cert.Spec.aggAt (Cert.RowAgg.Dof (Read.val_main_v42 (F := Ideal) x1))
          (Cert.RowAgg.Sof (Read.val_main_v36 (F := Ideal) x1))
          (fun e => Read.val_main_v30 (F := Ideal) x1 (ValueIdx.ix1 e))
          (fun n' => Read.val_main_v4 (F := Ideal) x0 x2 (ValueIdx.ix2 n' j)) n := by
  unfold Read.val_main_v43 Read.val_main_v40 Read.val_main_v37
  generalize Read.val_main_v42 (F := Ideal) x1 = dcol
  generalize Read.val_main_v36 (F := Ideal) x1 = scol
  generalize Read.val_main_v4 (F := Ideal) x0 x2 = H
  refine Cert.RowAgg.aggregate_apply Facts₀.gather_S50000x128_S650000x1_S650000x128_1_0_n_n_0_1_1128_wf
    Facts₀.scatter_S50000x128_S650000x1_S650000x128_1_0_0_1_wf _ ?_ dcol scol H _
    (fun e => Read.val_main_v30 (F := Ideal) x1 (ValueIdx.ix1 e)) ?_ n j
  · intro i
    rw [Read.val_main_v41_apply]
    show Ideal.ofBits .f32 0x00000000#32 = 0
    exact Ideal.ofBits_zero_f32
  · intro e j'
    rw [Read.val_main_v39_apply, Read.val_main_v38_apply]
    exact congrArg (Read.val_main_v30 (F := Ideal) x1) (funext fun a => match a with | ⟨0, _⟩ => rfl)

/-- The assignment channels' aggregation at node `n`, channel `j`: the same sum over the edges that point at `n`,
    of the 64 projected assignment features. -/
theorem agg64_apply (x0 : (⟨S50000x128, .f32⟩ : BufTy).Contents (Elt Ideal))
    (x1 : (⟨S2x600000, .i32⟩ : BufTy).Contents (Elt Ideal)) (x4 : (⟨S128x64, .f32⟩ : BufTy).Contents (Elt Ideal))
    (n : Fin 50000) (j : Fin 64) :
    Read.val_main_v87 (F := Ideal) x0 x1 x4 (ValueIdx.ix2 n j)
      = Cert.Spec.aggAt (Cert.RowAgg.Dof (Read.val_main_v86 (F := Ideal) x1))
          (Cert.RowAgg.Sof (Read.val_main_v80 (F := Ideal) x1))
          (fun e => Read.val_main_v74 (F := Ideal) x1 (ValueIdx.ix1 e))
          (fun n' => Read.val_main_v48 (F := Ideal) x0 x4 (ValueIdx.ix2 n' j)) n := by
  unfold Read.val_main_v87 Read.val_main_v84 Read.val_main_v81
  generalize Read.val_main_v86 (F := Ideal) x1 = dcol
  generalize Read.val_main_v80 (F := Ideal) x1 = scol
  generalize Read.val_main_v48 (F := Ideal) x0 x4 = H
  refine Cert.RowAgg.aggregate_apply Facts₀.gather_S50000x64_S650000x1_S650000x64_1_0_n_n_0_1_164_wf
    Facts₀.scatter_S50000x64_S650000x1_S650000x64_1_0_0_1_wf _ ?_ dcol scol H _
    (fun e => Read.val_main_v74 (F := Ideal) x1 (ValueIdx.ix1 e)) ?_ n j
  · intro i
    rw [Read.val_main_v85_apply]
    show Ideal.ofBits .f32 0x00000000#32 = 0
    exact Ideal.ofBits_zero_f32
  · intro e j'
    rw [Read.val_main_v83_apply, Read.val_main_v82_apply]
    exact congrArg (Read.val_main_v74 (F := Ideal) x1) (funext fun a => match a with | ⟨0, _⟩ => rfl)

end Cert.ReferenceIdeal.RefValue

end
-- ==== Proof.Val.RefPool.lean ====
/- The reference program's pooled result, entry by entry, in the words of the specification.

   Per node n the program forms an embedding row z(n, ·) = max(a128(n, ·) + b₃, 0) from the first aggregation, and
   from the second aggregation the clipped channels max(a64(n, ·) + b₅, 0), their 512 logits
   l(n, c) = ∑ₖ max(a64(n, k) + b₅ k, 0) · W₆(k, c) + b₇ c, and the softmax of those logits over c: the row maximum is a
   fold of max from −∞ taken once more against −∞, the exponentials of the differences are divided by their sum.
   The result at (cluster, channel) is the sum over the 50000 nodes of softmax × embedding. -/
import proofs.«111678_j16475494547689_1_alg».proof.Proof.RefRead
import proofs.«111678_j16475494547689_1_alg».proof.Proof.Val.Spec
import Idealize.ShloMosaic.Lib.Pipeline.Value
import Idealize.ShloMosaic.Lib.ValueIdx
import Idealize.ShloMosaic.PureOps.Ideal.Laws
import Idealize.ShloMosaic.PureOps.Reduce

set_option maxRecDepth 16384
set_option pp.maxSteps 5000
set_option pp.deepTerms false

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

variable (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x512, .f32⟩ : BufTy).Contents (Elt Ideal)) (x7 : (⟨S512, .f32⟩ : BufTy).Contents (Elt Ideal))

/-! ## The embedding row -/

/-- The embedding at (n, h): the first aggregation there plus the bias at h, clipped at zero. -/
theorem z_apply (n : Fin 50000) (h : Fin 128) :
    val_main_v47 (F := Ideal) x0 x1 x2 x3 (ix2 n h)
      = Cert.Spec.zrow (fun j => val_main_v43 (F := Ideal) x0 x1 x2 (ix2 n j)) (fun h' => x3 (ix1 h')) h := by
  have e : idx_main_v44 (idx_main_v45 (ix2 n h : S50000x128.Idx)) = (ix1 h : S128.Idx) :=
    funext fun a => Fin.ext (by match a with | ⟨0, _⟩ => rfl)
  rw [val_main_v47_apply, val_main_v46_apply, val_main_v45_apply, val_main_v44_apply, val_main_call1_v0_apply,
    val_main_call1_cst_apply, e]
  simp only [Ideal.maximumf_def, Ideal.addf_def, Ideal.ofBits_def, Ideal.ofBits_zero_f32]
  rfl

/-! ## The logits row -/

/-- The clipped assignment channel at (n, k): the second aggregation there plus the bias at k, clipped at zero. -/
theorem act_apply (n : Fin 50000) (k : Fin 64) :
    val_main_v91 (F := Ideal) x0 x1 x4 x5 (ix2 n k)
      = max (val_main_v87 (F := Ideal) x0 x1 x4 (ix2 n k) + x5 (ix1 k)) 0 := by
  have e : idx_main_v88 (idx_main_v89 (ix2 n k : S50000x64.Idx)) = (ix1 k : S64.Idx) :=
    funext fun a => Fin.ext (by match a with | ⟨0, _⟩ => rfl)
  rw [val_main_v91_apply, val_main_v90_apply, val_main_v89_apply, val_main_v88_apply, val_main_call3_v0_apply,
    val_main_call3_cst_apply, e]
  simp only [Ideal.maximumf_def, Ideal.addf_def, Ideal.ofBits_def, Ideal.ofBits_zero_f32]

/-- The logit at (n, c): the clipped channels of node n against column c of the 64×512 matrix, plus the bias at c. -/
theorem logit_apply (n : Fin 50000) (c : Fin 512) :
    val_main_v95 (F := Ideal) x0 x1 x4 x5 x6 x7 (ix2 n c)
      = Cert.Spec.lrow (fun k => val_main_v87 (F := Ideal) x0 x1 x4 (ix2 n k)) (fun k => x5 (ix1 k))
          (fun k c' => x6 (ix2 k c')) (fun c' => x7 (ix1 c')) c := by
  have el : ∀ k : Fin 64, lidx_main_v92 (ix2 n c : S50000x512.Idx) k = (ix2 n k : S50000x64.Idx) := fun k =>
    funext fun a => Fin.ext (by match a with | ⟨0, _⟩ => rfl | ⟨1, _⟩ => rfl)
  have er : ∀ k : Fin 64, ridx_main_v92 (ix2 n c : S50000x512.Idx) k = (ix2 k c : S64x512.Idx) := fun k =>
    funext fun a => Fin.ext (by match a with | ⟨0, _⟩ => rfl | ⟨1, _⟩ => rfl)
  have eb : idx_main_v93 (idx_main_v94 (ix2 n c : S50000x512.Idx)) = (ix1 c : S512.Idx) :=
    funext fun a => Fin.ext (by match a with | ⟨0, _⟩ => rfl)
  rw [val_main_v95_apply, val_main_v92_apply, val_main_v94_apply, val_main_v93_apply, eb]
  simp only [el, er, act_apply, Ideal.addf_def]
  rfl

/-- Node n's logits as a row are the specification's logits row. -/
theorem logit_row (n : Fin 50000) :
    (fun c : Fin 512 => val_main_v95 (F := Ideal) x0 x1 x4 x5 x6 x7 (ix2 n c))
      = Cert.Spec.lrow (fun k => val_main_v87 (F := Ideal) x0 x1 x4 (ix2 n k)) (fun k => x5 (ix1 k))
          (fun k c' => x6 (ix2 k c')) (fun c' => x7 (ix1 c')) :=
  funext fun c => logit_apply x0 x1 x4 x5 x6 x7 n c

/-! ## The softmax row -/

/-- The 50000×512 array loses its column axis to the 50000 vector. -/
theorem reduces_cols : S50000x512.Reduces [1] S50000 := by decide

/-- The node index n with column k put back is (n, k). -/
theorem lift_cols (hr : S50000x512.Reduces [1] S50000) (n : Fin 50000) (k : Fin (S50000x512.size 1)) :
    hr.lift (ix1 n) k = (ix2 n (⟨k.val, k.isLt⟩ : Fin 512) : S50000x512.Idx) := by
  funext a; apply Fin.ext
  match a with
  | ⟨0, _⟩ => rfl
  | ⟨1, _⟩ => rfl

/-- A fold of max, from −∞, over the columns of any 50000×512 array at row n — what the program's row maximum is. -/
theorem reduce_max_apply (y : (⟨S50000x512, .f32⟩ : BufTy).Contents (Elt Ideal)) (n : Fin 50000) :
    Host.reduce (α := Ideal .f32) FloatOps.maximumf y (val_main_cst_20 (F := Ideal)) reducesTo_S50000x512_S50000_d1 h_S_ (ix1 n)
      = (Finset.univ : Finset (Fin 512)).fold max Cert.Spec.ninf (fun c => y (ix2 n c)) := by
  rw [Host.reduce_eq_fold_single (α := Ideal .f32) FloatOps.maximumf y _ reducesTo_S50000x512_S50000_d1 reduces_cols h_S_]
  have hf : (y ∘ reduces_cols.lift (ix1 n)) = fun c : Fin 512 => y (ix2 n c) :=
    funext fun k => congrArg y (lift_cols reduces_cols n k)
  exact congrArg (fun f => Finset.fold max (Ideal.ofBits .f32 0xFF800000#32) f (Finset.univ : Finset (Fin 512))) hf

/-- The maximum node n's softmax subtracts is the specification's, of the node's logits. -/
theorem rowmax_apply (n : Fin 50000) :
    val_main_v98 (F := Ideal) x0 x1 x4 x5 x6 x7 (ix1 n)
      = Cert.Spec.mrow (fun c => val_main_v95 (F := Ideal) x0 x1 x4 x5 x6 x7 (ix2 n c)) := by
  rw [val_main_v98_apply, val_main_v97_apply, val_main_cst_21_apply]
  unfold val_main_v96
  generalize val_main_v95 (F := Ideal) x0 x1 x4 x5 x6 x7 = y
  exact congrArg (max Cert.Spec.ninf) (reduce_max_apply y n)

/-- The exponential at (n, c): of the logit there less the row's maximum. -/
theorem exp_apply (n : Fin 50000) (c : Fin 512) :
    val_main_v102 (F := Ideal) x0 x1 x4 x5 x6 x7 (ix2 n c)
      = Ideal.exp (val_main_v95 (F := Ideal) x0 x1 x4 x5 x6 x7 (ix2 n c)
          - Cert.Spec.mrow (fun c' => val_main_v95 (F := Ideal) x0 x1 x4 x5 x6 x7 (ix2 n c'))) := by
  have e : idx_main_v99 (idx_main_v100 (ix2 n c : S50000x512.Idx)) = (ix1 n : S50000.Idx) :=
    funext fun a => Fin.ext (by match a with | ⟨0, _⟩ => rfl)
  rw [val_main_v102_apply, val_main_v101_apply, val_main_v100_apply, val_main_v99_apply, e, rowmax_apply]
  simp only [Ideal.hostUnary_exp_def, Ideal.subf_def]

/-- The row's sum of exponentials at node n. -/
theorem expsum_apply (n : Fin 50000) :
    val_main_v103 (F := Ideal) x0 x1 x4 x5 x6 x7 (ix1 n)
      = ∑ c' : Fin 512, Ideal.exp (val_main_v95 (F := Ideal) x0 x1 x4 x5 x6 x7 (ix2 n c')
          - Cert.Spec.mrow (fun c'' => val_main_v95 (F := Ideal) x0 x1 x4 x5 x6 x7 (ix2 n c''))) := by
  have e : ∀ k : Fin 512, idx_main_v103 (ix1 n : S50000.Idx) k = (ix2 n k : S50000x512.Idx) := fun k =>
    funext fun a => Fin.ext (by match a with | ⟨0, _⟩ => rfl | ⟨1, _⟩ => rfl)
  rw [val_main_v103_apply, val_main_cst_22_apply]
  simp only [e, exp_apply, Ideal.ofBits_def, Ideal.ofBits_zero_f32, zero_add]

/-- The soft assignment at (n, c) is the specification's softmax of node n's logits. -/
theorem soft_apply (n : Fin 50000) (c : Fin 512) :
    val_main_v106 (F := Ideal) x0 x1 x4 x5 x6 x7 (ix2 n c)
      = Cert.Spec.srow (fun c' => val_main_v95 (F := Ideal) x0 x1 x4 x5 x6 x7 (ix2 n c')) c := by
  have e : idx_main_v104 (idx_main_v105 (ix2 n c : S50000x512.Idx)) = (ix1 n : S50000.Idx) :=
    funext fun a => Fin.ext (by match a with | ⟨0, _⟩ => rfl)
  rw [val_main_v106_apply, val_main_v105_apply, val_main_v104_apply, e, exp_apply, expsum_apply]
  simp only [Ideal.hostDivf_def]
  rfl

/-! ## The pooled sum -/

/-- The reference's result at (cluster, channel) is the specification's pooled sum over the nodes. -/
theorem ref_pool (cc : Fin 512) (h : Fin 128) :
    val_main_v108 (F := Ideal) x0 x1 x2 x3 x4 x5 x6 x7 (ix2 cc h)
      = Cert.Spec.pool (fun n j => val_main_v43 (F := Ideal) x0 x1 x2 (ix2 n j))
          (fun n k => val_main_v87 (F := Ideal) x0 x1 x4 (ix2 n k))
          (fun h' => x3 (ix1 h')) (fun k => x5 (ix1 k))
          (fun k c' => x6 (ix2 k c')) (fun c' => x7 (ix1 c')) cc h := by
  have el : ∀ k : Fin 50000, idx_main_v107 (lidx_main_v108 (ix2 cc h : S512x128.Idx) k) = (ix2 k cc : S50000x512.Idx) :=
    fun k => funext fun a => Fin.ext (by match a with | ⟨0, _⟩ => rfl | ⟨1, _⟩ => rfl)
  have er : ∀ k : Fin 50000, ridx_main_v108 (ix2 cc h : S512x128.Idx) k = (ix2 k h : S50000x128.Idx) :=
    fun k => funext fun a => Fin.ext (by match a with | ⟨0, _⟩ => rfl | ⟨1, _⟩ => rfl)
  rw [val_main_v108_apply]
  unfold Cert.Spec.pool Cert.Spec.term
  refine Finset.sum_congr rfl fun n _ => ?_
  rw [val_main_v107_apply, el, er, soft_apply, logit_row, z_apply]

end Cert.ReferenceIdeal.RefValue

end
-- ==== Proof.Val.CrossEq.lean ====
/-
  The two programs build the same edge data. Both append the self loops to the edge list, take the targets
  as the column a scatter-add lands on, count each node's degree, take degree^(-1/2) where the degree is
  positive, make each edge end non-negative as a gather's column, and weigh an edge by the product of the
  two ends' values. The reference does all of this once per convolution; the kernel's program does it once.
  Each equation below is between two compositions of the same operations on the edge list: it is proved by
  opening the named stages on both sides and rewriting with the equations of the earlier stages, never by
  reading a vector at an index.
-/
import proofs.«111678_j16475494547689_1_alg».proof.Proof.Val.HostKDefs
import proofs.«111678_j16475494547689_1_alg».proof.Proof.RefRead

noncomputable section

namespace Cert.Bridge

open Idealize.ShloMosaic Idealize.ShloMosaic.StableHlo
open Cert.KernelIdeal.Val Cert.ReferenceIdeal.Read

variable (x1 : (⟨Cert.KernelIdeal.S2x600000, .i32⟩ : BufTy).Contents (Elt Ideal))

/-! ## The two programs' dimension records are the same records -/

theorem scatter_rec_eq :
    Cert.KernelIdeal.scatter_S50000_S650000x1_S650000_n_0_0_1 = Cert.ReferenceIdeal.scatter_S50000_S650000x1_S650000_n_0_0_1 := rfl

theorem gather_rec_eq :
    Cert.KernelIdeal.gather_S50000_S650000x1_S650000_n_0_n_n_0_1_1 = Cert.ReferenceIdeal.gather_S50000_S650000x1_S650000_n_0_n_n_0_1_1 := rfl

/-! ## The edge lists with the self loops appended -/

theorem loops_eq1 : loops (F := Ideal) = val_main_v5 (F := Ideal) := rfl
theorem loops_eq2 : loops (F := Ideal) = val_main_v49 (F := Ideal) := rfl

theorem srcv_eq1 : srcv (F := Ideal) x1 = val_main_v6 (F := Ideal) x1 := by
  unfold srcv val_main_v6 val_main_v1 val_main_v0
  rw [loops_eq1]

theorem srcv_eq2 : srcv (F := Ideal) x1 = val_main_v50 (F := Ideal) x1 := by
  unfold srcv val_main_v50 val_main_v1 val_main_v0
  rw [loops_eq2]

theorem dstv_eq1 : dstv (F := Ideal) x1 = val_main_v7 (F := Ideal) x1 := by
  unfold dstv val_main_v7 val_main_v3 val_main_v2
  rw [loops_eq1]

theorem dstv_eq2 : dstv (F := Ideal) x1 = val_main_v51 (F := Ideal) x1 := by
  unfold dstv val_main_v51 val_main_v3 val_main_v2
  rw [loops_eq2]

/-! ## The scatter's index column: the targets -/

theorem dsc_eq1 : dsc (F := Ideal) x1 = val_main_v42 (F := Ideal) x1 := by
  unfold dsc val_main_v42
  rw [dstv_eq1]

theorem dsc_eq2 : dsc (F := Ideal) x1 = val_main_v86 (F := Ideal) x1 := by
  unfold dsc val_main_v86
  rw [dstv_eq2]

theorem dsc_eq10 : dsc (F := Ideal) x1 = val_main_v10 (F := Ideal) x1 := by
  unfold dsc val_main_v10
  rw [dstv_eq1]

theorem dsc_eq54 : dsc (F := Ideal) x1 = val_main_v54 (F := Ideal) x1 := by
  unfold dsc val_main_v54
  rw [dstv_eq2]

/-! ## The degrees and their inverse square roots -/

theorem deg_eq1 : deg (F := Ideal) x1 = val_main_v11 (F := Ideal) x1 := by
  unfold deg val_main_v11 val_main_v9 val_main_v8 val_main_cst_0 val_main_cst
  rw [dsc_eq10, scatter_rec_eq]

theorem deg_eq2 : deg (F := Ideal) x1 = val_main_v55 (F := Ideal) x1 := by
  unfold deg val_main_v55 val_main_v53 val_main_v52 val_main_cst_10 val_main_cst_9
  rw [dsc_eq54, scatter_rec_eq]

theorem dinv_eq1 : dinv (F := Ideal) x1 = val_main_v15 (F := Ideal) x1 := by
  unfold dinv val_main_v15 val_main_v13 val_main_v14 val_main_call0_v1 val_main_call0_v0 val_main_cst_2 val_main_v12 val_main_cst_1
  rw [deg_eq1]

theorem dinv_eq2 : dinv (F := Ideal) x1 = val_main_v59 (F := Ideal) x1 := by
  unfold dinv val_main_v59 val_main_v57 val_main_v58 val_main_call2_v1 val_main_call2_v0 val_main_cst_12 val_main_v56 val_main_cst_11
  rw [deg_eq2]

/-! ## The gathers' index columns: an edge end made non-negative -/

theorem widx_src21 : wrapIdx (F := Ideal) (srcv (F := Ideal) x1) = val_main_v21 (F := Ideal) x1 := by
  unfold wrapIdx val_main_v21 val_main_v20 val_main_v17 val_main_v19 val_main_v16 val_main_v18 val_main_c val_main_c_3
  rw [srcv_eq1]

theorem widx_dst28 : wrapIdx (F := Ideal) (dstv (F := Ideal) x1) = val_main_v28 (F := Ideal) x1 := by
  unfold wrapIdx val_main_v28 val_main_v27 val_main_v24 val_main_v26 val_main_v23 val_main_v25 val_main_c_4 val_main_c_5
  rw [dstv_eq1]

theorem sidx_eq1 : wrapIdx (F := Ideal) (srcv (F := Ideal) x1) = val_main_v36 (F := Ideal) x1 := by
  unfold wrapIdx val_main_v36 val_main_v35 val_main_v32 val_main_v34 val_main_v31 val_main_v33 val_main_c_6 val_main_c_7
  rw [srcv_eq1]

theorem widx_src65 : wrapIdx (F := Ideal) (srcv (F := Ideal) x1) = val_main_v65 (F := Ideal) x1 := by
  unfold wrapIdx val_main_v65 val_main_v64 val_main_v61 val_main_v63 val_main_v60 val_main_v62 val_main_c_13 val_main_c_14
  rw [srcv_eq2]

theorem widx_dst72 : wrapIdx (F := Ideal) (dstv (F := Ideal) x1) = val_main_v72 (F := Ideal) x1 := by
  unfold wrapIdx val_main_v72 val_main_v71 val_main_v68 val_main_v70 val_main_v67 val_main_v69 val_main_c_15 val_main_c_16
  rw [dstv_eq2]

theorem sidx_eq2 : wrapIdx (F := Ideal) (srcv (F := Ideal) x1) = val_main_v80 (F := Ideal) x1 := by
  unfold wrapIdx val_main_v80 val_main_v79 val_main_v76 val_main_v78 val_main_v75 val_main_v77 val_main_c_17 val_main_c_18
  rw [srcv_eq2]

/-! ## The edge weights -/

theorem nrm_eq1 : nrm (F := Ideal) x1 = val_main_v30 (F := Ideal) x1 := by
  unfold nrm val_main_v30 val_main_v22 val_main_v29
  rw [dinv_eq1, widx_src21, widx_dst28, gather_rec_eq]

theorem nrm_eq2 : nrm (F := Ideal) x1 = val_main_v74 (F := Ideal) x1 := by
  unfold nrm val_main_v74 val_main_v66 val_main_v73
  rw [dinv_eq2, widx_src65, widx_dst72, gather_rec_eq]

end Cert.Bridge

end
-- ==== Proof.Val.Bridge.lean ====
/-
  The joining argument. The kernel's program hands its second region one aggregated array of 192 channels,
  built from the node features times the two projection matrices side by side; the reference aggregates the
  128 embedding channels and the 64 assignment channels separately, from separate projections, with the
  edge data computed afresh each time. Given that each program's result is the pooled sum of the same
  row-by-row mathematics over its own aggregated channels and biases, the results agree once the arguments
  of the pooled sum agree: the aggregated channels because the edge data are the same functions of the edge
  list and column j of the joint projection is column j of the first matrix (j < 128) or column j − 128 of
  the second; the biases and the last matrix because they are the arguments themselves.

  The facts about the two programs' stages read at an index are taken as hypotheses.
  The two decoders of an index column (the row a scatter update
  lands on, if any; the row a gather reads) enter only as functions of the column, so they are parameters.
-/
import proofs.«111678_j16475494547689_1_alg».proof.Proof.Val.Spec
import proofs.«111678_j16475494547689_1_alg».proof.Proof.Val.HostKDefs
import proofs.«111678_j16475494547689_1_alg».proof.Proof.RefRead
import proofs.«111678_j16475494547689_1_alg».proof.Proof.Val.CrossEq
import Idealize.ShloMosaic.Lib.ValueIdx

noncomputable section

namespace Cert.Bridge

open Idealize.ShloMosaic Idealize.ShloMosaic.ValueIdx
open Cert.KernelIdeal Cert.KernelIdeal.Val Cert.ReferenceIdeal.Read

/-- The pooled result depends on its six arguments only. -/
theorem pool_congr {aE aE' : Fin 50000 → Fin 128 → EReal} {aA aA' : Fin 50000 → Fin 64 → EReal}
    {be be' : Fin 128 → EReal} {ba ba' : Fin 64 → EReal} {wl wl' : Fin 64 → Fin 512 → EReal} {bl bl' : Fin 512 → EReal}
    (h1 : aE = aE') (h2 : aA = aA') (h3 : be = be') (h4 : ba = ba') (h5 : wl = wl') (h6 : bl = bl')
    (c : Fin 512) (h : Fin 128) :
    Cert.Spec.pool aE aA be ba wl bl c h = Cert.Spec.pool aE' aA' be' ba' wl' bl' c h := by
  rw [h1, h2, h3, h4, h5, h6]

/-- The aggregation at a node depends on the per-node value only through its values. -/
theorem aggAt_congr (D : Fin 650000 → Option (Fin 50000)) (S : Fin 650000 → Fin 50000) (W : Fin 650000 → EReal)
    {f g : Fin 50000 → EReal} (hfg : f = g) (n : Fin 50000) :
    Cert.Spec.aggAt D S W f n = Cert.Spec.aggAt D S W g n := by
  rw [hfg]

theorem pooled_eq
    (Dof : ((⟨2, ![650000, 1]⟩ : Shape).Idx → BitVec 32) → Fin 650000 → Option (Fin 50000))
    (Sof : ((⟨2, ![650000, 1]⟩ : Shape).Idx → BitVec 32) → Fin 650000 → Fin 50000)
    (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x512, .f32⟩ : BufTy).Contents (Elt Ideal)) (x7 : (⟨S512, .f32⟩ : BufTy).Contents (Elt Ideal))
    (res : S512x128.Idx → EReal) (agg : S50000x192.Idx → EReal) (Hm : S50000x192.Idx → EReal)
    (xa : S50000x128.Idx → EReal) (wc : S128x192.Idx → EReal) (wl : S64x512.Idx → EReal)
    (be : S1x128.Idx → EReal) (ba : S1x64.Idx → EReal) (bl : S1x512.Idx → EReal)
    (hres : ∀ (cc : Fin 512) (h : Fin 128), res (ix2 cc h) = Cert.Spec.pool (fun n j => agg (ix2 n ⟨j.val, by omega⟩)) (fun n k => agg (ix2 n ⟨128 + k.val, by omega⟩)) (fun h' => be (ix2 0 h')) (fun k => ba (ix2 0 k)) (fun k c' => wl (ix2 k c')) (fun c' => bl (ix2 0 c')) cc h)
    (hagg : agg = aggK (F := Ideal) Hm x1)
    (hH : ∀ (n : Fin 50000) (j : Fin 192), Hm (ix2 n j) = ∑ k : Fin 128, xa (ix2 n k) * wc (ix2 k j))
    (hxa : xa = x0) (hwc : wc = wcat (F := Ideal) x2 x4) (hwl : wl = x6)
    (hbe : be = bE (F := Ideal) x3) (hba : ba = bA (F := Ideal) x5) (hbl : bl = bL (F := Ideal) x7)
    (haggK : ∀ (H : (⟨S50000x192, .f32⟩ : BufTy).Contents (Elt Ideal)) (x1 : (⟨S2x600000, .i32⟩ : BufTy).Contents (Elt Ideal)) (n : Fin 50000) (j : Fin 192),
      aggK (F := Ideal) H x1 (ix2 n j) = Cert.Spec.aggAt (Dof (dsc (F := Ideal) x1)) (Sof (wrapIdx (F := Ideal) (srcv (F := Ideal) x1))) (fun e => nrm (F := Ideal) x1 (ix1 e)) (fun n' => H (ix2 n' j)) n)
    (hwcat : ∀ (x2 : (⟨S128x128, .f32⟩ : BufTy).Contents (Elt Ideal)) (x4 : (⟨S128x64, .f32⟩ : BufTy).Contents (Elt Ideal)) (k : Fin 128) (j : Fin 192),
      wcat (F := Ideal) x2 x4 (ix2 k j) = if h : j.val < 128 then x2 (ix2 k ⟨j.val, h⟩) else x4 (ix2 k ⟨j.val - 128, by omega⟩))
    (hbE : ∀ (x3 : (⟨S128, .f32⟩ : BufTy).Contents (Elt Ideal)) (h' : Fin 128), bE (F := Ideal) x3 (ix2 0 h') = x3 (ix1 h'))
    (hbA : ∀ (x5 : (⟨S64, .f32⟩ : BufTy).Contents (Elt Ideal)) (k : Fin 64), bA (F := Ideal) x5 (ix2 0 k) = x5 (ix1 k))
    (hbL : ∀ (x7 : (⟨S512, .f32⟩ : BufTy).Contents (Elt Ideal)) (c' : Fin 512), bL (F := Ideal) x7 (ix2 0 c') = x7 (ix1 c'))
    (href : ∀ (cc : Fin 512) (h : Fin 128), val_main_v108 (F := Ideal) x0 x1 x2 x3 x4 x5 x6 x7 (ix2 cc h) = Cert.Spec.pool (fun n j => val_main_v43 (F := Ideal) x0 x1 x2 (ix2 n j)) (fun n k => val_main_v87 (F := Ideal) x0 x1 x4 (ix2 n k)) (fun h' => x3 (ix1 h')) (fun k => x5 (ix1 k)) (fun k c' => x6 (ix2 k c')) (fun c' => x7 (ix1 c')) cc h)
    (h128 : ∀ (n : Fin 50000) (j : Fin 128), val_main_v43 (F := Ideal) x0 x1 x2 (ix2 n j) = Cert.Spec.aggAt (Dof (val_main_v42 (F := Ideal) x1)) (Sof (val_main_v36 (F := Ideal) x1)) (fun e => val_main_v30 (F := Ideal) x1 (ix1 e)) (fun n' => val_main_v4 (F := Ideal) x0 x2 (ix2 n' j)) n)
    (h64 : ∀ (n : Fin 50000) (j : Fin 64), val_main_v87 (F := Ideal) x0 x1 x4 (ix2 n j) = Cert.Spec.aggAt (Dof (val_main_v86 (F := Ideal) x1)) (Sof (val_main_v80 (F := Ideal) x1)) (fun e => val_main_v74 (F := Ideal) x1 (ix1 e)) (fun n' => val_main_v48 (F := Ideal) x0 x4 (ix2 n' j)) n) :
    res = val_main_v108 (F := Ideal) x0 x1 x2 x3 x4 x5 x6 x7 := by
  funext i
  obtain ⟨cc, h, rfl⟩ : ∃ (cc : Fin 512) (h : Fin 128), i = ix2 cc h := ⟨i 0, i 1, eq_ix2 i⟩
  rw [hres cc h, href cc h]
  refine pool_congr ?_ ?_ ?_ ?_ ?_ ?_ cc h
  · -- the 128 embedding channels: columns 0 … 127 of the joint aggregation
    funext n j
    rw [hagg, haggK, h128 n j, dsc_eq1, sidx_eq1, nrm_eq1]
    refine aggAt_congr _ _ _ ?_ n
    funext n'
    rw [hH, hxa, hwc, val_main_v4_apply]
    refine Finset.sum_congr rfl fun k _ => ?_
    rw [hwcat x2 x4 k, dif_pos (show ((⟨j.val, by omega⟩ : Fin 192)).val < 128 from j.isLt)]
    have el : lidx_main_v4 (ix2 n' j) k = ix2 n' k := funext fun a => Fin.ext (by
      match a with
      | ⟨0, _⟩ => rfl
      | ⟨1, _⟩ => rfl)
    have er : ridx_main_v4 (ix2 n' j) k = ix2 k j := funext fun a => Fin.ext (by
      match a with
      | ⟨0, _⟩ => rfl
      | ⟨1, _⟩ => rfl)
    rw [el, er]
  · -- the 64 assignment channels: columns 128 … 191 of the joint aggregation
    funext n j
    rw [hagg, haggK, h64 n j, dsc_eq2, sidx_eq2, nrm_eq2]
    refine aggAt_congr _ _ _ ?_ n
    funext n'
    rw [hH, hxa, hwc, val_main_v48_apply]
    refine Finset.sum_congr rfl fun k _ => ?_
    rw [hwcat x2 x4 k, dif_neg (show ¬ ((⟨128 + j.val, by omega⟩ : Fin 192)).val < 128 from by show ¬ (128 + j.val < 128); omega)]
    have el : lidx_main_v48 (ix2 n' j) k = ix2 n' k := funext fun a => Fin.ext (by
      match a with
      | ⟨0, _⟩ => rfl
      | ⟨1, _⟩ => rfl)
    have er : ridx_main_v48 (ix2 n' j) k = ix2 k j := funext fun a => Fin.ext (by
      match a with
      | ⟨0, _⟩ => rfl
      | ⟨1, _⟩ => rfl)
    have ej : (⟨((⟨128 + j.val, by omega⟩ : Fin 192)).val - 128, by show 128 + j.val - 128 < 64; omega⟩ : Fin 64) = j :=
      Fin.ext (by show 128 + j.val - 128 = j.val; omega)
    rw [el, er, ej]
  · funext h'
    rw [hbe, hbE]
  · funext k
    rw [hba, hbA]
  · rw [hwl]
  · funext c'
    rw [hbl, hbL]

end Cert.Bridge

end
-- ==== Proof.Val.Final.lean ====
/- The pooled array the second kernel region leaves is the reference's result, as one term of the eight launch
   arguments. The joining argument is applied to: the two regions' output arrays read entry by entry (the first a
   product of the node features with the two projection matrices side by side, the second the pooled sum over the
   aggregated channels), the host stretches read at the buffers the regions are entered with (the aggregation, the
   side-by-side matrix, the three bias rows, the last matrix), and the reference's own pooled sum and aggregations. -/
import proofs.«111678_j16475494547689_1_alg».proof.Proof.KI.Run
import proofs.«111678_j16475494547689_1_alg».proof.Proof.Val.R0Value
import proofs.«111678_j16475494547689_1_alg».proof.Proof.Val.R1Value
import proofs.«111678_j16475494547689_1_alg».proof.Proof.Val.HostKValue
import proofs.«111678_j16475494547689_1_alg».proof.Proof.Val.AggValue
import proofs.«111678_j16475494547689_1_alg».proof.Proof.Val.AggValueRef
import proofs.«111678_j16475494547689_1_alg».proof.Proof.Val.RefPool
import proofs.«111678_j16475494547689_1_alg».proof.Proof.Val.Bridge
import proofs.«111678_j16475494547689_1_alg».proof.Proof.RefRead

set_option maxRecDepth 16384

noncomputable section

namespace Cert.Proof

open Idealize.ShloMosaic Idealize.ShloMosaic.TcCoe Idealize.SL.Sem
open Cert.KernelIdeal

/-- At the ideal values the array the second region leaves in the program's result buffer is the reference's result
    term read at the kernel's launch arguments. -/
theorem result_eq (m : (ℓ : Loc nD τ sig) → Buf (Elt Ideal) ℓ) (c : Dev nD) :
    Gen.V6 m (Hand.outs m) c main_v48
      = Cert.ReferenceIdeal.Read.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Cert.Bridge.pooled_eq Cert.RowAgg.Dof Cert.RowAgg.Sof
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (Gen.V6 m (Hand.outs m) c main_v48)
    (Hand.VV5 m c main_v44)
    (Hand.outs m 2 main_v5 c)
    (Hand.VV1 m c main_arg0)
    (Hand.VV1 m c main_v4)
    (Hand.VV5 m c main_arg6)
    (Hand.VV5 m c main_v45)
    (Hand.VV5 m c main_v46)
    (Hand.VV5 m c main_v47)
    (fun cc h => by rw [Hand.V6_v48]; exact Val.pool_value (Hand.VV5 m) c cc h)
    (Val.V5_v44 m (Hand.outs m) c)
    (fun n j => by rw [Hand.outs_v5]; exact Val.H_apply (Hand.VV1 m) c n j)
    (Val.V1_arg0 m c)
    (Val.V1_v4 m c)
    (Val.V5_arg6 m (Hand.outs m) c)
    (Val.V5_v45 m (Hand.outs m) c)
    (Val.V5_v46 m (Hand.outs m) c)
    (Val.V5_v47 m (Hand.outs m) c)
    Val.aggK_apply
    Val.wcat_apply
    Val.bE_apply
    Val.bA_apply
    Val.bL_apply
    (Cert.ReferenceIdeal.RefValue.ref_pool (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (Cert.ReferenceIdeal.RefValue.agg128_apply (m ((c.tc : Thread nD τ).loc main_arg0)) (m ((c.tc : Thread nD τ).loc main_arg1)) (m ((c.tc : Thread nD τ).loc main_arg2)))
    (Cert.ReferenceIdeal.RefValue.agg64_apply (m ((c.tc : Thread nD τ).loc main_arg0)) (m ((c.tc : Thread nD τ).loc main_arg1)) (m ((c.tc : Thread nD τ).loc main_arg4)))

end Cert.Proof

end
-- ==== Proof.Val.RefResultS.lean ====
/-
  The reference program's result, read stretch by stretch. Its 142 operations are cut into six stretches, a
  cut before each concatenate of computed operands: operations 0–5 (the edge rows and the first projection),
  6–7 (the edge lists with the self loops appended), 8–64 (the first graph convolution, the second projection),
  65–66 (the edge lists again), 67–121 (the second graph convolution), 122–141 (the logits, the softmax and
  the final product). After each stretch the buffers a later stretch reads hold the named stage values of the
  arguments; the last stretch's product is the result.
-/
import proofs.«111678_j16475494547689_1_alg».proof.Proof.RefRead
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stretches -/

set_option maxRecDepth 8192 in
/-- The operations are the six stretches in order. -/
theorem ops_split : (Value.ops (F := F))
    = Value.ops.take 6 ++ ((Value.ops.drop 6).take 2 ++ ((Value.ops.drop 8).take 57
      ++ ((Value.ops.drop 65).take 2 ++ ((Value.ops.drop 67).take 55 ++ Value.ops.drop 122)))) := rfl

/-- A stretch, given as a segment of the operation list, spelt out as the list of its operations. -/
macro "stretch" : tactic =>
  `(tactic| simp only [Value.ops, List.drop_succ_cons, List.drop_zero, List.take_succ_cons, List.take_zero])

variable (m : (ℓ : Loc nD τ sig) → Buf (Elt F) ℓ) (c : Dev nD)

set_option quotPrecheck false in
/-- An argument's contents at launch. -/
local notation "𝓐" k:max => m ((c.tc : Thread nD τ).loc k)

/-- The buffers after operations 0–5. -/
def WA : Valuation τ sig (Elt F) := after ((Value.ops (F := F)).take 6) (launchContents m c)
/-- The buffers after operations 0–7. -/
def WB : Valuation τ sig (Elt F) := after (((Value.ops (F := F)).drop 6).take 2) (WA m c)
/-- The buffers after operations 0–64. -/
def WC : Valuation τ sig (Elt F) := after (((Value.ops (F := F)).drop 8).take 57) (WB m c)
/-- The buffers after operations 0–66. -/
def WE : Valuation τ sig (Elt F) := after (((Value.ops (F := F)).drop 65).take 2) (WC m c)
/-- The buffers after operations 0–121. -/
def WG : Valuation τ sig (Elt F) := after (((Value.ops (F := F)).drop 67).take 55) (WE m c)
/-- The buffers after all 142 operations. -/
def WH : Valuation τ sig (Elt F) := after ((Value.ops (F := F)).drop 122) (WG m c)

/-! ## After operations 0–5: the edge rows as vectors, the first projection, the node numbers -/

theorem WA_v1 : WA m c (Proc.devRef .tc main_v1) = Read.val_main_v1 (F := F) (𝓐 main_arg1) := by
  unfold WA; stretch; after_results_simp; rfl

theorem WA_v3 : WA m c (Proc.devRef .tc main_v3) = Read.val_main_v3 (F := F) (𝓐 main_arg1) := by
  unfold WA; stretch; after_results_simp; rfl

theorem WA_v4 : WA m c (Proc.devRef .tc main_v4) = Read.val_main_v4 (F := F) (𝓐 main_arg0) (𝓐 main_arg2) := by
  unfold WA; stretch; after_results_simp; rfl

theorem WA_v5 : WA m c (Proc.devRef .tc main_v5) = Read.val_main_v5 (F := F) := by
  unfold WA; stretch; after_results_simp; rfl

/-- No operation writes an argument. -/
theorem WA_arg0 : WA m c (Proc.devRef .tc main_arg0) = 𝓐 main_arg0 := by
  unfold WA; stretch; after_results_simp
theorem WA_arg3 : WA m c (Proc.devRef .tc main_arg3) = 𝓐 main_arg3 := by
  unfold WA; stretch; after_results_simp
theorem WA_arg4 : WA m c (Proc.devRef .tc main_arg4) = 𝓐 main_arg4 := by
  unfold WA; stretch; after_results_simp
theorem WA_arg5 : WA m c (Proc.devRef .tc main_arg5) = 𝓐 main_arg5 := by
  unfold WA; stretch; after_results_simp
theorem WA_arg6 : WA m c (Proc.devRef .tc main_arg6) = 𝓐 main_arg6 := by
  unfold WA; stretch; after_results_simp
theorem WA_arg7 : WA m c (Proc.devRef .tc main_arg7) = 𝓐 main_arg7 := by
  unfold WA; stretch; after_results_simp

/-! ## After operations 6–7: the edges' sources and targets with the self loops appended -/

theorem WB_v6 : WB m c (Proc.devRef .tc main_v6) = Read.val_main_v6 (F := F) (𝓐 main_arg1) := by
  unfold WB; stretch; after_results
  rw [WA_v1 m c, WA_v5 m c]; rfl

theorem WB_v7 : WB m c (Proc.devRef .tc main_v7) = Read.val_main_v7 (F := F) (𝓐 main_arg1) := by
  unfold WB; stretch; after_results
  rw [WA_v3 m c, WA_v5 m c]; rfl

theorem WB_v1 : WB m c (Proc.devRef .tc main_v1) = Read.val_main_v1 (F := F) (𝓐 main_arg1) := by
  unfold WB; stretch; after_results_simp; exact WA_v1 m c
theorem WB_v3 : WB m c (Proc.devRef .tc main_v3) = Read.val_main_v3 (F := F) (𝓐 main_arg1) := by
  unfold WB; stretch; after_results_simp; exact WA_v3 m c
theorem WB_v4 : WB m c (Proc.devRef .tc main_v4) = Read.val_main_v4 (F := F) (𝓐 main_arg0) (𝓐 main_arg2) := by
  unfold WB; stretch; after_results_simp; exact WA_v4 m c
theorem WB_arg0 : WB m c (Proc.devRef .tc main_arg0) = 𝓐 main_arg0 := by
  unfold WB; stretch; after_results_simp; exact WA_arg0 m c
theorem WB_arg3 : WB m c (Proc.devRef .tc main_arg3) = 𝓐 main_arg3 := by
  unfold WB; stretch; after_results_simp; exact WA_arg3 m c
theorem WB_arg4 : WB m c (Proc.devRef .tc main_arg4) = 𝓐 main_arg4 := by
  unfold WB; stretch; after_results_simp; exact WA_arg4 m c
theorem WB_arg5 : WB m c (Proc.devRef .tc main_arg5) = 𝓐 main_arg5 := by
  unfold WB; stretch; after_results_simp; exact WA_arg5 m c
theorem WB_arg6 : WB m c (Proc.devRef .tc main_arg6) = 𝓐 main_arg6 := by
  unfold WB; stretch; after_results_simp; exact WA_arg6 m c
theorem WB_arg7 : WB m c (Proc.devRef .tc main_arg7) = 𝓐 main_arg7 := by
  unfold WB; stretch; after_results_simp; exact WA_arg7 m c

/-! ## After operations 8–64: the first graph convolution, the second projection, the node numbers again -/

/-- The first convolution's output: degrees, normalisation, gather, scatter-add, bias, rectification. -/
theorem WC_v47 : WC m c (Proc.devRef .tc main_v47)
    = Read.val_main_v47 (F := F) (𝓐 main_arg0) (𝓐 main_arg1) (𝓐 main_arg2) (𝓐 main_arg3) := by
  unfold WC; stretch; after_results_simp
  rw [WB_v6 m c, WB_v7 m c, WB_v4 m c, WB_arg3 m c]; rfl

theorem WC_v48 : WC m c (Proc.devRef .tc main_v48) = Read.val_main_v48 (F := F) (𝓐 main_arg0) (𝓐 main_arg4) := by
  unfold WC; stretch; after_results_simp
  rw [WB_arg0 m c, WB_arg4 m c]; rfl

theorem WC_v49 : WC m c (Proc.devRef .tc main_v49) = Read.val_main_v49 (F := F) := by
  unfold WC; stretch; after_results_simp; rfl

theorem WC_v1 : WC m c (Proc.devRef .tc main_v1) = Read.val_main_v1 (F := F) (𝓐 main_arg1) := by
  unfold WC; stretch; after_results_simp; exact WB_v1 m c
theorem WC_v3 : WC m c (Proc.devRef .tc main_v3) = Read.val_main_v3 (F := F) (𝓐 main_arg1) := by
  unfold WC; stretch; after_results_simp; exact WB_v3 m c
theorem WC_arg5 : WC m c (Proc.devRef .tc main_arg5) = 𝓐 main_arg5 := by
  unfold WC; stretch; after_results_simp; exact WB_arg5 m c
theorem WC_arg6 : WC m c (Proc.devRef .tc main_arg6) = 𝓐 main_arg6 := by
  unfold WC; stretch; after_results_simp; exact WB_arg6 m c
theorem WC_arg7 : WC m c (Proc.devRef .tc main_arg7) = 𝓐 main_arg7 := by
  unfold WC; stretch; after_results_simp; exact WB_arg7 m c

/-! ## After operations 65–66: the edge lists with the self loops appended, again -/

theorem WE_v50 : WE m c (Proc.devRef .tc main_v50) = Read.val_main_v50 (F := F) (𝓐 main_arg1) := by
  unfold WE; stretch; after_results
  rw [WC_v1 m c, WC_v49 m c]; rfl

theorem WE_v51 : WE m c (Proc.devRef .tc main_v51) = Read.val_main_v51 (F := F) (𝓐 main_arg1) := by
  unfold WE; stretch; after_results
  rw [WC_v3 m c, WC_v49 m c]; rfl

theorem WE_v47 : WE m c (Proc.devRef .tc main_v47)
    = Read.val_main_v47 (F := F) (𝓐 main_arg0) (𝓐 main_arg1) (𝓐 main_arg2) (𝓐 main_arg3) := by
  unfold WE; stretch; after_results_simp; exact WC_v47 m c
theorem WE_v48 : WE m c (Proc.devRef .tc main_v48) = Read.val_main_v48 (F := F) (𝓐 main_arg0) (𝓐 main_arg4) := by
  unfold WE; stretch; after_results_simp; exact WC_v48 m c
theorem WE_arg5 : WE m c (Proc.devRef .tc main_arg5) = 𝓐 main_arg5 := by
  unfold WE; stretch; after_results_simp; exact WC_arg5 m c
theorem WE_arg6 : WE m c (Proc.devRef .tc main_arg6) = 𝓐 main_arg6 := by
  unfold WE; stretch; after_results_simp; exact WC_arg6 m c
theorem WE_arg7 : WE m c (Proc.devRef .tc main_arg7) = 𝓐 main_arg7 := by
  unfold WE; stretch; after_results_simp; exact WC_arg7 m c

/-! ## After operations 67–121: the second graph convolution -/

theorem WG_v91 : WG m c (Proc.devRef .tc main_v91)
    = Read.val_main_v91 (F := F) (𝓐 main_arg0) (𝓐 main_arg1) (𝓐 main_arg4) (𝓐 main_arg5) := by
  unfold WG; stretch; after_results_simp
  rw [WE_v50 m c, WE_v51 m c, WE_v48 m c, WE_arg5 m c]; rfl

theorem WG_v47 : WG m c (Proc.devRef .tc main_v47)
    = Read.val_main_v47 (F := F) (𝓐 main_arg0) (𝓐 main_arg1) (𝓐 main_arg2) (𝓐 main_arg3) := by
  unfold WG; stretch; after_results_simp; exact WE_v47 m c
theorem WG_arg6 : WG m c (Proc.devRef .tc main_arg6) = 𝓐 main_arg6 := by
  unfold WG; stretch; after_results_simp; exact WE_arg6 m c
theorem WG_arg7 : WG m c (Proc.devRef .tc main_arg7) = 𝓐 main_arg7 := by
  unfold WG; stretch; after_results_simp; exact WE_arg7 m c

/-! ## After operations 122–141: the logits, the softmax over the classes, the product with the first
    convolution's output -/

theorem WH_v108 : WH m c (Proc.devRef .tc main_v108)
    = Read.val_main_v108 (F := F) (𝓐 main_arg0) (𝓐 main_arg1) (𝓐 main_arg2) (𝓐 main_arg3) (𝓐 main_arg4) (𝓐 main_arg5)
        (𝓐 main_arg6) (𝓐 main_arg7) := by
  unfold WH; stretch; after_results_simp
  rw [WG_v91 m c, WG_v47 m c, WG_arg6 m c, WG_arg7 m c]; rfl

/-! ## The result -/

/-- The fold of the reference's operations over the launch contents, at the result buffer, is the last stage
    value of the arguments. -/
theorem ref_result : after (Value.ops (F := F)) (launchContents m c) (Proc.devRef .tc main_v108)
    = Read.val_main_v108 (F := F) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  rw [ops_split, StableHlo.after_append, StableHlo.after_append, StableHlo.after_append, StableHlo.after_append,
    StableHlo.after_append]
  exact WH_v108 m c

end Cert.ReferenceIdeal.RefValue

end
-- ==== Proof.lean ====
/- The proof of `Cert.Claim`.

   Both programs compute, for 50000 nodes and 650000 weighted edges, a pooled 512×128 array: each node's features are
   projected, aggregated over the edges that point at the node, turned into an embedding row (128 channels plus a bias,
   clipped at zero) and a soft cluster assignment (64 channels plus a bias, clipped at zero, times a 64×512 matrix,
   plus a bias, then softmax over the 512 clusters); the result at (cluster, channel) is the sum over the nodes of
   assignment × embedding.

   The kernel program projects once, with the two projection matrices laid side by side — a 50000×192 product, ten
   blocks of 5000 rows —, aggregates all 192 channels at once, and accumulates the pooled sum 1000 nodes at a time
   over fifty steps into one 512×128 block. The reference projects and aggregates the 128 embedding channels and the
   64 assignment channels separately and takes one sum over the 50000 nodes. At the ideal values (the extended
   reals, exact operations, format changes the identity) these are the same sums regrouped: fifty partial sums of
   1000 terms against one sum of 50000; column j of the joint projection is column j of the first matrix (j < 128)
   or column j − 128 of the second, and the aggregation acts channel by channel, so the 192-wide aggregation is the
   128-wide and the 64-wide ones side by side; the edge data, the biases and the last matrix are the same functions
   of the arguments in both.

   The claims: the word-level program and its reading at the ideal values both run and leave the eight argument
   arrays as launched (the run of four stretches of host operations and two kernel regions, once per program); the
   reference runs and leaves its arguments likewise; nothing was rewritten between the word-level program and its
   ideal reading; and at the ideal values, from memories that agree on the arguments, the kernels' pooled array is the
   reference's, entry by entry. -/
import proofs.«111678_j16475494547689_1_alg».proof.Defs
import proofs.«111678_j16475494547689_1_alg».proof.Proof.Gen.Kernel
import proofs.«111678_j16475494547689_1_alg».proof.Proof.Gen.Kernel.Skeleton
import proofs.«111678_j16475494547689_1_alg».proof.Proof.Gen.Kernel.Launch
import proofs.«111678_j16475494547689_1_alg».proof.Proof.Gen.Kernel.Regions
import proofs.«111678_j16475494547689_1_alg».proof.Proof.Gen.Kernel.Points
import proofs.«111678_j16475494547689_1_alg».proof.Proof.Gen.KernelIdeal
import proofs.«111678_j16475494547689_1_alg».proof.Proof.Gen.KernelIdeal.Skeleton
import proofs.«111678_j16475494547689_1_alg».proof.Proof.Gen.KernelIdeal.Launch
import proofs.«111678_j16475494547689_1_alg».proof.Proof.Gen.KernelIdeal.Regions
import proofs.«111678_j16475494547689_1_alg».proof.Proof.Gen.KernelIdeal.Points
import proofs.«111678_j16475494547689_1_alg».proof.Proof.Gen.ReferenceIdeal
import proofs.«111678_j16475494547689_1_alg».proof.Proof.Gen.Pre_finite_inputs
import proofs.«111678_j16475494547689_1_alg».proof.Proof.KI.R0
import proofs.«111678_j16475494547689_1_alg».proof.Proof.KI.R1
import proofs.«111678_j16475494547689_1_alg».proof.Proof.K.Run
import proofs.«111678_j16475494547689_1_alg».proof.Proof.KI.Run
import proofs.«111678_j16475494547689_1_alg».proof.Proof.RefRun
import proofs.«111678_j16475494547689_1_alg».proof.Proof.RefRead
import proofs.«111678_j16475494547689_1_alg».proof.Proof.Val.Final
import proofs.«111678_j16475494547689_1_alg».proof.Proof.Val.RefResultS
import Idealize.ShloMosaic.Lib.Pipeline.RegionsLoop
import Idealize.ShloMosaic.Adequacy
import Idealize.ShloMosaic.Init

noncomputable section

namespace Cert.Proof

open Idealize.ShloMosaic Idealize.ShloMosaic.TcCoe Idealize.SL.Sem

/-! ## The ideal program's run, read at its result and its arguments -/

section KernelValue
open Cert.KernelIdeal

/-- The ideal program runs; the pooled array ends at the contents the second region leaves, and each argument array
    as launched: the run's naming of every unscoped buffer, read at these nine. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48) = Gen.V6 m (Hand.outs m) c main_v48
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run defs _ _).mono (fun r h c =>
    ⟨h c _ (Hand.mem_uc main_v48 (by decide)),
     (h c _ (Hand.mem_uc main_arg0 (by decide))).trans (Gen.V6_main_arg0 m (Hand.outs m) c),
     (h c _ (Hand.mem_uc main_arg1 (by decide))).trans (Gen.V6_main_arg1 m (Hand.outs m) c),
     (h c _ (Hand.mem_uc main_arg2 (by decide))).trans (Gen.V6_main_arg2 m (Hand.outs m) c),
     (h c _ (Hand.mem_uc main_arg3 (by decide))).trans (Gen.V6_main_arg3 m (Hand.outs m) c),
     (h c _ (Hand.mem_uc main_arg4 (by decide))).trans (Gen.V6_main_arg4 m (Hand.outs m) c),
     (h c _ (Hand.mem_uc main_arg5 (by decide))).trans (Gen.V6_main_arg5 m (Hand.outs m) c),
     (h c _ (Hand.mem_uc main_arg6 (by decide))).trans (Gen.V6_main_arg6 m (Hand.outs m) c),
     (h c _ (Hand.mem_uc main_arg7 (by decide))).trans (Gen.V6_main_arg7 m (Hand.outs m) c)⟩)
    (Hand.run_main (F := Ideal) m ρ)

end KernelValue

/-! ## The reference's result -/

/-- The reference's result buffer after its operations, from the launch contents, is its result term of the launch
    arguments. -/
theorem ref_value (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.Value.ops (F := Ideal)) (StableHlo.launchContents m' c) (Proc.devRef .tc Cert.ReferenceIdeal.main_v108)
      = Cert.ReferenceIdeal.Read.val_main_v108 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) :=
  Cert.ReferenceIdeal.RefValue.ref_result m' c

/-! ## The five claims -/

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values, from memories that agree on the eight arguments, both programs run, the arguments end as
    launched, and the kernels' pooled array is the reference's result: the reference's term, read at the kernel's
    arguments, is what the second region leaves. -/
theorem algebraic : Cert.algebraic_KernelIdeal_ReferenceIdeal := by
  intro m ρ m' ρ' _ hagree
  refine ⟨fun c => Cert.KernelIdeal.Gen.V6 m (Cert.KernelIdeal.Hand.outs m) c Cert.KernelIdeal.main_v48, kernel_value m ρ, ?_⟩
  refine (θ_run Cert.ReferenceIdeal.defs _ _).mono (fun _ h c => ⟨(h c).1.trans ((ref_value m' c).trans ?_), (h c).2⟩)
    (Cert.ReferenceIdeal.Value.run (F := Ideal) m' ρ')
  obtain ⟨a0, a1, a2, a3, a4, a5, a6, a7⟩ := hagree c
  rw [a0, a1, a2, a3, a4, a5, a6, a7]
  exact (result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  frame_ri, trivial, algebraic⟩

end Cert.Proof

end
